-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S16x32x1024 : Shape := ⟨3, ![16, 32, 1024]⟩
abbrev S2048 : Shape := ⟨1, ![2048]⟩
abbrev S36864x1024 : Shape := ⟨2, ![36864, 1024]⟩
abbrev S1024 : Shape := ⟨1, ![1024]⟩
abbrev S1024x1024 : Shape := ⟨2, ![1024, 1024]⟩
abbrev S1024x6 : Shape := ⟨2, ![1024, 6]⟩
abbrev S6 : Shape := ⟨1, ![6]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S16x32x1024 : S_.BroadcastsInDim S16x32x1024 (![] : Fin 0 → Fin S16x32x1024.rank)
  reducesTo_S16x32x1024_S_d0_1_2 : S16x32x1024.ReducesTo [0, 1, 2] S_
  bcast_S_S36864x1024 : S_.BroadcastsInDim S36864x1024 (![] : Fin 0 → Fin S36864x1024.rank)
  reducesTo_S36864x1024_S_d0_1 : S36864x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x6 : S_.BroadcastsInDim S1024x6 (![] : Fin 0 → Fin S1024x6.rank)
  reducesTo_S1024x6_S_d0_1 : S1024x6.ReducesTo [0, 1] S_
  bcast_S_S6 : S_.BroadcastsInDim S6 (![] : Fin 0 → Fin S6.rank)
  reducesTo_S6_S_d0 : S6.ReducesTo [0] S_
  bcast_S_S2048 : S_.BroadcastsInDim S2048 (![] : Fin 0 → Fin S2048.rank)
  reducesTo_S2048_S_d0 : S2048.ReducesTo [0] S_

variable [Facts]

def fn_part3 {F : FTy → Type} [FloatOps F] (main_arg2 : IVec S2048 32) (main_arg12 : FVec F S6 .f32) (main_v48 : IVec S_ 1) (main_v49 : FVec F S1024x6 .f32) (main_v50 : FVec F S1024x6 .f32) : IVec S_ 1 :=
  let main_v51 : IVec S1024x6 1 := cmpf .olt main_v49 main_v50
  let main_c_19 : IVec S_ 1 := constantI S_ 1 1#1
  let main_v52 : IVec S_ 1 := (fun x v => Host.reduce IntOp.andi x v reducesTo_S1024x6_S_d0_1 h_S_) main_v51 main_c_19
  let main_v53 : IVec S_ 1 := andi main_v48 main_v52
  let main_v54 : FVec F S6 .f32 := Host.absf main_arg12
  let main_cst_20 : FVec F S_ .f32 := constant S_ .f32 0x7F800000#32
  let main_v55 : FVec F S6 .f32 := broadcastInDim S6 ![] bcast_S_S6 main_cst_20
  let main_v56 : IVec S6 1 := cmpf .olt main_v54 main_v55
  let main_c_21 : IVec S_ 1 := constantI S_ 1 1#1
  let main_v57 : IVec S_ 1 := (fun x v => Host.reduce IntOp.andi x v reducesTo_S6_S_d0 h_S_) main_v56 main_c_21
  let main_v58 : IVec S_ 1 := andi main_v53 main_v57
  let main_c_22 : IVec S_ 32 := constantI S_ 32 0#32
  let main_v59 : IVec S2048 32 := broadcastInDim S2048 ![] bcast_S_S2048 main_c_22
  let main_v60 : IVec S2048 1 := cmpi .sge main_arg2 main_v59
  let main_c_23 : IVec S_ 1 := constantI S_ 1 1#1
  let main_v61 : IVec S_ 1 := (fun x v => Host.reduce IntOp.andi x v reducesTo_S2048_S_d0 h_S_) main_v60 main_c_23
  let main_v62 : IVec S_ 1 := andi main_v58 main_v61
  let main_c_24 : IVec S_ 32 := constantI S_ 32 16#32
  let main_v63 : IVec S2048 32 := broadcastInDim S2048 ![] bcast_S_S2048 main_c_24
  let main_v64 : IVec S2048 1 := cmpi .slt main_arg2 main_v63
  let main_c_25 : IVec S_ 1 := constantI S_ 1 1#1
  let main_v65 : IVec S_ 1 := (fun x v => Host.reduce IntOp.andi x v reducesTo_S2048_S_d0 h_S_) main_v64 main_c_25
  let main_v66 : IVec S_ 1 := andi main_v62 main_v65
  main_v66

def fn_part2 {F : FTy → Type} [FloatOps F] (main_arg2 : IVec S2048 32) (main_arg8 : FVec F S1024 .f32) (main_arg9 : FVec F S1024x1024 .f32) (main_arg10 : FVec F S1024 .f32) (main_arg11 : FVec F S1024x6 .f32) (main_arg12 : FVec F S6 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg9
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x6 .f32 := Host.absf main_arg11
  let main_cst_18 : FVec F S_ .f32 := constant S_ .f32 0x7F800000#32
  let main_v50 : FVec F S1024x6 .f32 := broadcastInDim S1024x6 ![] bcast_S_S1024x6 main_cst_18
  fn_part3 (F := F) main_arg2 main_arg12 main_v48 main_v49 main_v50

def fn_part1 {F : FTy → Type} [FloatOps F] (main_arg2 : IVec S2048 32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x6 .f32) (main_arg12 : FVec F S6 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg7
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg2 main_arg8 main_arg9 main_arg10 main_arg11 main_arg12 main_v33

def fn {F : FTy → Type} [FloatOps F] (main_arg0 : FVec F S2048x4096 .f32) (main_arg1 : FVec F S16x32x1024 .f32) (main_arg2 : IVec S2048 32) (main_arg3 : FVec F S36864x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x6 .f32) (main_arg12 : FVec F S6 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S16x32x1024 .f32 := Host.absf main_arg1
  let main_cst_0 : FVec F S_ .f32 := constant S_ .f32 0x7F800000#32
  let main_v5 : FVec F S16x32x1024 .f32 := broadcastInDim S16x32x1024 ![] bcast_S_S16x32x1024 main_cst_0
  let main_v6 : IVec S16x32x1024 1 := cmpf .olt main_v4 main_v5
  let main_c_1 : IVec S_ 1 := constantI S_ 1 1#1
  let main_v7 : IVec S_ 1 := (fun x v => Host.reduce IntOp.andi x v reducesTo_S16x32x1024_S_d0_1_2 h_S_) main_v6 main_c_1
  let main_v8 : IVec S_ 1 := andi main_v3 main_v7
  let main_v9 : FVec F S36864x1024 .f32 := Host.absf main_arg3
  let main_cst_2 : FVec F S_ .f32 := constant S_ .f32 0x7F800000#32
  let main_v10 : FVec F S36864x1024 .f32 := broadcastInDim S36864x1024 ![] bcast_S_S36864x1024 main_cst_2
  let main_v11 : IVec S36864x1024 1 := cmpf .olt main_v9 main_v10
  let main_c_3 : IVec S_ 1 := constantI S_ 1 1#1
  let main_v12 : IVec S_ 1 := (fun x v => Host.reduce IntOp.andi x v reducesTo_S36864x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg2 main_arg5 main_arg6 main_arg7 main_arg8 main_arg9 main_arg10 main_arg11 main_arg12 main_v13 main_v16
-- ==== Kernel.lean ====
abbrev S2048x4096 : Shape := ⟨2, ![2048, 4096]⟩
abbrev S16x32x1024 : Shape := ⟨3, ![16, 32, 1024]⟩
abbrev S2048 : Shape := ⟨1, ![2048]⟩
abbrev S36864x1024 : Shape := ⟨2, ![36864, 1024]⟩
abbrev S1024 : Shape := ⟨1, ![1024]⟩
abbrev S1024x1024 : Shape := ⟨2, ![1024, 1024]⟩
abbrev S1024x6 : Shape := ⟨2, ![1024, 6]⟩
abbrev S6 : Shape := ⟨1, ![6]⟩
abbrev S_ : Shape := ⟨0, ![]⟩
abbrev S2048x1 : Shape := ⟨2, ![2048, 1]⟩
abbrev S16x32768 : Shape := ⟨2, ![16, 32768]⟩
abbrev S2x16x1024 : Shape := ⟨3, ![2, 16, 1024]⟩
abbrev S16x4096 : Shape := ⟨2, ![16, 4096]⟩
abbrev S4096x1024 : Shape := ⟨2, ![4096, 1024]⟩
abbrev S1x16x1024 : Shape := ⟨3, ![1, 16, 1024]⟩
abbrev S16x1024 : Shape := ⟨2, ![16, 1024]⟩
abbrev S1x1024 : Shape := ⟨2, ![1, 1024]⟩
abbrev S1x6 : Shape := ⟨2, ![1, 6]⟩
abbrev S2048x6 : Shape := ⟨2, ![2048, 6]⟩
abbrev S128x1 : Shape := ⟨2, ![128, 1]⟩
abbrev S128x4096 : Shape := ⟨2, ![128, 4096]⟩
abbrev S128x6 : Shape := ⟨2, ![128, 6]⟩
abbrev S128x16 : Shape := ⟨2, ![128, 16]⟩
abbrev S128x1024 : Shape := ⟨2, ![128, 1024]⟩

abbrev nBuf : Space → Nat
  | .hbm => 30
  | .vmem => 24
  | .smem => 0
  | _ => 0

abbrev bufTy : (tb : Table) → Fin (tcTables nBuf tb) → BufTy
  | .hbm, ⟨0, _⟩ => ⟨S2048x4096, .f32⟩
  | .hbm, ⟨1, _⟩ => ⟨S16x32x1024, .f32⟩
  | .hbm, ⟨2, _⟩ => ⟨S2048, .i32⟩
  | .hbm, ⟨3, _⟩ => ⟨S36864x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x6, .f32⟩
  | .hbm, ⟨12, _⟩ => ⟨S6, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048x1, .i32⟩
  | .hbm, ⟨22, _⟩ => ⟨S16x32768, .f32⟩
  | .hbm, ⟨23, _⟩ => ⟨S2x16x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x6, .f32⟩
  | .hbm, ⟨29, _⟩ => ⟨S2048x6, .f32⟩
  | .local _ .vmem, ⟨0, _⟩ => ⟨S16x4096, .f32⟩
  | .local _ .vmem, ⟨1, _⟩ => ⟨S16x4096, .f32⟩
  | .local _ .vmem, ⟨2, _⟩ => ⟨S4096x1024, .f32⟩
  | .local _ .vmem, ⟨3, _⟩ => ⟨S4096x1024, .f32⟩
  | .local _ .vmem, ⟨4, _⟩ => ⟨S1x16x1024, .f32⟩
  | .local _ .vmem, ⟨5, _⟩ => ⟨S1x16x1024, .f32⟩
  | .local _ .vmem, ⟨6, _⟩ => ⟨S16x1024, .f32⟩
  | .local _ .vmem, ⟨7, _⟩ => ⟨S128x1, .i32⟩
  | .local _ .vmem, ⟨8, _⟩ => ⟨S128x1, .i32⟩
  | .local _ .vmem, ⟨9, _⟩ => ⟨S128x4096, .f32⟩
  | .local _ .vmem, ⟨10, _⟩ => ⟨S128x4096, .f32⟩
  | .local _ .vmem, ⟨11, _⟩ => ⟨S4096x1024, .f32⟩
  | .local _ .vmem, ⟨12, _⟩ => ⟨S2x16x1024, .f32⟩
  | .local _ .vmem, ⟨13, _⟩ => ⟨S1x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .f32⟩
  | .local _ .vmem, ⟨17, _⟩ => ⟨S1x1024, .f32⟩
  | .local _ .vmem, ⟨18, _⟩ => ⟨S1024x1024, .f32⟩
  | .local _ .vmem, ⟨19, _⟩ => ⟨S1x1024, .f32⟩
  | .local _ .vmem, ⟨20, _⟩ => ⟨S1024x6, .f32⟩
  | .local _ .vmem, ⟨21, _⟩ => ⟨S1x6, .f32⟩
  | .local _ .vmem, ⟨22, _⟩ => ⟨S128x6, .f32⟩
  | .local _ .vmem, ⟨23, _⟩ => ⟨S128x6, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem13_1 : DmaSem sig := 22

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c8_i32 : BitVec 32 := 8#32
  let c0_i32 : BitVec 32 := 0#32
  let c0_i32_0 : BitVec 32 := 0#32
  ![c8_i32.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x16x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1024x6 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x6 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S128x6 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  bcast_S_S2048 : S_.BroadcastsInDim S2048 (![] : Fin 0 → Fin S2048.rank)
  shapeCasts_S2048_S2048x1 : S2048.ShapeCasts S2048x1
  shapeCasts_S16x32x1024_S16x32768 : S16x32x1024.ShapeCasts S16x32768
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  inb_S4096x1024_S4096x1024_0_0 : ∀ a, (![0, 0] : Fin 2 → Nat) a + S4096x1024.size a ≤ S4096x1024.size a
  h_S4096x1024 : 0 < S4096x1024.numel
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  shapeCasts_S16x1024_S1x16x1024 : S16x1024.ShapeCasts S1x16x1024
  shapeCasts_S1024_S1x1024 : S1024.ShapeCasts S1x1024
  shapeCasts_S6_S1x6 : S6.ShapeCasts S1x6
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S128x16_d1_w32 : S128x16.Iotas .tc 32 [1]
  broadcasts_S128x1_S128x16 : S128x1.Broadcasts S128x16
  natLt_1_32 : 1 < 32
  inb_S2x16x1024_S1x16x1024_0_0_0 : ∀ a, (![0, 0, 0] : Fin 3 → Nat) a + S1x16x1024.size a ≤ S2x16x1024.size a
  inb_S2x16x1024_S1x16x1024_1_0_0 : ∀ a, (![1, 0, 0] : Fin 3 → Nat) a + S1x16x1024.size a ≤ S2x16x1024.size a
  inb_S128x4096_S128x4096_0_0 : ∀ a, (![0, 0] : Fin 2 → Nat) a + S128x4096.size a ≤ S128x4096.size a
  h_S128x4096 : 0 < S128x4096.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S1024x1024_S1024x1024_0_0 : ∀ a, (![0, 0] : Fin 2 → Nat) a + S1024x1024.size a ≤ S1024x1024.size a
  h_S1024x1024 : 0 < S1024x1024.numel
  inb_S1024x6_S1024x6_0_0 : ∀ a, (![0, 0] : Fin 2 → Nat) a + S1024x6.size a ≤ S1024x6.size a
  h_S1024x6 : 0 < S1024x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S128x6 : S1x6.Broadcasts S128x6
  inb_S128x6_S128x6_0_0 : ∀ a, (![0, 0] : Fin 2 → Nat) a + S128x6.size a ≤ S128x6.size a
  h_S128x6 : 0 < S128x6.numel
  dot_S16x4096_S4096x1024_S16x1024_1_0_0_1_n_n_wf : DotDims.WF S16x4096 S4096x1024 S16x1024 [1] [0] [0] [1] [] []
  dot_S128x16_S16x1024_S128x1024_1_0_0_1_n_n_wf : DotDims.WF S128x16 S16x1024 S128x1024 [1] [0] [0] [1] [] []
  dot_S128x4096_S4096x1024_S128x1024_1_0_0_1_n_n_wf : DotDims.WF S128x4096 S4096x1024 S128x1024 [1] [0] [0] [1] [] []
  dot_S128x1024_S1024x1024_S128x1024_1_0_0_1_n_n_wf : DotDims.WF S128x1024 S1024x1024 S128x1024 [1] [0] [0] [1] [] []
  dot_S128x1024_S1024x6_S128x6_1_0_0_1_n_n_wf : DotDims.WF S128x1024 S1024x6 S128x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x4096.size a ≤ S16x32768.size a
  hwx0_0 : ∀ i : grid0.Coords, EltTy.bits .f32 = 32 ∨ (Rect.block (s := S16x32768) S16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S36864x1024.size a
  hwx0_1 : ∀ i : grid0.Coords, EltTy.bits .f32 = 32 ∨ (Rect.block (s := S36864x1024) S4096x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1024.size a ≤ S2x16x1024.size a
  hwx0_2 : ∀ i : grid0.Coords, EltTy.bits .f32 = 32 ∨ (Rect.block (s := S2x16x1024) S1x16x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1.size a ≤ S2048x1.size a
  hwx1_0 : ∀ i : grid1.Coords, EltTy.bits .i32 = 32 ∨ (Rect.block (s := S2048x1) S128x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x4096.size a ≤ S2048x4096.size a
  hwx1_1 : ∀ i : grid1.Coords, EltTy.bits .f32 = 32 ∨ (Rect.block (s := S2048x4096) S128x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S36864x1024.size a
  hwx1_2 : ∀ i : grid1.Coords, EltTy.bits .f32 = 32 ∨ (Rect.block (s := S36864x1024) S4096x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x16x1024.size a ≤ S2x16x1024.size a
  hwx1_3 : ∀ i : grid1.Coords, EltTy.bits .f32 = 32 ∨ (Rect.block (s := S2x16x1024) S2x16x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .f32 = 32 ∨ (Rect.block (s := S1024x1024) S1024x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x1024.size a ≤ S1024x1024.size a
  hwx1_7 : ∀ i : grid1.Coords, EltTy.bits .f32 = 32 ∨ (Rect.block (s := S1024x1024) S1024x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1024.size a ≤ S1x1024.size a
  hwx1_8 : ∀ i : grid1.Coords, EltTy.bits .f32 = 32 ∨ (Rect.block (s := S1x1024) S1x1024.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1024x1024.size a ≤ S1024x1024.size a
  hwx1_9 : ∀ i : grid1.Coords, EltTy.bits .f32 = 32 ∨ (Rect.block (s := S1024x1024) S1024x1024.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1024.size a ≤ S1x1024.size a
  hwx1_10 : ∀ i : grid1.Coords, EltTy.bits .f32 = 32 ∨ (Rect.block (s := S1x1024) S1x1024.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1024x6.size a ≤ S1024x6.size a
  hwx1_11 : ∀ i : grid1.Coords, EltTy.bits .f32 = 32 ∨ (Rect.block (s := S1024x6) S1024x6.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x6.size a ≤ S1x6.size a
  hwx1_12 : ∀ i : grid1.Coords, EltTy.bits .f32 = 32 ∨ (Rect.block (s := S1x6) S1x6.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S128x6.size a ≤ S2048x6.size a
  hwx1_13 : ∀ i : grid1.Coords, EltTy.bits .f32 = 32 ∨ (Rect.block (s := S2048x6) S128x6.size (cc1_transform_13 i) (hinb1_13 i)).WholeWords (EltTy.packing .f32)

variable [Facts₀]

def dot_S16x4096_S4096x1024_S16x1024_1_0_0_1_n_n : DotDims S16x4096 S4096x1024 S16x1024 where
  lhsContracting := [1]
  rhsContracting := [0]
  lhsNonContracting := [0]
  rhsNonContracting := [1]
  lhsBatch := []
  rhsBatch := []
  wf := dot_S16x4096_S4096x1024_S16x1024_1_0_0_1_n_n_wf
def dot_S128x16_S16x1024_S128x1024_1_0_0_1_n_n : DotDims S128x16 S16x1024 S128x1024 where
  lhsContracting := [1]
  rhsContracting := [0]
  lhsNonContracting := [0]
  rhsNonContracting := [1]
  lhsBatch := []
  rhsBatch := []
  wf := dot_S128x16_S16x1024_S128x1024_1_0_0_1_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S1024x6_S128x6_1_0_0_1_n_n : DotDims S128x1024 S1024x6 S128x6 where
  lhsContracting := [1]
  rhsContracting := [0]
  lhsNonContracting := [0]
  rhsNonContracting := [1]
  lhsBatch := []
  rhsBatch := []
  wf := dot_S128x1024_S1024x6_S128x6_1_0_0_1_n_n_wf

abbrev win0_0 : Pipeline.Window sig grid0 :=
  Pipeline.Window.ofSpec (Memref.whole main_v2) S16x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S128x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S128x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2x16x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S1024x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v6) S1x1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg9) S1024x1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v7) S1x1024.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg11) S1024x6.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v8) S1x6.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v9) S128x6.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S2048x4096 : Shape := ⟨2, ![2048, 4096]⟩
abbrev S16x32x1024 : Shape := ⟨3, ![16, 32, 1024]⟩
abbrev S2048 : Shape := ⟨1, ![2048]⟩
abbrev S36864x1024 : Shape := ⟨2, ![36864, 1024]⟩
abbrev S1024 : Shape := ⟨1, ![1024]⟩
abbrev S1024x1024 : Shape := ⟨2, ![1024, 1024]⟩
abbrev S1024x6 : Shape := ⟨2, ![1024, 6]⟩
abbrev S6 : Shape := ⟨1, ![6]⟩
abbrev S16x32768 : Shape := ⟨2, ![16, 32768]⟩
abbrev S_ : Shape := ⟨0, ![]⟩
abbrev S2048x1 : Shape := ⟨2, ![2048, 1]⟩
abbrev S2048x32768 : Shape := ⟨2, ![2048, 32768]⟩
abbrev S2048x36864 : Shape := ⟨2, ![2048, 36864]⟩
abbrev S2048x1024 : Shape := ⟨2, ![2048, 1024]⟩
abbrev S1x1024 : Shape := ⟨2, ![1, 1024]⟩
abbrev S2048x6 : Shape := ⟨2, ![2048, 6]⟩
abbrev S1x6 : Shape := ⟨2, ![1, 6]⟩

abbrev nBuf : Space → Nat
  | .hbm => 56
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S16x32x1024, .f32⟩
  | .hbm, ⟨2, _⟩ => ⟨S2048, .i32⟩
  | .hbm, ⟨3, _⟩ => ⟨S36864x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x6, .f32⟩
  | .hbm, ⟨12, _⟩ => ⟨S6, .f32⟩
  | .hbm, ⟨13, _⟩ => ⟨S16x32768, .f32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S2048x1, .i32⟩
  | .hbm, ⟨22, _⟩ => ⟨S2048x32768, .f32⟩
  | .hbm, ⟨23, _⟩ => ⟨S2048x36864, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S2048x6, .f32⟩
  | .hbm, ⟨53, _⟩ => ⟨S1x6, .f32⟩
  | .hbm, ⟨54, _⟩ => ⟨S2048x6, .f32⟩
  | .hbm, ⟨55, _⟩ => ⟨S2048x6, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call0_cst : Ref sig .tc := ⟨.hbm, 28, rfl⟩
abbrev main_call0_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_cst : Ref sig .tc := ⟨.hbm, 35, rfl⟩
abbrev main_call1_v0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call2_cst : Ref sig .tc := ⟨.hbm, 42, rfl⟩
abbrev main_call2_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call3_cst : Ref sig .tc := ⟨.hbm, 49, rfl⟩
abbrev main_call3_v0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩

abbrev nD : Nat := 1
abbrev τ : Topo := Topo.v7x

variable {F : FTy → Type} [FloatOps F]

class Facts₀ : Prop where
  shapeCasts_S16x32x1024_S16x32768 : S16x32x1024.ShapeCasts S16x32768
  bcast_S_S2048 : S_.BroadcastsInDim S2048 (![] : Fin 0 → Fin S2048.rank)
  bcast_S2048_S2048x1_0 : S2048.BroadcastsInDim S2048x1 (![0] : Fin 1 → Fin S2048x1.rank)
  concatenates_S2048x32768_S2048x4096_S2048x36864_d1 : Shape.Concatenates [S2048x32768, S2048x4096] S2048x36864 1
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  bcast_S6_S1x6_1 : S6.BroadcastsInDim S1x6 (![1] : Fin 1 → Fin S1x6.rank)
  bcast_S1x6_S2048x6_0_1 : S1x6.BroadcastsInDim S2048x6 (![0, 1] : Fin 2 → Fin S2048x6.rank)
  gather_S16x32768_S2048x1_S2048x32768_1_0_n_n_0_1_132768_wf : GatherDims.WF S16x32768 S2048x1 S2048x32768 [1] [0] [] [0] [] 1 ![1, 32768]
  dot_S2048x36864_S36864x1024_S2048x1024_1_0_0_1_n_n_wf : DotDims.WF S2048x36864 S36864x1024 S2048x1024 [1] [0] [0] [1] [] []
  dot_S2048x1024_S1024x1024_S2048x1024_1_0_0_1_n_n_wf : DotDims.WF S2048x1024 S1024x1024 S2048x1024 [1] [0] [0] [1] [] []
  dot_S2048x1024_S1024x6_S2048x6_1_0_0_1_n_n_wf : DotDims.WF S2048x1024 S1024x6 S2048x6 [1] [0] [0] [1] [] []

variable [Facts₀]

def gather_S16x32768_S2048x1_S2048x32768_1_0_n_n_0_1_132768 : GatherDims S16x32768 S2048x1 S2048x32768 where
  offsetDims := [1]
  collapsedSliceDims := [0]
  operandBatchingDims := []
  startIndicesBatchingDims := []
  startIndexMap := [0]
  indexVectorDim := 1
  sliceSizes := ![1, 32768]
  wf := gather_S16x32768_S2048x1_S2048x32768_1_0_n_n_0_1_132768_wf
def dot_S2048x36864_S36864x1024_S2048x1024_1_0_0_1_n_n : DotDims S2048x36864 S36864x1024 S2048x1024 where
  lhsContracting := [1]
  rhsContracting := [0]
  lhsNonContracting := [0]
  rhsNonContracting := [1]
  lhsBatch := []
  rhsBatch := []
  wf := dot_S2048x36864_S36864x1024_S2048x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x6_S2048x6_1_0_0_1_n_n : DotDims S2048x1024 S1024x6 S2048x6 where
  lhsContracting := [1]
  rhsContracting := [0]
  lhsNonContracting := [0]
  rhsNonContracting := [1]
  lhsBatch := []
  rhsBatch := []
  wf := dot_S2048x1024_S1024x6_S2048x6_1_0_0_1_n_n_wf

class Facts : Prop extends Facts₀ where

variable [Facts]
-- ==== Proof.Region0.lean ====
/-
  Region 0, the vision projection: on a grid of two halves by four steps, each half accumulates in a scratch
  block the products of its four column blocks of the flattened vision table with the matching row blocks of the
  first weight matrix, and writes the sum into its plane of the result at its last step.
  Stated at any float instance, over the buffer contents `V` the region is entered from.
-/
import proofs.«425794_j25228637897251_3_alg».proof.Proof.Gen.KernelIdeal.Launch
import proofs.«425794_j25228637897251_3_alg».proof.Proof.Gen.KernelIdeal.Skeleton
import proofs.«425794_j25228637897251_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions on the grid point -/

/-- The first conditional's test: the step within the half is the first one. -/
abbrev cond0 (i : grid0.Coords) : Prop :=
  (Scalar.cmpi .ne (Scalar.extui (Scalar.cmpi .eq (BitVec.ofNat 32 (i 1).val) 0#32)) 0#32) = 1#1
/-- It holds exactly at the points ≡ 0 (mod 4): decided over the eight points. -/
theorem hcond0 : ∀ t : Fin cfg0.N, cond0 (grid0.coords t) ↔ t.val % 4 = 0 :=
  (by decide +kernel : ∀ t : Fin grid0.N, cond0 (grid0.coords t) ↔ t.val % 4 = 0)

/-- The second conditional's test: the step within the half is the last one. -/
abbrev cond1 (i : grid0.Coords) : Prop := k0_cond2 i = 1#1
/-- It holds exactly at the points ≡ 3 (mod 4). -/
theorem hcond1 : ∀ t : Fin cfg0.N, cond1 (grid0.coords t) ↔ t.val % 4 = 3 :=
  (by decide +kernel : ∀ t : Fin grid0.N, cond1 (grid0.coords t) ↔ t.val % 4 = 3)

/-! ## Whole-block accesses

Every load and store of the body goes through the rectangle that is the whole of its block, at zero offsets. -/

theorem zeros2 : (![0, 0] : Fin 2 → ℕ) = fun _ => 0 := by funext a; fin_cases a <;> rfl
theorem zeros3 : (![0, 0, 0] : Fin 3 → ℕ) = fun _ => 0 := by funext a; fin_cases a <;> rfl

/-- The accumulation step is a function of its three operands. -/
theorem pay2_congr {a a' : Vec F S16x4096 .f32} {b b' : Vec F S4096x1024 .f32} {s s' : Vec F S16x1024 .f32}
    (ha : a = a') (hb : b = b') (hs : s = s') : k0_pay2 a b s = k0_pay2 a' b' s' := by
  subst ha; subst hb; subst hs; rfl

/-! ## The body's three runs

Which stores the body makes depends only on the step within the half: the first step (reset, accumulate), a
middle step (accumulate), the last step (accumulate, store the result). Each is stated on any whole blocks. -/

set_option maxHeartbeats 4000000 in
/-- The body at a half's FIRST step (the reset taken, the final store not), on whole blocks: the two input blocks
    at `x0`, `x1`, the result block at `xi`, the scratch block at anything. It zeroes the scratch block, adds the
    step's product into it, and touches nothing else: the scratch block ends at the step's product added to zero. -/
theorem sound_A (c : Dev nD) (E : Set ℕ) (i : grid0.Coords)
    (arg2 : Memref sig .tc .vmem S16x4096 .f32) (harg2 : arg2.IsWhole)
    (arg3 : Memref sig .tc .vmem S4096x1024 .f32) (harg3 : arg3.IsWhole)
    (arg4 : Memref sig .tc .vmem S1x16x1024 .f32) (harg4 : arg4.IsWhole)
    (arg5 : Memref sig .tc .vmem S16x1024 .f32) (harg5 : arg5.IsWhole)
    (hc0 : cond0 i) (hc1 : ¬cond1 i)
    (x0 : Vec F S16x4096 .f32) (x1 : Vec F S4096x1024 .f32) (xi : Vec F S1x16x1024 .f32) (K : PUnit → sProp 𝕄) :
    iprop(owns (c : Thread nD τ) arg2 fullShare x0 ∗ owns (c : Thread nD τ) arg3 fullShare x1
        ∗ owns (c : Thread nD τ) arg4 fullShare xi ∗ (∃ d, owns (c : Thread nD τ) arg5 fullShare d)
        ∗ (iprop(owns (c : Thread nD τ) arg2 fullShare x0 ∗ owns (c : Thread nD τ) arg3 fullShare x1
            ∗ owns (c : Thread nD τ) arg4 fullShare xi
            ∗ owns (c : Thread nD τ) arg5 fullShare (k0_pay2 x0 x1 (k0_pay1 (F := F)))) -∗ K ⟨⟩))
      ⊢ wp frame (wpE (defs₀ (F := F)) Variants.none c none) E
          (cc0__vis_proj_kernel i arg2 harg2 arg3 harg3 arg4 harg4 arg5 harg5) K := by
  simp only [cc0__vis_proj_kernel_eq_skeleton]; unfold cc0__vis_proj_kernel_skel
  unfold owns
  iintro ⟨⟨%f0, %hf0, H0⟩, ⟨%f1, %hf1, H1⟩, ⟨%f4, %hf4, H4⟩, ⟨%d5, %f5, -, H5⟩, Hk⟩
  subst hf0; subst hf1; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  iexists _; isplitr
  swap; · iexact H5
  ipureintro
  -- the last store covers the scratch block: it reads back as that store's payload
  refine (View.read_writes_eq_canon _ _ _ (fun y =>
    ⟨_, List.mem_cons.mpr (Or.inl rfl), View.mem_set_unit_zero zeros2 inb_S16x1024_S16x1024_0_0 y⟩)).trans ?_
  refine (View.canon_cons_unit_zero zeros2 _ _ _).trans ?_
  -- whose operands are the two input blocks read whole and the zero block just stored, read back
  exact pay2_congr (View.ld_unit_zero zeros2 _ _) (View.ld_unit_zero zeros2 _ _) (View.readCov_unit_zero _ zeros2 _ _)

set_option maxHeartbeats 4000000 in
/-- The body at a MIDDLE step (neither conditional taken), on whole blocks: the input blocks at `x0`, `x1`, the
    result block at `xi`, the scratch block at `xs`. It adds the step's product into the scratch block and touches
    nothing else. -/
theorem sound_B (c : Dev nD) (E : Set ℕ) (i : grid0.Coords)
    (arg2 : Memref sig .tc .vmem S16x4096 .f32) (harg2 : arg2.IsWhole)
    (arg3 : Memref sig .tc .vmem S4096x1024 .f32) (harg3 : arg3.IsWhole)
    (arg4 : Memref sig .tc .vmem S1x16x1024 .f32) (harg4 : arg4.IsWhole)
    (arg5 : Memref sig .tc .vmem S16x1024 .f32) (harg5 : arg5.IsWhole)
    (hc0 : ¬cond0 i) (hc1 : ¬cond1 i)
    (x0 : Vec F S16x4096 .f32) (x1 : Vec F S4096x1024 .f32) (xi : Vec F S1x16x1024 .f32)
    (xs : Vec F S16x1024 .f32) (K : PUnit → sProp 𝕄) :
    iprop(owns (c : Thread nD τ) arg2 fullShare x0 ∗ owns (c : Thread nD τ) arg3 fullShare x1
        ∗ owns (c : Thread nD τ) arg4 fullShare xi ∗ owns (c : Thread nD τ) arg5 fullShare xs
        ∗ (iprop(owns (c : Thread nD τ) arg2 fullShare x0 ∗ owns (c : Thread nD τ) arg3 fullShare x1
            ∗ owns (c : Thread nD τ) arg4 fullShare xi
            ∗ owns (c : Thread nD τ) arg5 fullShare (k0_pay2 x0 x1 xs)) -∗ K ⟨⟩))
      ⊢ wp frame (wpE (defs₀ (F := F)) Variants.none c none) E
          (cc0__vis_proj_kernel i arg2 harg2 arg3 harg3 arg4 harg4 arg5 harg5) K := by
  simp only [cc0__vis_proj_kernel_eq_skeleton]; unfold cc0__vis_proj_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  iexists _; isplitr
  swap; · iexact H5
  ipureintro
  -- the one store covers the scratch block: it reads back as the store's payload,
  refine (View.read_writes_eq_canon _ _ _ (fun y =>
    ⟨_, List.mem_cons.mpr (Or.inl rfl), View.mem_set_unit_zero zeros2 inb_S16x1024_S16x1024_0_0 y⟩)).trans ?_
  refine (View.canon_cons_unit_zero zeros2 _ _ _).trans ?_
  -- whose operands are the three blocks read whole
  exact pay2_congr (View.ld_unit_zero zeros2 _ _) (View.ld_unit_zero zeros2 _ _) (View.ld_unit_zero zeros2 _ _)

set_option maxHeartbeats 4000000 in
/-- The body at a half's LAST step (the reset not taken, the final store taken), on whole blocks: the input blocks
    at `x0`, `x1`, the scratch block at `xs`, the result block at anything. It adds the step's product into the scratch
    block, reads the sum back and stores it, reshaped, over the whole result block. -/
theorem sound_C (c : Dev nD) (E : Set ℕ) (i : grid0.Coords)
    (arg2 : Memref sig .tc .vmem S16x4096 .f32) (harg2 : arg2.IsWhole)
    (arg3 : Memref sig .tc .vmem S4096x1024 .f32) (harg3 : arg3.IsWhole)
    (arg4 : Memref sig .tc .vmem S1x16x1024 .f32) (harg4 : arg4.IsWhole)
    (arg5 : Memref sig .tc .vmem S16x1024 .f32) (harg5 : arg5.IsWhole)
    (hc0 : ¬cond0 i) (hc1 : cond1 i)
    (x0 : Vec F S16x4096 .f32) (x1 : Vec F S4096x1024 .f32)
    (xs : Vec F S16x1024 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (k0_pay2 x0 x1 xs))
            ∗ owns (c : Thread nD τ) arg5 fullShare (k0_pay2 x0 x1 xs)) -∗ K ⟨⟩))
      ⊢ wp frame (wpE (defs₀ (F := F)) Variants.none c none) E
          (cc0__vis_proj_kernel i arg2 harg2 arg3 harg3 arg4 harg4 arg5 harg5) K := by
  simp only [cc0__vis_proj_kernel_eq_skeleton]; unfold cc0__vis_proj_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := first | exact hc0 | exact hc1)
  sl_step
  iapply Hk
  -- the scratch block after the one store into it: the store's payload, over the three blocks read whole
  have hS : ∀ (g : arg5.view.ty.Contents (Elt F)) (L : List (View.Piece (Elt F) S16x1024 .f32))
      (w : Vec F S16x1024 .f32), w = k0_pay2 (arg2.view.read (Elt F) f0) (arg3.view.read (Elt F) f1) (arg5.view.read (Elt F) f5) →
      arg5.view.read (Elt F) (arg5.view.writes (Elt F) g
        (⟨Rect.unit (s := S16x1024) ![0, 0] S16x1024.size inb_S16x1024_S16x1024_0_0, w⟩ :: L))
        = k0_pay2 (arg2.view.read (Elt F) f0) (arg3.view.read (Elt F) f1) (arg5.view.read (Elt F) f5) := by
    intro g L w hw
    refine (View.read_writes_eq_canon _ _ _ (fun y =>
      ⟨_, List.mem_cons.mpr (Or.inl rfl), View.mem_set_unit_zero zeros2 inb_S16x1024_S16x1024_0_0 y⟩)).trans ?_
    exact (View.canon_cons_unit_zero zeros2 _ _ _).trans hw
  have hw : k0_pay2 (View.readAt (Elt F) arg2.view (Rect.unit (s := S16x4096) ![0, 0] S16x4096.size inb_S16x4096_S16x4096_0_0).toLoadRect f0)
        (View.readAt (Elt F) arg3.view (Rect.unit (s := S4096x1024) ![0, 0] S4096x1024.size inb_S4096x1024_S4096x1024_0_0).toLoadRect f1)
        (View.readAt (Elt F) arg5.view (Rect.unit (s := S16x1024) ![0, 0] S16x1024.size inb_S16x1024_S16x1024_0_0).toLoadRect f5)
      = k0_pay2 (arg2.view.read (Elt F) f0) (arg3.view.read (Elt F) f1) (arg5.view.read (Elt F) f5) :=
    pay2_congr (View.ld_unit_zero zeros2 _ _) (View.ld_unit_zero zeros2 _ _) (View.ld_unit_zero zeros2 _ _)
  isplitl [H0]
  · iexists f0; isplitr; · ipureintro; rfl
    iexact H0
  isplitl [H1]
  · iexists f1; isplitr; · ipureintro; rfl
    iexact H1
  isplitl [H4]
  · iexists _; isplitr
    swap; · iexact H4
    ipureintro
    -- the one store covers the result block: it reads back as the store's payload, the reshaped sum read back
    refine (View.read_writes_eq_canon _ _ _ (fun y =>
      ⟨_, List.mem_cons.mpr (Or.inl rfl), View.mem_set_unit_zero zeros3 inb_S1x16x1024_S1x16x1024_0_0_0 y⟩)).trans ?_
    refine (View.canon_cons_unit_zero zeros3 _ _ _).trans ?_
    exact congrArg k0_pay3 ((View.readCov_unit_zero _ zeros2 _ _).trans hw)
  iexists _; isplitr
  swap; · iexact H5
  ipureintro
  exact hS _ _ _ hw

variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch block after grid point `n`: the running sum of the half's products up to that step. -/
def acc (c : Dev nD) : (n : ℕ) → n < cfg0.N → Vec F S16x1024 .f32
  | 0, hn => k0_pay2 (iblk V c 0 ⟨0, hn⟩) (iblk V c 1 ⟨0, hn⟩) (k0_pay1 (F := F))
  | n + 1, hn =>
    if (n + 1) % 4 = 0 then k0_pay2 (iblk V c 0 ⟨n + 1, hn⟩) (iblk V c 1 ⟨n + 1, hn⟩) (k0_pay1 (F := F))
    else k0_pay2 (iblk V c 0 ⟨n + 1, hn⟩) (iblk V c 1 ⟨n + 1, hn⟩) (acc c n (Nat.lt_of_succ_lt hn))

theorem acc_first (c : Dev nD) (t : Fin cfg0.N) (h : t.val % 4 = 0) :
    acc V c t.val t.isLt = k0_pay2 (iblk V c 0 t) (iblk V c 1 t) (k0_pay1 (F := F)) := by
  obtain ⟨n, hn⟩ := t
  cases n with
  | zero => rfl
  | succ n => exact if_pos h

theorem acc_next (c : Dev nD) (t : Fin cfg0.N) (h : t.val % 4 ≠ 0) :
    acc V c t.val t.isLt = k0_pay2 (iblk V c 0 t) (iblk V c 1 t) (acc V c (t.val - 1) (Nat.lt_of_le_of_lt (Nat.sub_le _ _) t.isLt)) := by
  obtain ⟨n, hn⟩ := t
  cases n with
  | zero => exact absurd (Nat.zero_mod _) h
  | succ n => exact if_neg h

/-! ## The region's invariant -/

/-- The seventeen staging buffers of the other call, each whole at some contents: scoped buffers this region never touches. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_stg10_0), ((c : Thread nD τ).loc cc1_stg10_0) ↦{fullShare} f)
    ∗ (∃ f : Buf (Elt F) ((c : Thread nD τ).loc cc1_stg11_0), ((c : Thread nD τ).loc cc1_stg11_0) ↦{fullShare} f)
    ∗ (∃ f : Buf (Elt F) ((c : Thread nD τ).loc cc1_stg12_0), ((c : Thread nD τ).loc cc1_stg12_0) ↦{fullShare} f)
    ∗ (∃ f : Buf (Elt F) ((c : Thread nD τ).loc cc1_stg13_0), ((c : Thread nD τ).loc cc1_stg13_0) ↦{fullShare} f)
    ∗ (∃ f : Buf (Elt F) ((c : Thread nD τ).loc cc1_stg13_1), ((c : Thread nD τ).loc cc1_stg13_1) ↦{fullShare} f))

/-- The launch's invariant, opened: the scratch block owned whole at some contents, the other scoped buffers,
    and the generator register at some state. -/
theorem PhiA0_eq (c : Dev nD) :
    (Pipeline.ΦA spec0 c : sProp 𝕄)
      = iprop(iprop((∃ d, owns (c : Thread nD τ) (Memref.whole cc0_scratch0) fullShare d) ∗ others (F := F) c) ∗ (∃ r, prngReg c r)) := by
  unfold Pipeline.ΦA others; rw [scopedRest0_eq]; simp only [owns_whole]

/-- The region's invariant before grid point `n`: at entry the scoped buffers at anything and the generator
    register; afterwards the same with the scratch block at the running sum the point before left. -/
def PhiS (c : Dev nD) : (n : ℕ) → n ≤ cfg0.N → sProp 𝕄
  | 0, _ => Pipeline.ΦA spec0 c
  | n + 1, hn => iprop(iprop(owns (c : Thread nD τ) (Memref.whole cc0_scratch0) fullShare (acc V c n hn) ∗ others (F := F) c) ∗ (∃ r, prngReg c r))

theorem PhiS_zero (c : Dev nD) (n : ℕ) (h : n ≤ cfg0.N) (hz : n = 0) : PhiS V c n h = Pipeline.ΦA spec0 c := by
  subst hz; rfl

/-- After point `n`: the scratch block at that point's sum. -/
theorem PhiS_succ (c : Dev nD) (n : ℕ) (hn : n < cfg0.N) :
    PhiS V c (n + 1) hn = iprop(iprop(owns (c : Thread nD τ) (Memref.whole cc0_scratch0) fullShare (acc V c n hn) ∗ others (F := F) c) ∗ (∃ r, prngReg c r)) := rfl

/-- Before a point that is not the first: the scratch block at the sum the point before left. -/
theorem PhiS_pos (c : Dev nD) (n : ℕ) (h : n ≤ cfg0.N) (hz : n ≠ 0) :
    PhiS V c n h = iprop(iprop(owns (c : Thread nD τ) (Memref.whole cc0_scratch0) fullShare (acc V c (n - 1) (by omega)) ∗ others (F := F) c) ∗ (∃ r, prngReg c r)) := by
  cases n with
  | zero => exact absurd rfl hz
  | succ n => rfl

/-- The proof data of pipeline 0 on core `c`: the arrays as the region finds them; each input window's
    staging block its block of the array; the result window's the scratch block (read only where a half ends);
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay3 (acc V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = k0_pay3 (acc V c t.val t.isLt) := by dsimp only [dat]

/-- The invariant at a point's start, restated at the point's position. -/
theorem PhiS_castSucc (c : Dev nD) (t : Fin cfg0.N) :
    (dat V c).Φ t.castSucc = PhiS V c t.val (Nat.le_of_lt t.isLt) := by
  dsimp only [dat]; simp only [Fin.coe_castSucc]

/-- Each input window's current staging block holds its block of the array at every point, fetched there or
    not: unfetched, the block index has not moved. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the windows are idle -/

/-- The two input windows are never idle. -/
theorem live_0 : ∀ t : Fin cfg0.N, cfg0.idle 0 (grid0.coords t) = false := fun _ => rfl
theorem live_1 : ∀ t : Fin cfg0.N, cfg0.idle 1 (grid0.coords t) = false := fun _ => rfl
/-- Where the final store is not taken the result window is idle, -/
theorem idle_2 : ∀ t : Fin cfg0.N, ¬cond1 (grid0.coords t) → cfg0.idle 2 (grid0.coords t) = true := by decide +kernel
/-- and its block is not written back there; -/
theorem noFlush_2 : ∀ t : Fin cfg0.N, ¬cond1 (grid0.coords t) → (cfg0.win 2).flush t = false := by decide +kernel
/-- where it is taken the window is live. -/
theorem live_2 : ∀ t : Fin cfg0.N, cond1 (grid0.coords t) → cfg0.idle 2 (grid0.coords t) = false := by decide +kernel

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point. The input windows' blocks hold their blocks of the arrays; the step within the half
    (`t % 4`) says which of the three runs applies. The invariant hands the body the scratch block at the sum the point
    before left (at anything at the very first point, where the body zeroes it) and takes it back at this point's sum;
    the result window's block is handed back as found except at a half's last step, where it is stored whole. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st0_0 t) fullShare ((dat V c).after 0 t) from by
    unfold Dat.leavesExact; rw [live_0 t], after_0]
  rw [show (dat V c).leavesExact 1 t = owns (c : Thread nD τ) (st0_1 t) fullShare ((dat V c).after 1 t) from by
    unfold Dat.leavesExact; rw [live_1 t], after_1]
  have hN : t.val < 8 := lt_of_lt_of_eq t.isLt (show cfg0.N = 8 from N_0)
  by_cases h0 : t.val % 4 = 0
  · -- a half's first step
    have h1 : ¬t.val % 4 = 3 := by omega
    have hc0 : cond0 (grid0.coords t) := (hcond0 t).mpr h0
    have hc1 : ¬cond1 (grid0.coords t) := fun h => h1 ((hcond1 t).mp h)
    rw [Dat.leavesExact_idle (dat V c) 2 t (idle_2 t hc1) (noFlush_2 t hc1)]
    rw [acc_first V c t h0]
    by_cases hz : t.val = 0
    · rw [PhiS_castSucc V c t, PhiS_zero V c _ _ hz, PhiA0_eq]
      iintro ⟨⟨⟨HS, Hr⟩, Hg⟩, Ho, ⟨%d0, H0⟩, ⟨%d1, H1⟩, ⟨%d2, H2⟩⟩
      iapply (sound_A c Set.univ (grid0.coords t) _ _ _ _ _ _ _ _ hc0 hc1 (iblk V c 0 t) (iblk V c 1 t) ((dat V c).before 2 t d2) _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, Hr⟩, Hg⟩, Ho, ⟨%d0, H0⟩, ⟨%d1, H1⟩, ⟨%d2, H2⟩⟩
      iapply (sound_A c Set.univ (grid0.coords t) _ _ _ _ _ _ _ _ hc0 hc1 (iblk V c 0 t) (iblk V c 1 t) ((dat V c).before 2 t d2) _)
      isplitl [H0]; · iexact H0
      isplitl [H1]; · iexact H1
      isplitl [H2]; · iexact H2
      isplitl [HS]; · iexists _; iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
  · have hz : t.val ≠ 0 := by omega
    have hc0 : ¬cond0 (grid0.coords t) := fun h => h0 ((hcond0 t).mp h)
    rw [acc_next V c t h0]
    rw [PhiS_castSucc V c t, PhiS_pos V c _ _ hz]
    by_cases h1 : t.val % 4 = 3
    · -- a half's last step
      have hc1 : cond1 (grid0.coords t) := (hcond1 t).mpr h1
      rw [show (dat V c).leavesExact 2 t = owns (c : Thread nD τ) (st0_2 t) fullShare ((dat V c).after 2 t) from by
        unfold Dat.leavesExact; rw [live_2 t hc1], after_2]
      rw [acc_next V c t h0]
      iintro ⟨⟨⟨HS, Hr⟩, Hg⟩, Ho, ⟨%d0, H0⟩, ⟨%d1, H1⟩, ⟨%d2, H2⟩⟩
      iapply (sound_C c Set.univ (grid0.coords t) _ _ _ _ _ _ _ _ hc0 hc1 (iblk V c 0 t) (iblk V c 1 t)
        (acc V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · -- a middle step
      have hc1 : ¬cond1 (grid0.coords t) := fun h => h1 ((hcond1 t).mp h)
      rw [Dat.leavesExact_idle (dat V c) 2 t (idle_2 t hc1) (noFlush_2 t hc1)]
      iintro ⟨⟨⟨HS, Hr⟩, Hg⟩, Ho, ⟨%d0, H0⟩, ⟨%d1, H1⟩, ⟨%d2, H2⟩⟩
      iapply (sound_B c Set.univ (grid0.coords t) _ _ _ _ _ _ _ _ hc0 hc1 (iblk V c 0 t) (iblk V c 1 t)
        ((dat V c).before 2 t d2) (acc V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ ((dat V c).Φ 0 : sProp 𝕄) := by
  rw [show (dat V c).Φ 0 = PhiS V c 0 (Nat.zero_le _) from rfl, PhiS_zero V c 0 _ rfl]

/-- After any point but the first the invariant gives the launch's back: the scratch block's sum is forgotten. -/
theorem Phi_out (c : Dev nD) (t : Fin (cfg0.N + 1)) (ht : t.val ≠ 0) : (dat V c).Φ t ⊢ (Pipeline.ΦA spec0 c : sProp 𝕄) := by
  rw [show (dat V c).Φ t = PhiS V c t.val (Nat.le_of_lt_succ t.isLt) from rfl, PhiS_pos V c _ _ ht, PhiA0_eq]
  iintro ⟨⟨HS, Hr⟩, Hg⟩
  isplitl [HS Hr]
  · isplitl [HS]
    · iexists _; iexact HS
    iexact Hr
  iexact Hg

theorem hout (c : Dev nD) : (dat V c).Φ (Fin.last cfg0.N) ⊢ (Pipeline.ΦA spec0 c : sProp 𝕄) :=
  Phi_out V c _ (by rw [Fin.val_last]; have : cfg0.N = 8 := N_0; omega)

end Cert.KernelIdeal.R0

end
-- ==== Proof.Region1.lean ====
/-
  Region 1, the per-token network: each grid point takes 128 tokens; it adds the two planes of the vision
  projection, picks each token's row of the sum by a product with the token's indicator row, adds the language
  part of the first layer and its bias, and runs the remaining four layers, storing the 128 x 6 result block.
  Stated at any float instance, over the buffer contents `V` the region is entered from.
-/
import proofs.«425794_j25228637897251_3_alg».proof.Proof.Gen.KernelIdeal.Launch
import proofs.«425794_j25228637897251_3_alg».proof.Proof.Gen.KernelIdeal.Skeleton
import proofs.«425794_j25228637897251_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The result window's staging block after the body, from the input windows' blocks: the body's one store,
    of the network's output on whole-block loads of the thirteen inputs (the two planes read as the two
    unit slabs of their window). -/
def out13 (x0 : Vec F S128x1 .i32) (x1 : Vec F S128x4096 .f32) (x2 : Vec F S4096x1024 .f32) (x3 : Vec F S2x16x1024 .f32) (x4 : Vec F S1x1024 .f32) (x5 : Vec F S1024x1024 .f32) (x6 : Vec F S1x1024 .f32) (x7 : Vec F S1024x1024 .f32) (x8 : Vec F S1x1024 .f32) (x9 : Vec F S1024x1024 .f32) (x10 : Vec F S1x1024 .f32) (x11 : Vec F S1024x6 .f32) (x12 : Vec F S1x6 .f32) : Vec F S128x6 .f32 :=
  View.canon [⟨(Rect.unit (s := S128x6) ![0, 0] S128x6.size inb_S128x6_S128x6_0_0),
    k1_pay1
      (k1_pay2 (View.ld x0 (Rect.unit (s := S128x1) ![0, 0] S128x1.size inb_S128x1_S128x1_0_0))
        (View.ld x3 (Rect.unit (s := S2x16x1024) ![0, 0, 0] S1x16x1024.size inb_S2x16x1024_S1x16x1024_0_0_0))
        (View.ld x3 (Rect.unit (s := S2x16x1024) ![1, 0, 0] S1x16x1024.size inb_S2x16x1024_S1x16x1024_1_0_0))
        (View.ld x1 (Rect.unit (s := S128x4096) ![0, 0] S128x4096.size inb_S128x4096_S128x4096_0_0))
        (View.ld x2 (Rect.unit (s := S4096x1024) ![0, 0] S4096x1024.size inb_S4096x1024_S4096x1024_0_0))
        (View.ld x4 (Rect.unit (s := S1x1024) ![0, 0] S1x1024.size inb_S1x1024_S1x1024_0_0))
        (View.ld x5 (Rect.unit (s := S1024x1024) ![0, 0] S1024x1024.size inb_S1024x1024_S1024x1024_0_0))
        (View.ld x6 (Rect.unit (s := S1x1024) ![0, 0] S1x1024.size inb_S1x1024_S1x1024_0_0)))
      (View.ld x7 (Rect.unit (s := S1024x1024) ![0, 0] S1024x1024.size inb_S1024x1024_S1024x1024_0_0))
      (View.ld x8 (Rect.unit (s := S1x1024) ![0, 0] S1x1024.size inb_S1x1024_S1x1024_0_0))
      (View.ld x9 (Rect.unit (s := S1024x1024) ![0, 0] S1024x1024.size inb_S1024x1024_S1024x1024_0_0))
      (View.ld x10 (Rect.unit (s := S1x1024) ![0, 0] S1x1024.size inb_S1x1024_S1x1024_0_0))
      (View.ld x11 (Rect.unit (s := S1024x6) ![0, 0] S1024x6.size inb_S1024x6_S1024x6_0_0))
      (View.ld x12 (Rect.unit (s := S1x6) ![0, 0] S1x6.size inb_S1x6_S1x6_0_0))⟩]

/-- The proof data of pipeline 1 on core `c`: the arrays as the region finds them; each input window's staging
    block its block of the array, the result window's `out13` of them; the class invariant; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => out13 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) : (dat V c).after 10 t = iblk V c 10 t := by dsimp only [dat]
theorem after_11 (c : Dev nD) (t : Fin cfg1.N) : (dat V c).after 11 t = iblk V c 11 t := by dsimp only [dat]
theorem after_12 (c : Dev nD) (t : Fin cfg1.N) : (dat V c).after 12 t = iblk V c 12 t := by dsimp only [dat]
theorem after_13 (c : Dev nD) (t : Fin cfg1.N) : (dat V c).after 13 t = out13 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := by dsimp only [dat]

/-! ## What the body finds in each input window's staging buffer -/

/-- Input window 0's current staging buffer holds its block at every point, fetched there or not, for any proof
    data whose array is the entry contents' and whose body leaves the block in place: an unfetched window's block
    index has not moved, so the buffer still holds this point's block. The window is uncut and never idle. -/
theorem before_0_of {c : Dev nD} (D : Dat τ (Elt F) Unit ℕ (UR sig nD τ) ℕ cfg1 c) (hA : D.A 0 = V c (Pipeline.arrRef spec1 0))
    (hafter : ∀ t, D.after 0 t = iblk V c 0 t) (t : Fin cfg1.N) (d) : D.before 0 t d = iblk V c 0 t :=
  (D.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the entry contents' and whose body leaves the block in place: an unfetched window's block
    index has not moved, so the buffer still holds this point's block. The window is uncut and never idle. -/
theorem before_1_of {c : Dev nD} (D : Dat τ (Elt F) Unit ℕ (UR sig nD τ) ℕ cfg1 c) (hA : D.A 1 = V c (Pipeline.arrRef spec1 1))
    (hafter : ∀ t, D.after 1 t = iblk V c 1 t) (t : Fin cfg1.N) (d) : D.before 1 t d = iblk V c 1 t :=
  (D.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the entry contents' and whose body leaves the block in place: an unfetched window's block
    index has not moved, so the buffer still holds this point's block. The window is uncut and never idle. -/
theorem before_2_of {c : Dev nD} (D : Dat τ (Elt F) Unit ℕ (UR sig nD τ) ℕ cfg1 c) (hA : D.A 2 = V c (Pipeline.arrRef spec1 2))
    (hafter : ∀ t, D.after 2 t = iblk V c 2 t) (t : Fin cfg1.N) (d) : D.before 2 t d = iblk V c 2 t :=
  (D.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the entry contents' and whose body leaves the block in place: an unfetched window's block
    index has not moved, so the buffer still holds this point's block. The window is uncut and never idle. -/
theorem before_3_of {c : Dev nD} (D : Dat τ (Elt F) Unit ℕ (UR sig nD τ) ℕ cfg1 c) (hA : D.A 3 = V c (Pipeline.arrRef spec1 3))
    (hafter : ∀ t, D.after 3 t = iblk V c 3 t) (t : Fin cfg1.N) (d) : D.before 3 t d = iblk V c 3 t :=
  (D.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the entry contents' and whose body leaves the block in place: an unfetched window's block
    index has not moved, so the buffer still holds this point's block. The window is uncut and never idle. -/
theorem before_4_of {c : Dev nD} (D : Dat τ (Elt F) Unit ℕ (UR sig nD τ) ℕ cfg1 c) (hA : D.A 4 = V c (Pipeline.arrRef spec1 4))
    (hafter : ∀ t, D.after 4 t = iblk V c 4 t) (t : Fin cfg1.N) (d) : D.before 4 t d = iblk V c 4 t :=
  (D.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof
    data whose array is the entry contents' and whose body leaves the block in place: an unfetched window's block
    index has not moved, so the buffer still holds this point's block. The window is uncut and never idle. -/
theorem before_5_of {c : Dev nD} (D : Dat τ (Elt F) Unit ℕ (UR sig nD τ) ℕ cfg1 c) (hA : D.A 5 = V c (Pipeline.arrRef spec1 5))
    (hafter : ∀ t, D.after 5 t = iblk V c 5 t) (t : Fin cfg1.N) (d) : D.before 5 t d = iblk V c 5 t :=
  (D.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not, for any proof
    data whose array is the entry contents' and whose body leaves the block in place: an unfetched window's block
    index has not moved, so the buffer still holds this point's block. The window is uncut and never idle. -/
theorem before_6_of {c : Dev nD} (D : Dat τ (Elt F) Unit ℕ (UR sig nD τ) ℕ cfg1 c) (hA : D.A 6 = V c (Pipeline.arrRef spec1 6))
    (hafter : ∀ t, D.after 6 t = iblk V c 6 t) (t : Fin cfg1.N) (d) : D.before 6 t d = iblk V c 6 t :=
  (D.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not, for any proof
    data whose array is the entry contents' and whose body leaves the block in place: an unfetched window's block
    index has not moved, so the buffer still holds this point's block. The window is uncut and never idle. -/
theorem before_7_of {c : Dev nD} (D : Dat τ (Elt F) Unit ℕ (UR sig nD τ) ℕ cfg1 c) (hA : D.A 7 = V c (Pipeline.arrRef spec1 7))
    (hafter : ∀ t, D.after 7 t = iblk V c 7 t) (t : Fin cfg1.N) (d) : D.before 7 t d = iblk V c 7 t :=
  (D.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not, for any proof
    data whose array is the entry contents' and whose body leaves the block in place: an unfetched window's block
    index has not moved, so the buffer still holds this point's block. The window is uncut and never idle. -/
theorem before_8_of {c : Dev nD} (D : Dat τ (Elt F) Unit ℕ (UR sig nD τ) ℕ cfg1 c) (hA : D.A 8 = V c (Pipeline.arrRef spec1 8))
    (hafter : ∀ t, D.after 8 t = iblk V c 8 t) (t : Fin cfg1.N) (d) : D.before 8 t d = iblk V c 8 t :=
  (D.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not, for any proof
    data whose array is the entry contents' and whose body leaves the block in place: an unfetched window's block
    index has not moved, so the buffer still holds this point's block. The window is uncut and never idle. -/
theorem before_9_of {c : Dev nD} (D : Dat τ (Elt F) Unit ℕ (UR sig nD τ) ℕ cfg1 c) (hA : D.A 9 = V c (Pipeline.arrRef spec1 9))
    (hafter : ∀ t, D.after 9 t = iblk V c 9 t) (t : Fin cfg1.N) (d) : D.before 9 t d = iblk V c 9 t :=
  (D.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not, for any proof
    data whose array is the entry contents' and whose body leaves the block in place: an unfetched window's block
    index has not moved, so the buffer still holds this point's block. The window is uncut and never idle. -/
theorem before_10_of {c : Dev nD} (D : Dat τ (Elt F) Unit ℕ (UR sig nD τ) ℕ cfg1 c) (hA : D.A 10 = V c (Pipeline.arrRef spec1 10))
    (hafter : ∀ t, D.after 10 t = iblk V c 10 t) (t : Fin cfg1.N) (d) : D.before 10 t d = iblk V c 10 t :=
  (D.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, fetched there or not, for any proof
    data whose array is the entry contents' and whose body leaves the block in place: an unfetched window's block
    index has not moved, so the buffer still holds this point's block. The window is uncut and never idle. -/
theorem before_11_of {c : Dev nD} (D : Dat τ (Elt F) Unit ℕ (UR sig nD τ) ℕ cfg1 c) (hA : D.A 11 = V c (Pipeline.arrRef spec1 11))
    (hafter : ∀ t, D.after 11 t = iblk V c 11 t) (t : Fin cfg1.N) (d) : D.before 11 t d = iblk V c 11 t :=
  (D.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's current staging buffer holds its block at every point, fetched there or not, for any proof
    data whose array is the entry contents' and whose body leaves the block in place: an unfetched window's block
    index has not moved, so the buffer still holds this point's block. The window is uncut and never idle. -/
theorem before_12_of {c : Dev nD} (D : Dat τ (Elt F) Unit ℕ (UR sig nD τ) ℕ cfg1 c) (hA : D.A 12 = V c (Pipeline.arrRef spec1 12))
    (hafter : ∀ t, D.after 12 t = iblk V c 12 t) (t : Fin cfg1.N) (d) : D.before 12 t d = iblk V c 12 t :=
  (D.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The body's one store covers the result block -/

/-- The whole-block rectangle of the result window. -/
abbrev rOut : Rect S128x6 := Rect.unit (s := S128x6) ![0, 0] S128x6.size inb_S128x6_S128x6_0_0

/-- The one store is of the whole block, so it tiles the buffer and covers it. -/
theorem cover13 (p0 : Vec F S128x6 .f32) (y : S128x6.Idx) :
    ∃ pc ∈ ([⟨rOut, p0⟩] : List (View.Piece (Elt F) S128x6 .f32)), y ∈ pc.1.set :=
  View.cover_of_tiled [⟨rOut, p0⟩] S128x6.size (by rfl) y

/-! ## The body's triple -/

set_option maxHeartbeats 4000000 in
/-- The kernel body on whole staging memrefs, the thirteen inputs' at read contents `x0 … x12` and the result's at
    anything, runs to the continuation holding the inputs' as they were and the result's at `out13` of the inputs:
    the body and its first part are their skeletons, a sequence of whole-rectangle loads (the planes window read as
    its two unit slabs) closed by one whole-block store; what the store leaves reads as the canon of its one piece. -/
theorem sound_kernel (c : Dev nD) (E : Set ℕ) (i : grid1.Coords) (arg1 : Memref sig .tc .vmem S128x1 .i32) (harg1 : arg1.IsWhole) (arg2 : Memref sig .tc .vmem S128x4096 .f32) (harg2 : arg2.IsWhole) (arg3 : Memref sig .tc .vmem S4096x1024 .f32) (harg3 : arg3.IsWhole) (arg4 : Memref sig .tc .vmem S2x16x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1x1024 .f32) (harg11 : arg11.IsWhole) (arg12 : Memref sig .tc .vmem S1024x6 .f32) (harg12 : arg12.IsWhole) (arg13 : Memref sig .tc .vmem S1x6 .f32) (harg13 : arg13.IsWhole) (arg14 : Memref sig .tc .vmem S128x6 .f32) (harg14 : arg14.IsWhole)
    (x0 : Vec F S128x1 .i32) (x1 : Vec F S128x4096 .f32) (x2 : Vec F S4096x1024 .f32) (x3 : Vec F S2x16x1024 .f32) (x4 : Vec F S1x1024 .f32) (x5 : Vec F S1024x1024 .f32) (x6 : Vec F S1x1024 .f32) (x7 : Vec F S1024x1024 .f32) (x8 : Vec F S1x1024 .f32) (x9 : Vec F S1024x1024 .f32) (x10 : Vec F S1x1024 .f32) (x11 : Vec F S1024x6 .f32) (x12 : Vec F S1x6 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out13 x0 x1 x2 x3 x4 x5 x6 x7 x8 x9 x10 x11 x12)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__mlp_kernel_eq_skeleton]; unfold cc1__mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  try dsimp only
  exact View.read_writes_eq_canon _ _ _ (cover13 _)

/-! ## The proof data's input buffers at their blocks -/

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d
theorem before_6 (c : Dev nD) (t : Fin cfg1.N) (d) : (dat V c).before 6 t d = iblk V c 6 t :=
  before_6_of V (dat V c) (A_eq V c 6) (after_6 V c) t d
theorem before_7 (c : Dev nD) (t : Fin cfg1.N) (d) : (dat V c).before 7 t d = iblk V c 7 t :=
  before_7_of V (dat V c) (A_eq V c 7) (after_7 V c) t d
theorem before_8 (c : Dev nD) (t : Fin cfg1.N) (d) : (dat V c).before 8 t d = iblk V c 8 t :=
  before_8_of V (dat V c) (A_eq V c 8) (after_8 V c) t d
theorem before_9 (c : Dev nD) (t : Fin cfg1.N) (d) : (dat V c).before 9 t d = iblk V c 9 t :=
  before_9_of V (dat V c) (A_eq V c 9) (after_9 V c) t d
theorem before_10 (c : Dev nD) (t : Fin cfg1.N) (d) : (dat V c).before 10 t d = iblk V c 10 t :=
  before_10_of V (dat V c) (A_eq V c 10) (after_10 V c) t d
theorem before_11 (c : Dev nD) (t : Fin cfg1.N) (d) : (dat V c).before 11 t d = iblk V c 11 t :=
  before_11_of V (dat V c) (A_eq V c 11) (after_11 V c) t d
theorem before_12 (c : Dev nD) (t : Fin cfg1.N) (d) : (dat V c).before 12 t d = iblk V c 12 t :=
  before_12_of V (dat V c) (A_eq V c 12) (after_12 V c) t d

/-! ## The body obligation, at a generic point -/

/-- What the body is called with at point `t`: the invariant, the core's debts, and every window's current staging
    buffer at what it then holds, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d)))

/-- and what it returns: the same, every buffer at what the body leaves in it. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t))

/-- The body at any point: the inputs' memrefs hold their blocks, so the body's triple applies at the blocks; the
    invariant and the core's debts pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9, before_10, before_11, before_12]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_7.stage (cfg1.slots t 7)) (hstage1_7 ((cfg1.slots t 7).cast nbuf1_7))
    (win1_8.stage (cfg1.slots t 8)) (hstage1_8 ((cfg1.slots t 8).cast nbuf1_8))
    (win1_9.stage (cfg1.slots t 9)) (hstage1_9 ((cfg1.slots t 9).cast nbuf1_9))
    (win1_10.stage (cfg1.slots t 10)) (hstage1_10 ((cfg1.slots t 10).cast nbuf1_10))
    (win1_11.stage (cfg1.slots t 11)) (hstage1_11 ((cfg1.slots t 11).cast nbuf1_11))
    (win1_12.stage (cfg1.slots t 12)) (hstage1_12 ((cfg1.slots t 12).cast nbuf1_12))
    (win1_13.stage (cfg1.slots t 13)) (hstage1_13 ((cfg1.slots t 13).cast nbuf1_13))
    (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point: the windows conjoined one by one. -/
theorem body_obligation (c : Dev nD) : BodyObligation (dat (F := F) V c) (defs₀ (F := F)) Variants.none () Set.univ := fun t => by
  rw [bigSep_W1, bigSep_W1]
  exact sound_body V c t

end Cert.KernelIdeal.R1

end
-- ==== Proof.RunCond.lean ====
/-
  The whole program: the host stretches and the two regions in order. Between two items every unscoped buffer of a
  core is held at a named contents: the launch memory, then each host stretch applied, then — after a region — the
  region's result array at what its write-backs leave and every other buffer unchanged. The run ends with the result
  `main_v9` at what region 1 leaves and every argument as launched. Stated at any float instance.
-/
import proofs.«425794_j25228637897251_3_alg».proof.Proof.Region0
import proofs.«425794_j25228637897251_3_alg».proof.Proof.Region1
import proofs.«425794_j25228637897251_3_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- What region 0 is entered from, at the TensorCore's references. -/
abbrev E0 : (c : Dev nD) → (b : Ref sig .tc) → Buf (Elt F) ((c : Thread nD τ).loc b) := fun c b => V3 m c b

/-- After region 0: its arrays at what the pipeline leaves (the inputs as entered, the result's write-backs folded),
    every other buffer as entered. -/
def W4 (c : Dev nD) : Valuation τ sig (Elt F) :=
  Pipeline.withArrays spec0 c (V3 m c) fun w => (R0.dat (E0 m) c).arrAt w cfg0.N
theorem W4_arr (c : Dev nD) (w : Fin cfg0.W) :
    W4 m c (Proc.devRef .tc (Pipeline.arrRef spec0 w)) = (R0.dat (E0 m) c).arrAt w cfg0.N := by
  unfold W4; exact Pipeline.withArrays_arr spec0 launch0.win.arr_inj c _ _ w

/-- The unknown contents of the generated boundary valuations, with region 0's result filled in. -/
abbrev outs4 : Outs (F := F) := fun _ r c => W4 m c r

/-- What region 1 is entered from, at the TensorCore's references. -/
abbrev E1 : (c : Dev nD) → (b : Ref sig .tc) → Buf (Elt F) ((c : Thread nD τ).loc b) := fun c b => V5 m (outs4 m) c b

/-- After region 1, likewise. -/
def W6 (c : Dev nD) : Valuation τ sig (Elt F) :=
  Pipeline.withArrays spec1 c (V5 m (outs4 m) c) fun w => (R1.dat (E1 m) c).arrAt w cfg1.N
theorem W6_arr (c : Dev nD) (w : Fin cfg1.W) :
    W6 m c (Proc.devRef .tc (Pipeline.arrRef spec1 w)) = (R1.dat (E1 m) c).arrAt w cfg1.N := by
  unfold W6; exact Pipeline.withArrays_arr spec1 launch1.win.arr_inj c _ _ w

/-- Both regions' results filled in. -/
def outs : Outs (F := F) := fun J r c => match J with
  | 4 => W4 m c r
  | _ => W6 m c r

theorem V4_outs (c : Dev nD) : V4 m (outs m) c = V4 m (outs4 m) c := rfl
theorem V5_outs (c : Dev nD) : V5 m (outs m) c = V5 m (outs4 m) c := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat (E0 m) c
  | ⟨1, _⟩ => fun c => R1.dat (E1 m) c

abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev Rr (c : Dev nD) : sProp 𝕄 := iprop((∃ r, prngReg c r) ∗ ∃ W, owes (c : Thread nD τ) (0 : CellTallies nD τ sig Unit) W)
abbrev Er : Fin 3 → Dev nD → sProp 𝕄 := fun _ c => Rr c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Each region's arrays at its exit -/

theorem hF0 (c : Dev nD) (w : Fin cfg0.W) : (pdats m 0 c).arrAt w cfg0.N = V4 m (outs m) c (Pipeline.arrRef spec0 w) := by
  match w with
  | ⟨0, _⟩ => exact ((R0.dat (E0 m) c).arrAt_in 0 rfl _).trans ((R0.A_eq (E0 m) c 0).trans (V4_of m (outs m) c _ (by decide)).symm)
  | ⟨1, _⟩ => exact ((R0.dat (E0 m) c).arrAt_in 1 rfl _).trans ((R0.A_eq (E0 m) c 1).trans (V4_of m (outs m) c _ (by decide)).symm)
  | ⟨2, _⟩ =>
    have h := W4_arr m c 2
    show _ = V4 m (outs m) c main_v3
    unfold V4
    rw [Function.update_self]
    exact h.symm
theorem hrest0 (c : Dev nD) : ∀ b : Ref sig .tc, b ∉ Finset.univ.image (Pipeline.arrRef spec0) → V4 m (outs m) c b = E0 m c b :=
  fun b hb => V4_of m (outs m) c b fun h =>
    hb (Finset.mem_image.mpr ⟨2, Finset.mem_univ _, show Pipeline.arrRef spec0 2 = b from (List.mem_singleton.mp h).symm⟩)
set_option maxHeartbeats 4000000 in
theorem hF1 (c : Dev nD) (w : Fin cfg1.W) : (pdats m 1 c).arrAt w cfg1.N = V6 m (outs m) c (Pipeline.arrRef spec1 w) := by
  match w with
  | ⟨0, _⟩ => exact ((R1.dat (E1 m) c).arrAt_in 0 rfl _).trans ((R1.A_eq (E1 m) c 0).trans (V6_of m (outs m) c _ (by decide)).symm)
  | ⟨1, _⟩ => exact ((R1.dat (E1 m) c).arrAt_in 1 rfl _).trans ((R1.A_eq (E1 m) c 1).trans (V6_of m (outs m) c _ (by decide)).symm)
  | ⟨2, _⟩ => exact ((R1.dat (E1 m) c).arrAt_in 2 rfl _).trans ((R1.A_eq (E1 m) c 2).trans (V6_of m (outs m) c _ (by decide)).symm)
  | ⟨3, _⟩ => exact ((R1.dat (E1 m) c).arrAt_in 3 rfl _).trans ((R1.A_eq (E1 m) c 3).trans (V6_of m (outs m) c _ (by decide)).symm)
  | ⟨4, _⟩ => exact ((R1.dat (E1 m) c).arrAt_in 4 rfl _).trans ((R1.A_eq (E1 m) c 4).trans (V6_of m (outs m) c _ (by decide)).symm)
  | ⟨5, _⟩ => exact ((R1.dat (E1 m) c).arrAt_in 5 rfl _).trans ((R1.A_eq (E1 m) c 5).trans (V6_of m (outs m) c _ (by decide)).symm)
  | ⟨6, _⟩ => exact ((R1.dat (E1 m) c).arrAt_in 6 rfl _).trans ((R1.A_eq (E1 m) c 6).trans (V6_of m (outs m) c _ (by decide)).symm)
  | ⟨7, _⟩ => exact ((R1.dat (E1 m) c).arrAt_in 7 rfl _).trans ((R1.A_eq (E1 m) c 7).trans (V6_of m (outs m) c _ (by decide)).symm)
  | ⟨8, _⟩ => exact ((R1.dat (E1 m) c).arrAt_in 8 rfl _).trans ((R1.A_eq (E1 m) c 8).trans (V6_of m (outs m) c _ (by decide)).symm)
  | ⟨9, _⟩ => exact ((R1.dat (E1 m) c).arrAt_in 9 rfl _).trans ((R1.A_eq (E1 m) c 9).trans (V6_of m (outs m) c _ (by decide)).symm)
  | ⟨10, _⟩ => exact ((R1.dat (E1 m) c).arrAt_in 10 rfl _).trans ((R1.A_eq (E1 m) c 10).trans (V6_of m (outs m) c _ (by decide)).symm)
  | ⟨11, _⟩ => exact ((R1.dat (E1 m) c).arrAt_in 11 rfl _).trans ((R1.A_eq (E1 m) c 11).trans (V6_of m (outs m) c _ (by decide)).symm)
  | ⟨12, _⟩ => exact ((R1.dat (E1 m) c).arrAt_in 12 rfl _).trans ((R1.A_eq (E1 m) c 12).trans (V6_of m (outs m) c _ (by decide)).symm)
  | ⟨13, _⟩ =>
    have h := W6_arr m c 13
    show _ = V6 m (outs m) c main_v9
    unfold V6
    rw [Function.update_self]
    exact h.symm
theorem hrest1 (c : Dev nD) : ∀ b : Ref sig .tc, b ∉ Finset.univ.image (Pipeline.arrRef spec1) → V6 m (outs m) c b = E1 m c b :=
  fun b hb => V6_of m (outs m) c b fun h =>
    hb (Finset.mem_image.mpr ⟨13, Finset.mem_univ _, show Pipeline.arrRef spec1 13 = b from (List.mem_singleton.mp h).symm⟩)

theorem hin0 (c : Dev nD) : Pipeline.ΦA spec0 c ⊢ ((pdats m 0 c).Φ 0 : sProp 𝕄) := R0.hin (E0 m) c
theorem hout0 (c : Dev nD) : (pdats m 0 c).Φ (Fin.last cfg0.N) ⊢ (Pipeline.ΦA spec0 c : sProp 𝕄) := R0.hout (E0 m) c
theorem hin1 (c : Dev nD) : Pipeline.ΦA spec1 c ⊢ ((pdats m 1 c).Φ 0 : sProp 𝕄) := .rfl
theorem hout1 (c : Dev nD) : (pdats m 1 c).Φ (Fin.last cfg1.N) ⊢ (Pipeline.ΦA spec1 c : sProp 𝕄) := .rfl

/-- The last thread state without the `owes`. -/
abbrev Tn (c : Dev nD) : sProp 𝕄 := iprop(StableHlo.held (c : Thread nD τ) (Pipeline.ucRefs τ sig) (V6 m (outs m) c) ∗ ∃ r, prngReg c r)

/-! ## The regions as segments -/

set_option backward.isDefEq.respectTransparency.types false in
/-- Region 0 as a segment: entered with every unscoped buffer at the contents before it, left with them at the
    contents after it; its arrays are split out of the unscoped buffers at entry and put back at exit, the generator
    register goes into the region's invariant and comes back, nothing is owed, and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E0 m) c).loose
  hwaits := Pipeline.hwaits_of_owed_zero _ _ _ _ L lv 0 fun _ _ => rfl
  pre c := iprop(StableHlo.held (c : Thread nD τ) (Pipeline.ucRefs τ sig) (V3 m c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 m c)
    unfold Pipeline.ΦA
    iintro ⟨Hp, -, Hr⟩
    isplitl [Hr]; · iexact Hr
    iexact Hp
  hout c := by
    rw [Pipeline.ownSems0_none]
    refine (hout0 m c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the
    contents after it; its arrays are split out of the unscoped buffers at entry and put back at exit, the generator
    register goes into the region's invariant and comes back, nothing is owed, and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (E1 m) c).loose
  hwaits := Pipeline.hwaits_of_owed_zero _ _ _ _ L lv 1 fun _ _ => rfl
  pre c := iprop(StableHlo.held (c : Thread nD τ) (Pipeline.ucRefs τ sig) (V5 m (outs4 m) c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 m c)
    unfold Pipeline.ΦA
    iintro ⟨Hp, -, Hr⟩
    isplitl [Hr]; · iexact Hr
    iexact Hp
  hout c := by
    rw [Pipeline.ownSems0_none]
    refine (hout1 m c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

set_option backward.isDefEq.respectTransparency.types false in
/-- From any memory with zero counters every weakly fair execution of the program terminates, nothing faulting, and
    every final state has the result `main_v9` at what region 1's write-backs leave and each argument as launched. -/
theorem run_val (ρ : Dev nD → PrngReg) : θ_run defs (onTc (τ := τ) (main (F := F))) ⟨m, fun _ => 0, ρ⟩ (fun r => ∀ c : Dev nD,
      r.2.mem ((c.tc : Thread nD τ).loc main_v9) = (R1.dat (E1 m) c).arrAt 13 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm (pdats m) () cellOf_inj emb₁ defs₀ 𝒱₀ L lv m ρ main
    (segs m (outs m) 𝒱₀ L lv Er () (pdats m) (reg0 m) (reg1 m))
    (fun c Q => by
      rewrite [main_chain c, Pipeline.Seg.run_eq_chain,
        show (segs m (outs m) 𝒱₀ L lv Er () (pdats m) (reg0 m) (reg1 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c)) (Tₙ := Tn m)
    (hch := fun c => ⟨.rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V6 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V6 m (outs m) c) s')
      isplitl [Hh] <;> iassumption)
    (hQ := fun s h c =>
      ⟨(h c _ (mem_uc main_v9 (by decide))).trans ((hF1 m c 13).symm),
        (h c _ (mem_uc main_arg0 (by decide))).trans (V6_main_arg0 m (outs m) c),
        (h c _ (mem_uc main_arg1 (by decide))).trans (V6_main_arg1 m (outs m) c),
        (h c _ (mem_uc main_arg2 (by decide))).trans (V6_main_arg2 m (outs m) c),
        (h c _ (mem_uc main_arg3 (by decide))).trans (V6_main_arg3 m (outs m) c),
        (h c _ (mem_uc main_arg4 (by decide))).trans (V6_main_arg4 m (outs m) c),
        (h c _ (mem_uc main_arg5 (by decide))).trans (V6_main_arg5 m (outs m) c),
        (h c _ (mem_uc main_arg6 (by decide))).trans (V6_main_arg6 m (outs m) c),
        (h c _ (mem_uc main_arg7 (by decide))).trans (V6_main_arg7 m (outs m) c),
        (h c _ (mem_uc main_arg8 (by decide))).trans (V6_main_arg8 m (outs m) c),
        (h c _ (mem_uc main_arg9 (by decide))).trans (V6_main_arg9 m (outs m) c),
        (h c _ (mem_uc main_arg10 (by decide))).trans (V6_main_arg10 m (outs m) c),
        (h c _ (mem_uc main_arg11 (by decide))).trans (V6_main_arg11 m (outs m) c),
        (h c _ (mem_uc main_arg12 (by decide))).trans (V6_main_arg12 m (outs m) c)⟩)

/-- The frame: the same run with the result forgotten. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run_val m ρ)

end Cert.KernelIdeal.Run

end
-- ==== Proof.KRegion0.lean ====
/-
  Region 0, the vision projection: on a grid of two halves by four steps, each half accumulates in a scratch
  block the products of its four column blocks of the flattened vision table with the matching row blocks of the
  first weight matrix, and writes the sum into its plane of the result at its last step.
  Stated at any float instance, over the buffer contents `V` the region is entered from.
-/
import proofs.«425794_j25228637897251_3_alg».proof.Proof.Gen.Kernel.Launch
import proofs.«425794_j25228637897251_3_alg».proof.Proof.Gen.Kernel.Skeleton
import proofs.«425794_j25228637897251_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions on the grid point -/

/-- The first conditional's test: the step within the half is the first one. -/
abbrev cond0 (i : grid0.Coords) : Prop :=
  (Scalar.cmpi .ne (Scalar.extui (Scalar.cmpi .eq (BitVec.ofNat 32 (i 1).val) 0#32)) 0#32) = 1#1
/-- It holds exactly at the points ≡ 0 (mod 4): decided over the eight points. -/
theorem hcond0 : ∀ t : Fin cfg0.N, cond0 (grid0.coords t) ↔ t.val % 4 = 0 :=
  (by decide +kernel : ∀ t : Fin grid0.N, cond0 (grid0.coords t) ↔ t.val % 4 = 0)

/-- The second conditional's test: the step within the half is the last one. -/
abbrev cond1 (i : grid0.Coords) : Prop := k0_cond2 i = 1#1
/-- It holds exactly at the points ≡ 3 (mod 4). -/
theorem hcond1 : ∀ t : Fin cfg0.N, cond1 (grid0.coords t) ↔ t.val % 4 = 3 :=
  (by decide +kernel : ∀ t : Fin grid0.N, cond1 (grid0.coords t) ↔ t.val % 4 = 3)

/-! ## Whole-block accesses

Every load and store of the body goes through the rectangle that is the whole of its block, at zero offsets. -/

theorem zeros2 : (![0, 0] : Fin 2 → ℕ) = fun _ => 0 := by funext a; fin_cases a <;> rfl
theorem zeros3 : (![0, 0, 0] : Fin 3 → ℕ) = fun _ => 0 := by funext a; fin_cases a <;> rfl

/-- The accumulation step is a function of its three operands. -/
theorem pay2_congr {a a' : Vec F S16x4096 .f32} {b b' : Vec F S4096x1024 .f32} {s s' : Vec F S16x1024 .f32}
    (ha : a = a') (hb : b = b') (hs : s = s') : k0_pay2 a b s = k0_pay2 a' b' s' := by
  subst ha; subst hb; subst hs; rfl

/-! ## The body's three runs

Which stores the body makes depends only on the step within the half: the first step (reset, accumulate), a
middle step (accumulate), the last step (accumulate, store the result). Each is stated on any whole blocks. -/

set_option maxHeartbeats 4000000 in
/-- The body at a half's FIRST step (the reset taken, the final store not), on whole blocks: the two input blocks
    at `x0`, `x1`, the result block at `xi`, the scratch block at anything. It zeroes the scratch block, adds the
    step's product into it, and touches nothing else: the scratch block ends at the step's product added to zero. -/
theorem sound_A (c : Dev nD) (E : Set ℕ) (i : grid0.Coords)
    (arg2 : Memref sig .tc .vmem S16x4096 .f32) (harg2 : arg2.IsWhole)
    (arg3 : Memref sig .tc .vmem S4096x1024 .f32) (harg3 : arg3.IsWhole)
    (arg4 : Memref sig .tc .vmem S1x16x1024 .f32) (harg4 : arg4.IsWhole)
    (arg5 : Memref sig .tc .vmem S16x1024 .f32) (harg5 : arg5.IsWhole)
    (hc0 : cond0 i) (hc1 : ¬cond1 i)
    (x0 : Vec F S16x4096 .f32) (x1 : Vec F S4096x1024 .f32) (xi : Vec F S1x16x1024 .f32) (K : PUnit → sProp 𝕄) :
    iprop(owns (c : Thread nD τ) arg2 fullShare x0 ∗ owns (c : Thread nD τ) arg3 fullShare x1
        ∗ owns (c : Thread nD τ) arg4 fullShare xi ∗ (∃ d, owns (c : Thread nD τ) arg5 fullShare d)
        ∗ (iprop(owns (c : Thread nD τ) arg2 fullShare x0 ∗ owns (c : Thread nD τ) arg3 fullShare x1
            ∗ owns (c : Thread nD τ) arg4 fullShare xi
            ∗ owns (c : Thread nD τ) arg5 fullShare (k0_pay2 x0 x1 (k0_pay1 (F := F)))) -∗ K ⟨⟩))
      ⊢ wp frame (wpE (defs₀ (F := F)) Variants.none c none) E
          (cc0__vis_proj_kernel i arg2 harg2 arg3 harg3 arg4 harg4 arg5 harg5) K := by
  simp only [cc0__vis_proj_kernel_eq_skeleton]; unfold cc0__vis_proj_kernel_skel
  unfold owns
  iintro ⟨⟨%f0, %hf0, H0⟩, ⟨%f1, %hf1, H1⟩, ⟨%f4, %hf4, H4⟩, ⟨%d5, %f5, -, H5⟩, Hk⟩
  subst hf0; subst hf1; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  iexists _; isplitr
  swap; · iexact H5
  ipureintro
  -- the last store covers the scratch block: it reads back as that store's payload
  refine (View.read_writes_eq_canon _ _ _ (fun y =>
    ⟨_, List.mem_cons.mpr (Or.inl rfl), View.mem_set_unit_zero zeros2 inb_S16x1024_S16x1024_0_0 y⟩)).trans ?_
  refine (View.canon_cons_unit_zero zeros2 _ _ _).trans ?_
  -- whose operands are the two input blocks read whole and the zero block just stored, read back
  exact pay2_congr (View.ld_unit_zero zeros2 _ _) (View.ld_unit_zero zeros2 _ _) (View.readCov_unit_zero _ zeros2 _ _)

set_option maxHeartbeats 4000000 in
/-- The body at a MIDDLE step (neither conditional taken), on whole blocks: the input blocks at `x0`, `x1`, the
    result block at `xi`, the scratch block at `xs`. It adds the step's product into the scratch block and touches
    nothing else. -/
theorem sound_B (c : Dev nD) (E : Set ℕ) (i : grid0.Coords)
    (arg2 : Memref sig .tc .vmem S16x4096 .f32) (harg2 : arg2.IsWhole)
    (arg3 : Memref sig .tc .vmem S4096x1024 .f32) (harg3 : arg3.IsWhole)
    (arg4 : Memref sig .tc .vmem S1x16x1024 .f32) (harg4 : arg4.IsWhole)
    (arg5 : Memref sig .tc .vmem S16x1024 .f32) (harg5 : arg5.IsWhole)
    (hc0 : ¬cond0 i) (hc1 : ¬cond1 i)
    (x0 : Vec F S16x4096 .f32) (x1 : Vec F S4096x1024 .f32) (xi : Vec F S1x16x1024 .f32)
    (xs : Vec F S16x1024 .f32) (K : PUnit → sProp 𝕄) :
    iprop(owns (c : Thread nD τ) arg2 fullShare x0 ∗ owns (c : Thread nD τ) arg3 fullShare x1
        ∗ owns (c : Thread nD τ) arg4 fullShare xi ∗ owns (c : Thread nD τ) arg5 fullShare xs
        ∗ (iprop(owns (c : Thread nD τ) arg2 fullShare x0 ∗ owns (c : Thread nD τ) arg3 fullShare x1
            ∗ owns (c : Thread nD τ) arg4 fullShare xi
            ∗ owns (c : Thread nD τ) arg5 fullShare (k0_pay2 x0 x1 xs)) -∗ K ⟨⟩))
      ⊢ wp frame (wpE (defs₀ (F := F)) Variants.none c none) E
          (cc0__vis_proj_kernel i arg2 harg2 arg3 harg3 arg4 harg4 arg5 harg5) K := by
  simp only [cc0__vis_proj_kernel_eq_skeleton]; unfold cc0__vis_proj_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  iexists _; isplitr
  swap; · iexact H5
  ipureintro
  -- the one store covers the scratch block: it reads back as the store's payload,
  refine (View.read_writes_eq_canon _ _ _ (fun y =>
    ⟨_, List.mem_cons.mpr (Or.inl rfl), View.mem_set_unit_zero zeros2 inb_S16x1024_S16x1024_0_0 y⟩)).trans ?_
  refine (View.canon_cons_unit_zero zeros2 _ _ _).trans ?_
  -- whose operands are the three blocks read whole
  exact pay2_congr (View.ld_unit_zero zeros2 _ _) (View.ld_unit_zero zeros2 _ _) (View.ld_unit_zero zeros2 _ _)

set_option maxHeartbeats 4000000 in
/-- The body at a half's LAST step (the reset not taken, the final store taken), on whole blocks: the input blocks
    at `x0`, `x1`, the scratch block at `xs`, the result block at anything. It adds the step's product into the scratch
    block, reads the sum back and stores it, reshaped, over the whole result block. -/
theorem sound_C (c : Dev nD) (E : Set ℕ) (i : grid0.Coords)
    (arg2 : Memref sig .tc .vmem S16x4096 .f32) (harg2 : arg2.IsWhole)
    (arg3 : Memref sig .tc .vmem S4096x1024 .f32) (harg3 : arg3.IsWhole)
    (arg4 : Memref sig .tc .vmem S1x16x1024 .f32) (harg4 : arg4.IsWhole)
    (arg5 : Memref sig .tc .vmem S16x1024 .f32) (harg5 : arg5.IsWhole)
    (hc0 : ¬cond0 i) (hc1 : cond1 i)
    (x0 : Vec F S16x4096 .f32) (x1 : Vec F S4096x1024 .f32)
    (xs : Vec F S16x1024 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (k0_pay2 x0 x1 xs))
            ∗ owns (c : Thread nD τ) arg5 fullShare (k0_pay2 x0 x1 xs)) -∗ K ⟨⟩))
      ⊢ wp frame (wpE (defs₀ (F := F)) Variants.none c none) E
          (cc0__vis_proj_kernel i arg2 harg2 arg3 harg3 arg4 harg4 arg5 harg5) K := by
  simp only [cc0__vis_proj_kernel_eq_skeleton]; unfold cc0__vis_proj_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := first | exact hc0 | exact hc1)
  sl_step
  iapply Hk
  -- the scratch block after the one store into it: the store's payload, over the three blocks read whole
  have hS : ∀ (g : arg5.view.ty.Contents (Elt F)) (L : List (View.Piece (Elt F) S16x1024 .f32))
      (w : Vec F S16x1024 .f32), w = k0_pay2 (arg2.view.read (Elt F) f0) (arg3.view.read (Elt F) f1) (arg5.view.read (Elt F) f5) →
      arg5.view.read (Elt F) (arg5.view.writes (Elt F) g
        (⟨Rect.unit (s := S16x1024) ![0, 0] S16x1024.size inb_S16x1024_S16x1024_0_0, w⟩ :: L))
        = k0_pay2 (arg2.view.read (Elt F) f0) (arg3.view.read (Elt F) f1) (arg5.view.read (Elt F) f5) := by
    intro g L w hw
    refine (View.read_writes_eq_canon _ _ _ (fun y =>
      ⟨_, List.mem_cons.mpr (Or.inl rfl), View.mem_set_unit_zero zeros2 inb_S16x1024_S16x1024_0_0 y⟩)).trans ?_
    exact (View.canon_cons_unit_zero zeros2 _ _ _).trans hw
  have hw : k0_pay2 (View.readAt (Elt F) arg2.view (Rect.unit (s := S16x4096) ![0, 0] S16x4096.size inb_S16x4096_S16x4096_0_0).toLoadRect f0)
        (View.readAt (Elt F) arg3.view (Rect.unit (s := S4096x1024) ![0, 0] S4096x1024.size inb_S4096x1024_S4096x1024_0_0).toLoadRect f1)
        (View.readAt (Elt F) arg5.view (Rect.unit (s := S16x1024) ![0, 0] S16x1024.size inb_S16x1024_S16x1024_0_0).toLoadRect f5)
      = k0_pay2 (arg2.view.read (Elt F) f0) (arg3.view.read (Elt F) f1) (arg5.view.read (Elt F) f5) :=
    pay2_congr (View.ld_unit_zero zeros2 _ _) (View.ld_unit_zero zeros2 _ _) (View.ld_unit_zero zeros2 _ _)
  isplitl [H0]
  · iexists f0; isplitr; · ipureintro; rfl
    iexact H0
  isplitl [H1]
  · iexists f1; isplitr; · ipureintro; rfl
    iexact H1
  isplitl [H4]
  · iexists _; isplitr
    swap; · iexact H4
    ipureintro
    -- the one store covers the result block: it reads back as the store's payload, the reshaped sum read back
    refine (View.read_writes_eq_canon _ _ _ (fun y =>
      ⟨_, List.mem_cons.mpr (Or.inl rfl), View.mem_set_unit_zero zeros3 inb_S1x16x1024_S1x16x1024_0_0_0 y⟩)).trans ?_
    refine (View.canon_cons_unit_zero zeros3 _ _ _).trans ?_
    exact congrArg k0_pay3 ((View.readCov_unit_zero _ zeros2 _ _).trans hw)
  iexists _; isplitr
  swap; · iexact H5
  ipureintro
  exact hS _ _ _ hw

variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch block after grid point `n`: the running sum of the half's products up to that step. -/
def acc (c : Dev nD) : (n : ℕ) → n < cfg0.N → Vec F S16x1024 .f32
  | 0, hn => k0_pay2 (iblk V c 0 ⟨0, hn⟩) (iblk V c 1 ⟨0, hn⟩) (k0_pay1 (F := F))
  | n + 1, hn =>
    if (n + 1) % 4 = 0 then k0_pay2 (iblk V c 0 ⟨n + 1, hn⟩) (iblk V c 1 ⟨n + 1, hn⟩) (k0_pay1 (F := F))
    else k0_pay2 (iblk V c 0 ⟨n + 1, hn⟩) (iblk V c 1 ⟨n + 1, hn⟩) (acc c n (Nat.lt_of_succ_lt hn))

theorem acc_first (c : Dev nD) (t : Fin cfg0.N) (h : t.val % 4 = 0) :
    acc V c t.val t.isLt = k0_pay2 (iblk V c 0 t) (iblk V c 1 t) (k0_pay1 (F := F)) := by
  obtain ⟨n, hn⟩ := t
  cases n with
  | zero => rfl
  | succ n => exact if_pos h

theorem acc_next (c : Dev nD) (t : Fin cfg0.N) (h : t.val % 4 ≠ 0) :
    acc V c t.val t.isLt = k0_pay2 (iblk V c 0 t) (iblk V c 1 t) (acc V c (t.val - 1) (Nat.lt_of_le_of_lt (Nat.sub_le _ _) t.isLt)) := by
  obtain ⟨n, hn⟩ := t
  cases n with
  | zero => exact absurd (Nat.zero_mod _) h
  | succ n => exact if_neg h

/-! ## The region's invariant -/

/-- The seventeen staging buffers of the other call, each whole at some contents: scoped buffers this region never touches. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_stg10_0), ((c : Thread nD τ).loc cc1_stg10_0) ↦{fullShare} f)
    ∗ (∃ f : Buf (Elt F) ((c : Thread nD τ).loc cc1_stg11_0), ((c : Thread nD τ).loc cc1_stg11_0) ↦{fullShare} f)
    ∗ (∃ f : Buf (Elt F) ((c : Thread nD τ).loc cc1_stg12_0), ((c : Thread nD τ).loc cc1_stg12_0) ↦{fullShare} f)
    ∗ (∃ f : Buf (Elt F) ((c : Thread nD τ).loc cc1_stg13_0), ((c : Thread nD τ).loc cc1_stg13_0) ↦{fullShare} f)
    ∗ (∃ f : Buf (Elt F) ((c : Thread nD τ).loc cc1_stg13_1), ((c : Thread nD τ).loc cc1_stg13_1) ↦{fullShare} f))

/-- The launch's invariant, opened: the scratch block owned whole at some contents, the other scoped buffers,
    and the generator register at some state. -/
theorem PhiA0_eq (c : Dev nD) :
    (Pipeline.ΦA spec0 c : sProp 𝕄)
      = iprop(iprop((∃ d, owns (c : Thread nD τ) (Memref.whole cc0_scratch0) fullShare d) ∗ others (F := F) c) ∗ (∃ r, prngReg c r)) := by
  unfold Pipeline.ΦA others; rw [scopedRest0_eq]; simp only [owns_whole]

/-- The region's invariant before grid point `n`: at entry the scoped buffers at anything and the generator
    register; afterwards the same with the scratch block at the running sum the point before left. -/
def PhiS (c : Dev nD) : (n : ℕ) → n ≤ cfg0.N → sProp 𝕄
  | 0, _ => Pipeline.ΦA spec0 c
  | n + 1, hn => iprop(iprop(owns (c : Thread nD τ) (Memref.whole cc0_scratch0) fullShare (acc V c n hn) ∗ others (F := F) c) ∗ (∃ r, prngReg c r))

theorem PhiS_zero (c : Dev nD) (n : ℕ) (h : n ≤ cfg0.N) (hz : n = 0) : PhiS V c n h = Pipeline.ΦA spec0 c := by
  subst hz; rfl

/-- After point `n`: the scratch block at that point's sum. -/
theorem PhiS_succ (c : Dev nD) (n : ℕ) (hn : n < cfg0.N) :
    PhiS V c (n + 1) hn = iprop(iprop(owns (c : Thread nD τ) (Memref.whole cc0_scratch0) fullShare (acc V c n hn) ∗ others (F := F) c) ∗ (∃ r, prngReg c r)) := rfl

/-- Before a point that is not the first: the scratch block at the sum the point before left. -/
theorem PhiS_pos (c : Dev nD) (n : ℕ) (h : n ≤ cfg0.N) (hz : n ≠ 0) :
    PhiS V c n h = iprop(iprop(owns (c : Thread nD τ) (Memref.whole cc0_scratch0) fullShare (acc V c (n - 1) (by omega)) ∗ others (F := F) c) ∗ (∃ r, prngReg c r)) := by
  cases n with
  | zero => exact absurd rfl hz
  | succ n => rfl

/-- The proof data of pipeline 0 on core `c`: the arrays as the region finds them; each input window's
    staging block its block of the array; the result window's the scratch block (read only where a half ends);
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay3 (acc V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = k0_pay3 (acc V c t.val t.isLt) := by dsimp only [dat]

/-- The invariant at a point's start, restated at the point's position. -/
theorem PhiS_castSucc (c : Dev nD) (t : Fin cfg0.N) :
    (dat V c).Φ t.castSucc = PhiS V c t.val (Nat.le_of_lt t.isLt) := by
  dsimp only [dat]; simp only [Fin.coe_castSucc]

/-- Each input window's current staging block holds its block of the array at every point, fetched there or
    not: unfetched, the block index has not moved. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## Where the windows are idle -/

/-- The two input windows are never idle. -/
theorem live_0 : ∀ t : Fin cfg0.N, cfg0.idle 0 (grid0.coords t) = false := fun _ => rfl
theorem live_1 : ∀ t : Fin cfg0.N, cfg0.idle 1 (grid0.coords t) = false := fun _ => rfl
/-- Where the final store is not taken the result window is idle, -/
theorem idle_2 : ∀ t : Fin cfg0.N, ¬cond1 (grid0.coords t) → cfg0.idle 2 (grid0.coords t) = true := by decide +kernel
/-- and its block is not written back there; -/
theorem noFlush_2 : ∀ t : Fin cfg0.N, ¬cond1 (grid0.coords t) → (cfg0.win 2).flush t = false := by decide +kernel
/-- where it is taken the window is live. -/
theorem live_2 : ∀ t : Fin cfg0.N, cond1 (grid0.coords t) → cfg0.idle 2 (grid0.coords t) = false := by decide +kernel

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point. The input windows' blocks hold their blocks of the arrays; the step within the half
    (`t % 4`) says which of the three runs applies. The invariant hands the body the scratch block at the sum the point
    before left (at anything at the very first point, where the body zeroes it) and takes it back at this point's sum;
    the result window's block is handed back as found except at a half's last step, where it is stored whole. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st0_0 t) fullShare ((dat V c).after 0 t) from by
    unfold Dat.leavesExact; rw [live_0 t], after_0]
  rw [show (dat V c).leavesExact 1 t = owns (c : Thread nD τ) (st0_1 t) fullShare ((dat V c).after 1 t) from by
    unfold Dat.leavesExact; rw [live_1 t], after_1]
  have hN : t.val < 8 := lt_of_lt_of_eq t.isLt (show cfg0.N = 8 from N_0)
  by_cases h0 : t.val % 4 = 0
  · -- a half's first step
    have h1 : ¬t.val % 4 = 3 := by omega
    have hc0 : cond0 (grid0.coords t) := (hcond0 t).mpr h0
    have hc1 : ¬cond1 (grid0.coords t) := fun h => h1 ((hcond1 t).mp h)
    rw [Dat.leavesExact_idle (dat V c) 2 t (idle_2 t hc1) (noFlush_2 t hc1)]
    rw [acc_first V c t h0]
    by_cases hz : t.val = 0
    · rw [PhiS_castSucc V c t, PhiS_zero V c _ _ hz, PhiA0_eq]
      iintro ⟨⟨⟨HS, Hr⟩, Hg⟩, Ho, ⟨%d0, H0⟩, ⟨%d1, H1⟩, ⟨%d2, H2⟩⟩
      iapply (sound_A c Set.univ (grid0.coords t) _ _ _ _ _ _ _ _ hc0 hc1 (iblk V c 0 t) (iblk V c 1 t) ((dat V c).before 2 t d2) _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, Hr⟩, Hg⟩, Ho, ⟨%d0, H0⟩, ⟨%d1, H1⟩, ⟨%d2, H2⟩⟩
      iapply (sound_A c Set.univ (grid0.coords t) _ _ _ _ _ _ _ _ hc0 hc1 (iblk V c 0 t) (iblk V c 1 t) ((dat V c).before 2 t d2) _)
      isplitl [H0]; · iexact H0
      isplitl [H1]; · iexact H1
      isplitl [H2]; · iexact H2
      isplitl [HS]; · iexists _; iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
  · have hz : t.val ≠ 0 := by omega
    have hc0 : ¬cond0 (grid0.coords t) := fun h => h0 ((hcond0 t).mp h)
    rw [acc_next V c t h0]
    rw [PhiS_castSucc V c t, PhiS_pos V c _ _ hz]
    by_cases h1 : t.val % 4 = 3
    · -- a half's last step
      have hc1 : cond1 (grid0.coords t) := (hcond1 t).mpr h1
      rw [show (dat V c).leavesExact 2 t = owns (c : Thread nD τ) (st0_2 t) fullShare ((dat V c).after 2 t) from by
        unfold Dat.leavesExact; rw [live_2 t hc1], after_2]
      rw [acc_next V c t h0]
      iintro ⟨⟨⟨HS, Hr⟩, Hg⟩, Ho, ⟨%d0, H0⟩, ⟨%d1, H1⟩, ⟨%d2, H2⟩⟩
      iapply (sound_C c Set.univ (grid0.coords t) _ _ _ _ _ _ _ _ hc0 hc1 (iblk V c 0 t) (iblk V c 1 t)
        (acc V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · -- a middle step
      have hc1 : ¬cond1 (grid0.coords t) := fun h => h1 ((hcond1 t).mp h)
      rw [Dat.leavesExact_idle (dat V c) 2 t (idle_2 t hc1) (noFlush_2 t hc1)]
      iintro ⟨⟨⟨HS, Hr⟩, Hg⟩, Ho, ⟨%d0, H0⟩, ⟨%d1, H1⟩, ⟨%d2, H2⟩⟩
      iapply (sound_B c Set.univ (grid0.coords t) _ _ _ _ _ _ _ _ hc0 hc1 (iblk V c 0 t) (iblk V c 1 t)
        ((dat V c).before 2 t d2) (acc V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ ((dat V c).Φ 0 : sProp 𝕄) := by
  rw [show (dat V c).Φ 0 = PhiS V c 0 (Nat.zero_le _) from rfl, PhiS_zero V c 0 _ rfl]

/-- After any point but the first the invariant gives the launch's back: the scratch block's sum is forgotten. -/
theorem Phi_out (c : Dev nD) (t : Fin (cfg0.N + 1)) (ht : t.val ≠ 0) : (dat V c).Φ t ⊢ (Pipeline.ΦA spec0 c : sProp 𝕄) := by
  rw [show (dat V c).Φ t = PhiS V c t.val (Nat.le_of_lt_succ t.isLt) from rfl, PhiS_pos V c _ _ ht, PhiA0_eq]
  iintro ⟨⟨HS, Hr⟩, Hg⟩
  isplitl [HS Hr]
  · isplitl [HS]
    · iexists _; iexact HS
    iexact Hr
  iexact Hg

theorem hout (c : Dev nD) : (dat V c).Φ (Fin.last cfg0.N) ⊢ (Pipeline.ΦA spec0 c : sProp 𝕄) :=
  Phi_out V c _ (by rw [Fin.val_last]; have : cfg0.N = 8 := N_0; omega)

end Cert.Kernel.R0

end
-- ==== Proof.KRegion1.lean ====
/-
  Region 1, the per-token network: each grid point takes 128 tokens; it adds the two planes of the vision
  projection, picks each token's row of the sum by a product with the token's indicator row, adds the language
  part of the first layer and its bias, and runs the remaining four layers, storing the 128 x 6 result block.
  Stated at any float instance, over the buffer contents `V` the region is entered from.
-/
import proofs.«425794_j25228637897251_3_alg».proof.Proof.Gen.Kernel.Launch
import proofs.«425794_j25228637897251_3_alg».proof.Proof.Gen.Kernel.Skeleton
import proofs.«425794_j25228637897251_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The result window's staging block after the body, from the input windows' blocks: the body's one store,
    of the network's output on whole-block loads of the thirteen inputs (the two planes read as the two
    unit slabs of their window). -/
def out13 (x0 : Vec F S128x1 .i32) (x1 : Vec F S128x4096 .f32) (x2 : Vec F S4096x1024 .f32) (x3 : Vec F S2x16x1024 .f32) (x4 : Vec F S1x1024 .f32) (x5 : Vec F S1024x1024 .f32) (x6 : Vec F S1x1024 .f32) (x7 : Vec F S1024x1024 .f32) (x8 : Vec F S1x1024 .f32) (x9 : Vec F S1024x1024 .f32) (x10 : Vec F S1x1024 .f32) (x11 : Vec F S1024x6 .f32) (x12 : Vec F S1x6 .f32) : Vec F S128x6 .f32 :=
  View.canon [⟨(Rect.unit (s := S128x6) ![0, 0] S128x6.size inb_S128x6_S128x6_0_0),
    k1_pay1
      (k1_pay2 (View.ld x0 (Rect.unit (s := S128x1) ![0, 0] S128x1.size inb_S128x1_S128x1_0_0))
        (View.ld x3 (Rect.unit (s := S2x16x1024) ![0, 0, 0] S1x16x1024.size inb_S2x16x1024_S1x16x1024_0_0_0))
        (View.ld x3 (Rect.unit (s := S2x16x1024) ![1, 0, 0] S1x16x1024.size inb_S2x16x1024_S1x16x1024_1_0_0))
        (View.ld x1 (Rect.unit (s := S128x4096) ![0, 0] S128x4096.size inb_S128x4096_S128x4096_0_0))
        (View.ld x2 (Rect.unit (s := S4096x1024) ![0, 0] S4096x1024.size inb_S4096x1024_S4096x1024_0_0))
        (View.ld x4 (Rect.unit (s := S1x1024) ![0, 0] S1x1024.size inb_S1x1024_S1x1024_0_0))
        (View.ld x5 (Rect.unit (s := S1024x1024) ![0, 0] S1024x1024.size inb_S1024x1024_S1024x1024_0_0))
        (View.ld x6 (Rect.unit (s := S1x1024) ![0, 0] S1x1024.size inb_S1x1024_S1x1024_0_0)))
      (View.ld x7 (Rect.unit (s := S1024x1024) ![0, 0] S1024x1024.size inb_S1024x1024_S1024x1024_0_0))
      (View.ld x8 (Rect.unit (s := S1x1024) ![0, 0] S1x1024.size inb_S1x1024_S1x1024_0_0))
      (View.ld x9 (Rect.unit (s := S1024x1024) ![0, 0] S1024x1024.size inb_S1024x1024_S1024x1024_0_0))
      (View.ld x10 (Rect.unit (s := S1x1024) ![0, 0] S1x1024.size inb_S1x1024_S1x1024_0_0))
      (View.ld x11 (Rect.unit (s := S1024x6) ![0, 0] S1024x6.size inb_S1024x6_S1024x6_0_0))
      (View.ld x12 (Rect.unit (s := S1x6) ![0, 0] S1x6.size inb_S1x6_S1x6_0_0))⟩]

/-- The proof data of pipeline 1 on core `c`: the arrays as the region finds them; each input window's staging
    block its block of the array, the result window's `out13` of them; the class invariant; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => out13 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) : (dat V c).after 10 t = iblk V c 10 t := by dsimp only [dat]
theorem after_11 (c : Dev nD) (t : Fin cfg1.N) : (dat V c).after 11 t = iblk V c 11 t := by dsimp only [dat]
theorem after_12 (c : Dev nD) (t : Fin cfg1.N) : (dat V c).after 12 t = iblk V c 12 t := by dsimp only [dat]
theorem after_13 (c : Dev nD) (t : Fin cfg1.N) : (dat V c).after 13 t = out13 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := by dsimp only [dat]

/-! ## What the body finds in each input window's staging buffer -/

/-- Input window 0's current staging buffer holds its block at every point, fetched there or not, for any proof
    data whose array is the entry contents' and whose body leaves the block in place: an unfetched window's block
    index has not moved, so the buffer still holds this point's block. The window is uncut and never idle. -/
theorem before_0_of {c : Dev nD} (D : Dat τ (Elt F) Unit ℕ (UR sig nD τ) ℕ cfg1 c) (hA : D.A 0 = V c (Pipeline.arrRef spec1 0))
    (hafter : ∀ t, D.after 0 t = iblk V c 0 t) (t : Fin cfg1.N) (d) : D.before 0 t d = iblk V c 0 t :=
  (D.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the entry contents' and whose body leaves the block in place: an unfetched window's block
    index has not moved, so the buffer still holds this point's block. The window is uncut and never idle. -/
theorem before_1_of {c : Dev nD} (D : Dat τ (Elt F) Unit ℕ (UR sig nD τ) ℕ cfg1 c) (hA : D.A 1 = V c (Pipeline.arrRef spec1 1))
    (hafter : ∀ t, D.after 1 t = iblk V c 1 t) (t : Fin cfg1.N) (d) : D.before 1 t d = iblk V c 1 t :=
  (D.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the entry contents' and whose body leaves the block in place: an unfetched window's block
    index has not moved, so the buffer still holds this point's block. The window is uncut and never idle. -/
theorem before_2_of {c : Dev nD} (D : Dat τ (Elt F) Unit ℕ (UR sig nD τ) ℕ cfg1 c) (hA : D.A 2 = V c (Pipeline.arrRef spec1 2))
    (hafter : ∀ t, D.after 2 t = iblk V c 2 t) (t : Fin cfg1.N) (d) : D.before 2 t d = iblk V c 2 t :=
  (D.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the entry contents' and whose body leaves the block in place: an unfetched window's block
    index has not moved, so the buffer still holds this point's block. The window is uncut and never idle. -/
theorem before_3_of {c : Dev nD} (D : Dat τ (Elt F) Unit ℕ (UR sig nD τ) ℕ cfg1 c) (hA : D.A 3 = V c (Pipeline.arrRef spec1 3))
    (hafter : ∀ t, D.after 3 t = iblk V c 3 t) (t : Fin cfg1.N) (d) : D.before 3 t d = iblk V c 3 t :=
  (D.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the entry contents' and whose body leaves the block in place: an unfetched window's block
    index has not moved, so the buffer still holds this point's block. The window is uncut and never idle. -/
theorem before_4_of {c : Dev nD} (D : Dat τ (Elt F) Unit ℕ (UR sig nD τ) ℕ cfg1 c) (hA : D.A 4 = V c (Pipeline.arrRef spec1 4))
    (hafter : ∀ t, D.after 4 t = iblk V c 4 t) (t : Fin cfg1.N) (d) : D.before 4 t d = iblk V c 4 t :=
  (D.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof
    data whose array is the entry contents' and whose body leaves the block in place: an unfetched window's block
    index has not moved, so the buffer still holds this point's block. The window is uncut and never idle. -/
theorem before_5_of {c : Dev nD} (D : Dat τ (Elt F) Unit ℕ (UR sig nD τ) ℕ cfg1 c) (hA : D.A 5 = V c (Pipeline.arrRef spec1 5))
    (hafter : ∀ t, D.after 5 t = iblk V c 5 t) (t : Fin cfg1.N) (d) : D.before 5 t d = iblk V c 5 t :=
  (D.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not, for any proof
    data whose array is the entry contents' and whose body leaves the block in place: an unfetched window's block
    index has not moved, so the buffer still holds this point's block. The window is uncut and never idle. -/
theorem before_6_of {c : Dev nD} (D : Dat τ (Elt F) Unit ℕ (UR sig nD τ) ℕ cfg1 c) (hA : D.A 6 = V c (Pipeline.arrRef spec1 6))
    (hafter : ∀ t, D.after 6 t = iblk V c 6 t) (t : Fin cfg1.N) (d) : D.before 6 t d = iblk V c 6 t :=
  (D.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not, for any proof
    data whose array is the entry contents' and whose body leaves the block in place: an unfetched window's block
    index has not moved, so the buffer still holds this point's block. The window is uncut and never idle. -/
theorem before_7_of {c : Dev nD} (D : Dat τ (Elt F) Unit ℕ (UR sig nD τ) ℕ cfg1 c) (hA : D.A 7 = V c (Pipeline.arrRef spec1 7))
    (hafter : ∀ t, D.after 7 t = iblk V c 7 t) (t : Fin cfg1.N) (d) : D.before 7 t d = iblk V c 7 t :=
  (D.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not, for any proof
    data whose array is the entry contents' and whose body leaves the block in place: an unfetched window's block
    index has not moved, so the buffer still holds this point's block. The window is uncut and never idle. -/
theorem before_8_of {c : Dev nD} (D : Dat τ (Elt F) Unit ℕ (UR sig nD τ) ℕ cfg1 c) (hA : D.A 8 = V c (Pipeline.arrRef spec1 8))
    (hafter : ∀ t, D.after 8 t = iblk V c 8 t) (t : Fin cfg1.N) (d) : D.before 8 t d = iblk V c 8 t :=
  (D.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not, for any proof
    data whose array is the entry contents' and whose body leaves the block in place: an unfetched window's block
    index has not moved, so the buffer still holds this point's block. The window is uncut and never idle. -/
theorem before_9_of {c : Dev nD} (D : Dat τ (Elt F) Unit ℕ (UR sig nD τ) ℕ cfg1 c) (hA : D.A 9 = V c (Pipeline.arrRef spec1 9))
    (hafter : ∀ t, D.after 9 t = iblk V c 9 t) (t : Fin cfg1.N) (d) : D.before 9 t d = iblk V c 9 t :=
  (D.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not, for any proof
    data whose array is the entry contents' and whose body leaves the block in place: an unfetched window's block
    index has not moved, so the buffer still holds this point's block. The window is uncut and never idle. -/
theorem before_10_of {c : Dev nD} (D : Dat τ (Elt F) Unit ℕ (UR sig nD τ) ℕ cfg1 c) (hA : D.A 10 = V c (Pipeline.arrRef spec1 10))
    (hafter : ∀ t, D.after 10 t = iblk V c 10 t) (t : Fin cfg1.N) (d) : D.before 10 t d = iblk V c 10 t :=
  (D.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, fetched there or not, for any proof
    data whose array is the entry contents' and whose body leaves the block in place: an unfetched window's block
    index has not moved, so the buffer still holds this point's block. The window is uncut and never idle. -/
theorem before_11_of {c : Dev nD} (D : Dat τ (Elt F) Unit ℕ (UR sig nD τ) ℕ cfg1 c) (hA : D.A 11 = V c (Pipeline.arrRef spec1 11))
    (hafter : ∀ t, D.after 11 t = iblk V c 11 t) (t : Fin cfg1.N) (d) : D.before 11 t d = iblk V c 11 t :=
  (D.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's current staging buffer holds its block at every point, fetched there or not, for any proof
    data whose array is the entry contents' and whose body leaves the block in place: an unfetched window's block
    index has not moved, so the buffer still holds this point's block. The window is uncut and never idle. -/
theorem before_12_of {c : Dev nD} (D : Dat τ (Elt F) Unit ℕ (UR sig nD τ) ℕ cfg1 c) (hA : D.A 12 = V c (Pipeline.arrRef spec1 12))
    (hafter : ∀ t, D.after 12 t = iblk V c 12 t) (t : Fin cfg1.N) (d) : D.before 12 t d = iblk V c 12 t :=
  (D.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The body's one store covers the result block -/

/-- The whole-block rectangle of the result window. -/
abbrev rOut : Rect S128x6 := Rect.unit (s := S128x6) ![0, 0] S128x6.size inb_S128x6_S128x6_0_0

/-- The one store is of the whole block, so it tiles the buffer and covers it. -/
theorem cover13 (p0 : Vec F S128x6 .f32) (y : S128x6.Idx) :
    ∃ pc ∈ ([⟨rOut, p0⟩] : List (View.Piece (Elt F) S128x6 .f32)), y ∈ pc.1.set :=
  View.cover_of_tiled [⟨rOut, p0⟩] S128x6.size (by rfl) y

/-! ## The body's triple -/

set_option maxHeartbeats 4000000 in
/-- The kernel body on whole staging memrefs, the thirteen inputs' at read contents `x0 … x12` and the result's at
    anything, runs to the continuation holding the inputs' as they were and the result's at `out13` of the inputs:
    the body and its first part are their skeletons, a sequence of whole-rectangle loads (the planes window read as
    its two unit slabs) closed by one whole-block store; what the store leaves reads as the canon of its one piece. -/
theorem sound_kernel (c : Dev nD) (E : Set ℕ) (i : grid1.Coords) (arg1 : Memref sig .tc .vmem S128x1 .i32) (harg1 : arg1.IsWhole) (arg2 : Memref sig .tc .vmem S128x4096 .f32) (harg2 : arg2.IsWhole) (arg3 : Memref sig .tc .vmem S4096x1024 .f32) (harg3 : arg3.IsWhole) (arg4 : Memref sig .tc .vmem S2x16x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1x1024 .f32) (harg11 : arg11.IsWhole) (arg12 : Memref sig .tc .vmem S1024x6 .f32) (harg12 : arg12.IsWhole) (arg13 : Memref sig .tc .vmem S1x6 .f32) (harg13 : arg13.IsWhole) (arg14 : Memref sig .tc .vmem S128x6 .f32) (harg14 : arg14.IsWhole)
    (x0 : Vec F S128x1 .i32) (x1 : Vec F S128x4096 .f32) (x2 : Vec F S4096x1024 .f32) (x3 : Vec F S2x16x1024 .f32) (x4 : Vec F S1x1024 .f32) (x5 : Vec F S1024x1024 .f32) (x6 : Vec F S1x1024 .f32) (x7 : Vec F S1024x1024 .f32) (x8 : Vec F S1x1024 .f32) (x9 : Vec F S1024x1024 .f32) (x10 : Vec F S1x1024 .f32) (x11 : Vec F S1024x6 .f32) (x12 : Vec F S1x6 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out13 x0 x1 x2 x3 x4 x5 x6 x7 x8 x9 x10 x11 x12)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__mlp_kernel_eq_skeleton]; unfold cc1__mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  try dsimp only
  exact View.read_writes_eq_canon _ _ _ (cover13 _)

/-! ## The proof data's input buffers at their blocks -/

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d
theorem before_6 (c : Dev nD) (t : Fin cfg1.N) (d) : (dat V c).before 6 t d = iblk V c 6 t :=
  before_6_of V (dat V c) (A_eq V c 6) (after_6 V c) t d
theorem before_7 (c : Dev nD) (t : Fin cfg1.N) (d) : (dat V c).before 7 t d = iblk V c 7 t :=
  before_7_of V (dat V c) (A_eq V c 7) (after_7 V c) t d
theorem before_8 (c : Dev nD) (t : Fin cfg1.N) (d) : (dat V c).before 8 t d = iblk V c 8 t :=
  before_8_of V (dat V c) (A_eq V c 8) (after_8 V c) t d
theorem before_9 (c : Dev nD) (t : Fin cfg1.N) (d) : (dat V c).before 9 t d = iblk V c 9 t :=
  before_9_of V (dat V c) (A_eq V c 9) (after_9 V c) t d
theorem before_10 (c : Dev nD) (t : Fin cfg1.N) (d) : (dat V c).before 10 t d = iblk V c 10 t :=
  before_10_of V (dat V c) (A_eq V c 10) (after_10 V c) t d
theorem before_11 (c : Dev nD) (t : Fin cfg1.N) (d) : (dat V c).before 11 t d = iblk V c 11 t :=
  before_11_of V (dat V c) (A_eq V c 11) (after_11 V c) t d
theorem before_12 (c : Dev nD) (t : Fin cfg1.N) (d) : (dat V c).before 12 t d = iblk V c 12 t :=
  before_12_of V (dat V c) (A_eq V c 12) (after_12 V c) t d

/-! ## The body obligation, at a generic point -/

/-- What the body is called with at point `t`: the invariant, the core's debts, and every window's current staging
    buffer at what it then holds, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d)))

/-- and what it returns: the same, every buffer at what the body leaves in it. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t))

/-- The body at any point: the inputs' memrefs hold their blocks, so the body's triple applies at the blocks; the
    invariant and the core's debts pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9, before_10, before_11, before_12]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_7.stage (cfg1.slots t 7)) (hstage1_7 ((cfg1.slots t 7).cast nbuf1_7))
    (win1_8.stage (cfg1.slots t 8)) (hstage1_8 ((cfg1.slots t 8).cast nbuf1_8))
    (win1_9.stage (cfg1.slots t 9)) (hstage1_9 ((cfg1.slots t 9).cast nbuf1_9))
    (win1_10.stage (cfg1.slots t 10)) (hstage1_10 ((cfg1.slots t 10).cast nbuf1_10))
    (win1_11.stage (cfg1.slots t 11)) (hstage1_11 ((cfg1.slots t 11).cast nbuf1_11))
    (win1_12.stage (cfg1.slots t 12)) (hstage1_12 ((cfg1.slots t 12).cast nbuf1_12))
    (win1_13.stage (cfg1.slots t 13)) (hstage1_13 ((cfg1.slots t 13).cast nbuf1_13))
    (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point: the windows conjoined one by one. -/
theorem body_obligation (c : Dev nD) : BodyObligation (dat (F := F) V c) (defs₀ (F := F)) Variants.none () Set.univ := fun t => by
  rw [bigSep_W1, bigSep_W1]
  exact sound_body V c t

end Cert.Kernel.R1

end
-- ==== Proof.KRunCond.lean ====
/-
  The whole program: the host stretches and the two regions in order. Between two items every unscoped buffer of a
  core is held at a named contents: the launch memory, then each host stretch applied, then — after a region — the
  region's result array at what its write-backs leave and every other buffer unchanged. The run ends with the result
  `main_v9` at what region 1 leaves and every argument as launched. Stated at any float instance.
-/
import proofs.«425794_j25228637897251_3_alg».proof.Proof.KRegion0
import proofs.«425794_j25228637897251_3_alg».proof.Proof.KRegion1
import proofs.«425794_j25228637897251_3_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- What region 0 is entered from, at the TensorCore's references. -/
abbrev E0 : (c : Dev nD) → (b : Ref sig .tc) → Buf (Elt F) ((c : Thread nD τ).loc b) := fun c b => V3 m c b

/-- After region 0: its arrays at what the pipeline leaves (the inputs as entered, the result's write-backs folded),
    every other buffer as entered. -/
def W4 (c : Dev nD) : Valuation τ sig (Elt F) :=
  Pipeline.withArrays spec0 c (V3 m c) fun w => (R0.dat (E0 m) c).arrAt w cfg0.N
theorem W4_arr (c : Dev nD) (w : Fin cfg0.W) :
    W4 m c (Proc.devRef .tc (Pipeline.arrRef spec0 w)) = (R0.dat (E0 m) c).arrAt w cfg0.N := by
  unfold W4; exact Pipeline.withArrays_arr spec0 launch0.win.arr_inj c _ _ w

/-- The unknown contents of the generated boundary valuations, with region 0's result filled in. -/
abbrev outs4 : Outs (F := F) := fun _ r c => W4 m c r

/-- What region 1 is entered from, at the TensorCore's references. -/
abbrev E1 : (c : Dev nD) → (b : Ref sig .tc) → Buf (Elt F) ((c : Thread nD τ).loc b) := fun c b => V5 m (outs4 m) c b

/-- After region 1, likewise. -/
def W6 (c : Dev nD) : Valuation τ sig (Elt F) :=
  Pipeline.withArrays spec1 c (V5 m (outs4 m) c) fun w => (R1.dat (E1 m) c).arrAt w cfg1.N
theorem W6_arr (c : Dev nD) (w : Fin cfg1.W) :
    W6 m c (Proc.devRef .tc (Pipeline.arrRef spec1 w)) = (R1.dat (E1 m) c).arrAt w cfg1.N := by
  unfold W6; exact Pipeline.withArrays_arr spec1 launch1.win.arr_inj c _ _ w

/-- Both regions' results filled in. -/
def outs : Outs (F := F) := fun J r c => match J with
  | 4 => W4 m c r
  | _ => W6 m c r

theorem V4_outs (c : Dev nD) : V4 m (outs m) c = V4 m (outs4 m) c := rfl
theorem V5_outs (c : Dev nD) : V5 m (outs m) c = V5 m (outs4 m) c := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat (E0 m) c
  | ⟨1, _⟩ => fun c => R1.dat (E1 m) c

abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev Rr (c : Dev nD) : sProp 𝕄 := iprop((∃ r, prngReg c r) ∗ ∃ W, owes (c : Thread nD τ) (0 : CellTallies nD τ sig Unit) W)
abbrev Er : Fin 3 → Dev nD → sProp 𝕄 := fun _ c => Rr c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Each region's arrays at its exit -/

theorem hF0 (c : Dev nD) (w : Fin cfg0.W) : (pdats m 0 c).arrAt w cfg0.N = V4 m (outs m) c (Pipeline.arrRef spec0 w) := by
  match w with
  | ⟨0, _⟩ => exact ((R0.dat (E0 m) c).arrAt_in 0 rfl _).trans ((R0.A_eq (E0 m) c 0).trans (V4_of m (outs m) c _ (by decide)).symm)
  | ⟨1, _⟩ => exact ((R0.dat (E0 m) c).arrAt_in 1 rfl _).trans ((R0.A_eq (E0 m) c 1).trans (V4_of m (outs m) c _ (by decide)).symm)
  | ⟨2, _⟩ =>
    have h := W4_arr m c 2
    show _ = V4 m (outs m) c main_v3
    unfold V4
    rw [Function.update_self]
    exact h.symm
theorem hrest0 (c : Dev nD) : ∀ b : Ref sig .tc, b ∉ Finset.univ.image (Pipeline.arrRef spec0) → V4 m (outs m) c b = E0 m c b :=
  fun b hb => V4_of m (outs m) c b fun h =>
    hb (Finset.mem_image.mpr ⟨2, Finset.mem_univ _, show Pipeline.arrRef spec0 2 = b from (List.mem_singleton.mp h).symm⟩)
set_option maxHeartbeats 4000000 in
theorem hF1 (c : Dev nD) (w : Fin cfg1.W) : (pdats m 1 c).arrAt w cfg1.N = V6 m (outs m) c (Pipeline.arrRef spec1 w) := by
  match w with
  | ⟨0, _⟩ => exact ((R1.dat (E1 m) c).arrAt_in 0 rfl _).trans ((R1.A_eq (E1 m) c 0).trans (V6_of m (outs m) c _ (by decide)).symm)
  | ⟨1, _⟩ => exact ((R1.dat (E1 m) c).arrAt_in 1 rfl _).trans ((R1.A_eq (E1 m) c 1).trans (V6_of m (outs m) c _ (by decide)).symm)
  | ⟨2, _⟩ => exact ((R1.dat (E1 m) c).arrAt_in 2 rfl _).trans ((R1.A_eq (E1 m) c 2).trans (V6_of m (outs m) c _ (by decide)).symm)
  | ⟨3, _⟩ => exact ((R1.dat (E1 m) c).arrAt_in 3 rfl _).trans ((R1.A_eq (E1 m) c 3).trans (V6_of m (outs m) c _ (by decide)).symm)
  | ⟨4, _⟩ => exact ((R1.dat (E1 m) c).arrAt_in 4 rfl _).trans ((R1.A_eq (E1 m) c 4).trans (V6_of m (outs m) c _ (by decide)).symm)
  | ⟨5, _⟩ => exact ((R1.dat (E1 m) c).arrAt_in 5 rfl _).trans ((R1.A_eq (E1 m) c 5).trans (V6_of m (outs m) c _ (by decide)).symm)
  | ⟨6, _⟩ => exact ((R1.dat (E1 m) c).arrAt_in 6 rfl _).trans ((R1.A_eq (E1 m) c 6).trans (V6_of m (outs m) c _ (by decide)).symm)
  | ⟨7, _⟩ => exact ((R1.dat (E1 m) c).arrAt_in 7 rfl _).trans ((R1.A_eq (E1 m) c 7).trans (V6_of m (outs m) c _ (by decide)).symm)
  | ⟨8, _⟩ => exact ((R1.dat (E1 m) c).arrAt_in 8 rfl _).trans ((R1.A_eq (E1 m) c 8).trans (V6_of m (outs m) c _ (by decide)).symm)
  | ⟨9, _⟩ => exact ((R1.dat (E1 m) c).arrAt_in 9 rfl _).trans ((R1.A_eq (E1 m) c 9).trans (V6_of m (outs m) c _ (by decide)).symm)
  | ⟨10, _⟩ => exact ((R1.dat (E1 m) c).arrAt_in 10 rfl _).trans ((R1.A_eq (E1 m) c 10).trans (V6_of m (outs m) c _ (by decide)).symm)
  | ⟨11, _⟩ => exact ((R1.dat (E1 m) c).arrAt_in 11 rfl _).trans ((R1.A_eq (E1 m) c 11).trans (V6_of m (outs m) c _ (by decide)).symm)
  | ⟨12, _⟩ => exact ((R1.dat (E1 m) c).arrAt_in 12 rfl _).trans ((R1.A_eq (E1 m) c 12).trans (V6_of m (outs m) c _ (by decide)).symm)
  | ⟨13, _⟩ =>
    have h := W6_arr m c 13
    show _ = V6 m (outs m) c main_v9
    unfold V6
    rw [Function.update_self]
    exact h.symm
theorem hrest1 (c : Dev nD) : ∀ b : Ref sig .tc, b ∉ Finset.univ.image (Pipeline.arrRef spec1) → V6 m (outs m) c b = E1 m c b :=
  fun b hb => V6_of m (outs m) c b fun h =>
    hb (Finset.mem_image.mpr ⟨13, Finset.mem_univ _, show Pipeline.arrRef spec1 13 = b from (List.mem_singleton.mp h).symm⟩)

theorem hin0 (c : Dev nD) : Pipeline.ΦA spec0 c ⊢ ((pdats m 0 c).Φ 0 : sProp 𝕄) := R0.hin (E0 m) c
theorem hout0 (c : Dev nD) : (pdats m 0 c).Φ (Fin.last cfg0.N) ⊢ (Pipeline.ΦA spec0 c : sProp 𝕄) := R0.hout (E0 m) c
theorem hin1 (c : Dev nD) : Pipeline.ΦA spec1 c ⊢ ((pdats m 1 c).Φ 0 : sProp 𝕄) := .rfl
theorem hout1 (c : Dev nD) : (pdats m 1 c).Φ (Fin.last cfg1.N) ⊢ (Pipeline.ΦA spec1 c : sProp 𝕄) := .rfl

/-- The last thread state without the `owes`. -/
abbrev Tn (c : Dev nD) : sProp 𝕄 := iprop(StableHlo.held (c : Thread nD τ) (Pipeline.ucRefs τ sig) (V6 m (outs m) c) ∗ ∃ r, prngReg c r)

/-! ## The regions as segments -/

set_option backward.isDefEq.respectTransparency.types false in
/-- Region 0 as a segment: entered with every unscoped buffer at the contents before it, left with them at the
    contents after it; its arrays are split out of the unscoped buffers at entry and put back at exit, the generator
    register goes into the region's invariant and comes back, nothing is owed, and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E0 m) c).loose
  hwaits := Pipeline.hwaits_of_owed_zero _ _ _ _ L lv 0 fun _ _ => rfl
  pre c := iprop(StableHlo.held (c : Thread nD τ) (Pipeline.ucRefs τ sig) (V3 m c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 m c)
    unfold Pipeline.ΦA
    iintro ⟨Hp, -, Hr⟩
    isplitl [Hr]; · iexact Hr
    iexact Hp
  hout c := by
    rw [Pipeline.ownSems0_none]
    refine (hout0 m c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the
    contents after it; its arrays are split out of the unscoped buffers at entry and put back at exit, the generator
    register goes into the region's invariant and comes back, nothing is owed, and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (E1 m) c).loose
  hwaits := Pipeline.hwaits_of_owed_zero _ _ _ _ L lv 1 fun _ _ => rfl
  pre c := iprop(StableHlo.held (c : Thread nD τ) (Pipeline.ucRefs τ sig) (V5 m (outs4 m) c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 m c)
    unfold Pipeline.ΦA
    iintro ⟨Hp, -, Hr⟩
    isplitl [Hr]; · iexact Hr
    iexact Hp
  hout c := by
    rw [Pipeline.ownSems0_none]
    refine (hout1 m c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

set_option backward.isDefEq.respectTransparency.types false in
/-- From any memory with zero counters every weakly fair execution of the program terminates, nothing faulting, and
    every final state has the result `main_v9` at what region 1's write-backs leave and each argument as launched. -/
theorem run_val (ρ : Dev nD → PrngReg) : θ_run defs (onTc (τ := τ) (main (F := F))) ⟨m, fun _ => 0, ρ⟩ (fun r => ∀ c : Dev nD,
      r.2.mem ((c.tc : Thread nD τ).loc main_v9) = (R1.dat (E1 m) c).arrAt 13 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm (pdats m) () cellOf_inj emb₁ defs₀ 𝒱₀ L lv m ρ main
    (segs m (outs m) 𝒱₀ L lv Er () (pdats m) (reg0 m) (reg1 m))
    (fun c Q => by
      rewrite [main_chain c, Pipeline.Seg.run_eq_chain,
        show (segs m (outs m) 𝒱₀ L lv Er () (pdats m) (reg0 m) (reg1 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c)) (Tₙ := Tn m)
    (hch := fun c => ⟨.rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V6 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V6 m (outs m) c) s')
      isplitl [Hh] <;> iassumption)
    (hQ := fun s h c =>
      ⟨(h c _ (mem_uc main_v9 (by decide))).trans ((hF1 m c 13).symm),
        (h c _ (mem_uc main_arg0 (by decide))).trans (V6_main_arg0 m (outs m) c),
        (h c _ (mem_uc main_arg1 (by decide))).trans (V6_main_arg1 m (outs m) c),
        (h c _ (mem_uc main_arg2 (by decide))).trans (V6_main_arg2 m (outs m) c),
        (h c _ (mem_uc main_arg3 (by decide))).trans (V6_main_arg3 m (outs m) c),
        (h c _ (mem_uc main_arg4 (by decide))).trans (V6_main_arg4 m (outs m) c),
        (h c _ (mem_uc main_arg5 (by decide))).trans (V6_main_arg5 m (outs m) c),
        (h c _ (mem_uc main_arg6 (by decide))).trans (V6_main_arg6 m (outs m) c),
        (h c _ (mem_uc main_arg7 (by decide))).trans (V6_main_arg7 m (outs m) c),
        (h c _ (mem_uc main_arg8 (by decide))).trans (V6_main_arg8 m (outs m) c),
        (h c _ (mem_uc main_arg9 (by decide))).trans (V6_main_arg9 m (outs m) c),
        (h c _ (mem_uc main_arg10 (by decide))).trans (V6_main_arg10 m (outs m) c),
        (h c _ (mem_uc main_arg11 (by decide))).trans (V6_main_arg11 m (outs m) c),
        (h c _ (mem_uc main_arg12 (by decide))).trans (V6_main_arg12 m (outs m) c)⟩)

/-- The frame: the same run with the result forgotten. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run_val m ρ)

end Cert.Kernel.Run

end
-- ==== Proof.Spec.lean ====
/-
  The network both programs compute, one token at a time, over the extended reals: the token's sample row of the
  flattened vision table and its language row meet the first weight matrix (the vision rows first, the language rows
  after them), then bias and clamp at zero, three more such layers, and a last layer without the clamp.
-/
import Idealize.ShloMosaic.PureOps.Ideal
import Idealize.ShloMosaic.Lib.ValueIdx

noncomputable section

namespace Cert.Spec

open Idealize.ShloMosaic Idealize.ShloMosaic.ValueIdx

/-- One dense layer on one row: the row times each column of the weights, summed, plus the bias. -/
def dense {K N : ℕ} (W : Fin K → Fin N → EReal) (b : Fin N → EReal) (h : Fin K → EReal) : Fin N → EReal :=
  fun n => (∑ k : Fin K, h k * W k n) + b n

/-- The clamp at zero, entry by entry. -/
def relu {N : ℕ} (v : Fin N → EReal) : Fin N → EReal := fun n => max (v n) 0

/-- The sample a token's index word names, read signed and clamped into the sixteen samples. -/
def sel (w : BitVec 32) : Fin 16 := ⟨min w.toInt.toNat 15, by omega⟩

/-- The first layer's product on one token: its sample's 32768 vision entries against the first 32768 rows of the
    weights, plus its 4096 language entries against the last 4096 rows. -/
def first (vis : Fin 32768 → EReal) (grd : Fin 4096 → EReal) (W1 : Fin 36864 → Fin 1024 → EReal) : Fin 1024 → EReal :=
  fun f => (∑ j : Fin 32768, vis j * W1 ⟨j.val, by omega⟩ f) + ∑ j : Fin 4096, grd j * W1 ⟨32768 + j.val, by omega⟩ f

/-- The five layers on one token. -/
def net (vis : Fin 32768 → EReal) (grd : Fin 4096 → EReal) (W1 : Fin 36864 → Fin 1024 → EReal) (b1 : Fin 1024 → EReal)
    (W2 : Fin 1024 → Fin 1024 → EReal) (b2 : Fin 1024 → EReal) (W3 : Fin 1024 → Fin 1024 → EReal) (b3 : Fin 1024 → EReal)
    (W4 : Fin 1024 → Fin 1024 → EReal) (b4 : Fin 1024 → EReal) (W5 : Fin 1024 → Fin 6 → EReal) (b5 : Fin 6 → EReal) : Fin 6 → EReal :=
  dense W5 b5 (relu (dense W4 b4 (relu (dense W3 b3 (relu (dense W2 b2 (relu (fun f => first vis grd W1 f + b1 f))))))))

/-- Entry `j` of sample `b`'s flattened vision row. -/
def visAt (b : Fin 16) (j : Fin 32768) : (⟨3, ![16, 32, 1024]⟩ : Shape).Idx :=
  ix3 b (⟨j.val / 1024, by omega⟩ : Fin 32) (⟨j.val % 1024, by omega⟩ : Fin 1024)

/-- The result at token `t`, output `o`, from the thirteen argument arrays. -/
def Gat (x0 : (⟨2, ![2048, 4096]⟩ : Shape).Idx → EReal) (x1 : (⟨3, ![16, 32, 1024]⟩ : Shape).Idx → EReal) (x2 : (⟨1, ![2048]⟩ : Shape).Idx → BitVec 32)
    (x3 : (⟨2, ![36864, 1024]⟩ : Shape).Idx → EReal) (x4 : (⟨1, ![1024]⟩ : Shape).Idx → EReal) (x5 : (⟨2, ![1024, 1024]⟩ : Shape).Idx → EReal) (x6 : (⟨1, ![1024]⟩ : Shape).Idx → EReal)
    (x7 : (⟨2, ![1024, 1024]⟩ : Shape).Idx → EReal) (x8 : (⟨1, ![1024]⟩ : Shape).Idx → EReal) (x9 : (⟨2, ![1024, 1024]⟩ : Shape).Idx → EReal) (x10 : (⟨1, ![1024]⟩ : Shape).Idx → EReal)
    (x11 : (⟨2, ![1024, 6]⟩ : Shape).Idx → EReal) (x12 : (⟨1, ![6]⟩ : Shape).Idx → EReal)
    (t : Fin 2048) (o : Fin 6) : EReal :=
  net (fun j => x1 (visAt (sel (x2 (ix1 t))) j)) (fun j => x0 (ix2 t j)) (fun j f => x3 (ix2 j f)) (fun f => x4 (ix1 f))
    (fun k f => x5 (ix2 k f)) (fun f => x6 (ix1 f)) (fun k f => x7 (ix2 k f)) (fun f => x8 (ix1 f))
    (fun k f => x9 (ix2 k f)) (fun f => x10 (ix1 f)) (fun k f => x11 (ix2 k f)) (fun f => x12 (ix1 f)) o

/-- The whole result array. -/
def G (x0 : (⟨2, ![2048, 4096]⟩ : Shape).Idx → EReal) (x1 : (⟨3, ![16, 32, 1024]⟩ : Shape).Idx → EReal) (x2 : (⟨1, ![2048]⟩ : Shape).Idx → BitVec 32)
    (x3 : (⟨2, ![36864, 1024]⟩ : Shape).Idx → EReal) (x4 : (⟨1, ![1024]⟩ : Shape).Idx → EReal) (x5 : (⟨2, ![1024, 1024]⟩ : Shape).Idx → EReal) (x6 : (⟨1, ![1024]⟩ : Shape).Idx → EReal)
    (x7 : (⟨2, ![1024, 1024]⟩ : Shape).Idx → EReal) (x8 : (⟨1, ![1024]⟩ : Shape).Idx → EReal) (x9 : (⟨2, ![1024, 1024]⟩ : Shape).Idx → EReal) (x10 : (⟨1, ![1024]⟩ : Shape).Idx → EReal)
    (x11 : (⟨2, ![1024, 6]⟩ : Shape).Idx → EReal) (x12 : (⟨1, ![6]⟩ : Shape).Idx → EReal) :
    (⟨2, ![2048, 6]⟩ : Shape).Idx → EReal :=
  fun i => Gat x0 x1 x2 x3 x4 x5 x6 x7 x8 x9 x10 x11 x12 (i 0) (i 1)

theorem G_apply (x0 : (⟨2, ![2048, 4096]⟩ : Shape).Idx → EReal) (x1 : (⟨3, ![16, 32, 1024]⟩ : Shape).Idx → EReal) (x2 : (⟨1, ![2048]⟩ : Shape).Idx → BitVec 32)
    (x3 : (⟨2, ![36864, 1024]⟩ : Shape).Idx → EReal) (x4 : (⟨1, ![1024]⟩ : Shape).Idx → EReal) (x5 : (⟨2, ![1024, 1024]⟩ : Shape).Idx → EReal) (x6 : (⟨1, ![1024]⟩ : Shape).Idx → EReal)
    (x7 : (⟨2, ![1024, 1024]⟩ : Shape).Idx → EReal) (x8 : (⟨1, ![1024]⟩ : Shape).Idx → EReal) (x9 : (⟨2, ![1024, 1024]⟩ : Shape).Idx → EReal) (x10 : (⟨1, ![1024]⟩ : Shape).Idx → EReal)
    (x11 : (⟨2, ![1024, 6]⟩ : Shape).Idx → EReal) (x12 : (⟨1, ![6]⟩ : Shape).Idx → EReal)
    (t : Fin 2048) (o : Fin 6) : G x0 x1 x2 x3 x4 x5 x6 x7 x8 x9 x10 x11 x12 (ix2 t o) = Gat x0 x1 x2 x3 x4 x5 x6 x7 x8 x9 x10 x11 x12 t o := rfl

/-- Every token's index word names one of the sixteen samples. -/
def InRange (x2 : (⟨1, ![2048]⟩ : Shape).Idx → BitVec 32) : Prop := ∀ t : Fin 2048, 0 ≤ (x2 (ix1 t)).toInt ∧ (x2 (ix1 t)).toInt < 16

end Cert.Spec

end
-- ==== Proof.KSpec.lean ====
/-
  What the kernel's two regions compute, in closed form over the extended reals. Region 0 leaves, in plane `p` of its
  result, the sum over the half's four column blocks (taken in order, starting from zero) of a sample's vision entries
  against a column of the first weight matrix. Region 1 picks each token's row of the two planes' sum by a product with
  the token's indicator row, adds the language part and runs the layers.
-/
import proofs.«425794_j25228637897251_3_alg».proof.Proof.Spec

noncomputable section

namespace Cert.KSpec

open Idealize.ShloMosaic Idealize.ShloMosaic.ValueIdx Cert.Spec

/-- Column block `q` (of eight, 4096 wide) of a vision row against the same block of rows of a weight column. -/
def blockDot (vis : Fin 32768 → EReal) (Wc : Fin 36864 → EReal) (q : Fin 8) : EReal :=
  ∑ j : Fin 4096, vis ⟨q.val * 4096 + j.val, by omega⟩ * Wc ⟨q.val * 4096 + j.val, by omega⟩

/-- Half `p`'s four blocks accumulated in order from zero. -/
def plane (vis : Fin 32768 → EReal) (Wc : Fin 36864 → EReal) (p : Fin 2) : EReal :=
  (((0 + blockDot vis Wc ⟨4 * p.val, by omega⟩) + blockDot vis Wc ⟨4 * p.val + 1, by omega⟩)
    + blockDot vis Wc ⟨4 * p.val + 2, by omega⟩) + blockDot vis Wc ⟨4 * p.val + 3, by omega⟩

/-- The indicator of "the index word is sample `b`". -/
def hot (w : BitVec 32) (b : Fin 16) : EReal := if w = BitVec.ofNat 32 b.val then 1 else 0

/-- The first layer's product as region 1 forms it: the indicator row against the two planes' sum, plus the language part. -/
def kfirst (w : BitVec 32) (P : (⟨3, ![2, 16, 1024]⟩ : Shape).Idx → EReal) (grd : Fin 4096 → EReal)
    (W1 : Fin 36864 → Fin 1024 → EReal) : Fin 1024 → EReal :=
  fun f => (∑ b : Fin 16, hot w b * (P (ix3 (0 : Fin 2) b f) + P (ix3 (1 : Fin 2) b f)))
    + ∑ j : Fin 4096, grd j * W1 ⟨32768 + j.val, by omega⟩ f

/-- The five layers as region 1 forms them. -/
def knet (w : BitVec 32) (P : (⟨3, ![2, 16, 1024]⟩ : Shape).Idx → EReal) (grd : Fin 4096 → EReal)
    (W1 : Fin 36864 → Fin 1024 → EReal) (b1 : Fin 1024 → EReal)
    (W2 : Fin 1024 → Fin 1024 → EReal) (b2 : Fin 1024 → EReal) (W3 : Fin 1024 → Fin 1024 → EReal) (b3 : Fin 1024 → EReal)
    (W4 : Fin 1024 → Fin 1024 → EReal) (b4 : Fin 1024 → EReal) (W5 : Fin 1024 → Fin 6 → EReal) (b5 : Fin 6 → EReal) : Fin 6 → EReal :=
  dense W5 b5 (relu (dense W4 b4 (relu (dense W3 b3 (relu (dense W2 b2 (relu (fun f => kfirst w P grd W1 f + b1 f))))))))

end Cert.KSpec

end
-- ==== Proof.R0Value.lean ====
/-
  What region 0 leaves in its result, entry by entry: plane `p`, sample `b`, feature `f` holds the half's four
  block products of the sample's vision row with the feature's weight column, accumulated in order from zero.
-/
import proofs.«425794_j25228637897251_3_alg».proof.Proof.Region0
import proofs.«425794_j25228637897251_3_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0V

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec Cert.KSpec

variable (V : (c : Dev nD) → (b : Ref sig .tc) → Buf (Elt Ideal) ((c : Thread nD τ).loc b))

/-- The reset block is zero everywhere. -/
theorem zero_apply (b : Fin 16) (f : Fin 1024) : (k0_pay1 (F := Ideal) : S16x1024.Idx → EReal) (ix2 b f) = 0 := by
  unfold k0_pay1
  rw [shapeCast_self]
  exact Ideal.ofBits_zero_f32

/-- The product's operand entries at an output entry and a contraction coordinate: the left operand is read at
    (row, coordinate), the right at (coordinate, column) — the four lemmas below, one per operand axis. -/
theorem lhs_0 (i : S16x1024.Idx) (q : dot_S16x4096_S4096x1024_S16x1024_1_0_0_1_n_n.contr.Idx) :
    (dot_S16x4096_S4096x1024_S16x1024_1_0_0_1_n_n.lhsIdx i q 0).val = (i 0).val := by
  unfold DotDims.lhsIdx
  rw [dif_neg (show ¬(0 : Fin S16x4096.rank) ∈ dot_S16x4096_S4096x1024_S16x1024_1_0_0_1_n_n.lhsBatch by decide), dif_pos (show (0 : Fin S16x4096.rank) ∈ dot_S16x4096_S4096x1024_S16x1024_1_0_0_1_n_n.lhsNonContracting by decide)]
  rfl
theorem lhs_1 (i : S16x1024.Idx) (q : dot_S16x4096_S4096x1024_S16x1024_1_0_0_1_n_n.contr.Idx) :
    (dot_S16x4096_S4096x1024_S16x1024_1_0_0_1_n_n.lhsIdx i q 1).val = (q ⟨0, by decide⟩).val :=
  dot_S16x4096_S4096x1024_S16x1024_1_0_0_1_n_n.lhsIdx_val_of_single rfl i q
theorem rhs_0 (i : S16x1024.Idx) (q : dot_S16x4096_S4096x1024_S16x1024_1_0_0_1_n_n.contr.Idx) :
    (dot_S16x4096_S4096x1024_S16x1024_1_0_0_1_n_n.rhsIdx i q 0).val = (q ⟨0, by decide⟩).val :=
  dot_S16x4096_S4096x1024_S16x1024_1_0_0_1_n_n.rhsIdx_val_of_single rfl i q
theorem rhs_1 (i : S16x1024.Idx) (q : dot_S16x4096_S4096x1024_S16x1024_1_0_0_1_n_n.contr.Idx) :
    (dot_S16x4096_S4096x1024_S16x1024_1_0_0_1_n_n.rhsIdx i q 1).val = (i 1).val := by
  unfold DotDims.rhsIdx
  rw [dif_neg (show ¬(1 : Fin S4096x1024.rank) ∈ dot_S16x4096_S4096x1024_S16x1024_1_0_0_1_n_n.rhsBatch by decide), dif_pos (show (1 : Fin S4096x1024.rank) ∈ dot_S16x4096_S4096x1024_S16x1024_1_0_0_1_n_n.rhsNonContracting by decide)]
  rfl

/-- One step of the accumulation at an entry: the carried value plus the block's row-by-column product. -/
theorem step_apply (x : Vec Ideal S16x4096 .f32) (w : Vec Ideal S4096x1024 .f32) (a : Vec Ideal S16x1024 .f32)
    (b : Fin 16) (f : Fin 1024) :
    (k0_pay2 (F := Ideal) x w a : S16x1024.Idx → EReal) (ix2 b f)
      = (a (ix2 b f) : EReal) + ∑ j : Fin 4096, (x (ix2 b j) : EReal) * (w (ix2 j f) : EReal) := by
  unfold k0_pay2
  rw [shapeCast_self, shapeCast_self]
  refine (addf_apply _ _ _).trans ?_
  refine congrArg (a (ix2 b f) + ·) ?_
  simp only [matmul]
  refine (Ideal.matmul_constant_zero_apply _ _ _ _ _).trans ?_
  rw [← Equiv.sum_comp (contrEquiv1 dot_S16x4096_S4096x1024_S16x1024_1_0_0_1_n_n 4096 rfl rfl).symm]
  refine Finset.sum_congr rfl fun k _ => ?_
  have hk := contrEquiv1_symm_val dot_S16x4096_S4096x1024_S16x1024_1_0_0_1_n_n 4096 rfl rfl k
  have el : dot_S16x4096_S4096x1024_S16x1024_1_0_0_1_n_n.lhsIdx (ix2 b f) ((contrEquiv1 dot_S16x4096_S4096x1024_S16x1024_1_0_0_1_n_n 4096 rfl rfl).symm k) = ix2 b k := funext fun a => Fin.ext (by
    match a with
    | ⟨0, _⟩ => exact lhs_0 _ _
    | ⟨1, _⟩ => exact (lhs_1 _ _).trans hk)
  have er : dot_S16x4096_S4096x1024_S16x1024_1_0_0_1_n_n.rhsIdx (ix2 b f) ((contrEquiv1 dot_S16x4096_S4096x1024_S16x1024_1_0_0_1_n_n 4096 rfl rfl).symm k) = ix2 k f := funext fun a => Fin.ext (by
    match a with
    | ⟨0, _⟩ => exact (rhs_0 _ _).trans hk
    | ⟨1, _⟩ => exact rhs_1 _ _)
  rw [el, er]

/-- The written-back block is the scratch block under a leading unit axis. -/
theorem out_apply (a : Vec Ideal S16x1024 .f32) (u : Fin 1) (b : Fin 16) (f : Fin 1024) :
    (k0_pay3 (F := Ideal) a : S1x16x1024.Idx → EReal) (ix3 u b f) = a (ix2 b f) := by
  unfold k0_pay3
  exact shapeCast_ab_1ab_apply a _ u b f

/-- The windows' block indices over the grid: point t reads column block t of the vision table and row block t of
    the weights, and belongs to plane t / 4. -/
theorem idx_facts : ∀ t : Fin cfg0.N,
    win0_0.index t (0 : Fin 2) = 0 ∧ win0_0.index t (1 : Fin 2) = t.val
    ∧ win0_1.index t (0 : Fin 2) = t.val ∧ win0_1.index t (1 : Fin 2) = 0
    ∧ win0_2.index t (0 : Fin 3) = t.val / 4 ∧ win0_2.index t (1 : Fin 3) = 0 ∧ win0_2.index t (2 : Fin 3) = 0 :=
  (by decide +kernel : ∀ t : Fin grid0.N,
    win0_0.index t (0 : Fin 2) = 0 ∧ win0_0.index t (1 : Fin 2) = t.val
    ∧ win0_1.index t (0 : Fin 2) = t.val ∧ win0_1.index t (1 : Fin 2) = 0
    ∧ win0_2.index t (0 : Fin 3) = t.val / 4 ∧ win0_2.index t (1 : Fin 3) = 0 ∧ win0_2.index t (2 : Fin 3) = 0)

/-- The grid has eight points. -/
theorem lt8 (t : Fin cfg0.N) : t.val < 8 :=
  lt_of_lt_of_eq t.isLt N_0

/-- The vision window's block at point t, read at an entry: column 4096 t + j of the sample's row. -/
theorem vis_blk (c : Dev nD) (t : Fin cfg0.N) (b : Fin 16) (j : Fin 4096) :
    (R0.iblk (F := Ideal) V c 0 t : S16x4096.Idx → EReal) (ix2 b j)
      = (V c main_v2 : S16x32768.Idx → EReal) (ix2 b ⟨t.val * 4096 + j.val, by have := lt8 t; omega⟩) := by
  obtain ⟨e0, e1, -⟩ := idx_facts t
  unfold R0.iblk
  rw [View.read_apply]
  show V c main_v2 _ = V c main_v2 _
  congr 1
  funext a
  apply Fin.ext
  match a with
  | ⟨0, _⟩ => show win0_0.index t 0 * 16 + 1 * b.val = b.val; rw [e0]; omega
  | ⟨1, _⟩ => show win0_0.index t 1 * 4096 + 1 * j.val = t.val * 4096 + j.val; rw [e1]; omega

/-- The weight window's block at point t, read at an entry: row 4096 t + j of the feature's column. -/
theorem wgt_blk (c : Dev nD) (t : Fin cfg0.N) (j : Fin 4096) (f : Fin 1024) :
    (R0.iblk (F := Ideal) V c 1 t : S4096x1024.Idx → EReal) (ix2 j f)
      = (V c main_arg3 : S36864x1024.Idx → EReal) (ix2 ⟨t.val * 4096 + j.val, by have := lt8 t; omega⟩ f) := by
  obtain ⟨-, -, e0, e1, -⟩ := idx_facts t
  unfold R0.iblk
  rw [View.read_apply]
  show V c main_arg3 _ = V c main_arg3 _
  congr 1
  funext a
  apply Fin.ext
  match a with
  | ⟨0, _⟩ => show win0_1.index t 0 * 4096 + 1 * j.val = t.val * 4096 + j.val; rw [e0]; omega
  | ⟨1, _⟩ => show win0_1.index t 1 * 1024 + 1 * f.val = f.val; rw [e1]; omega

/-- Column block q of sample b's vision row against the same row block of feature f's weight column. -/
abbrev D (c : Dev nD) (b : Fin 16) (f : Fin 1024) (q : Fin 8) : EReal :=
  blockDot (fun j => (V c main_v2 : S16x32768.Idx → EReal) (ix2 b j)) (fun j => (V c main_arg3 : S36864x1024.Idx → EReal) (ix2 j f)) q

/-- One step at grid point t, at an entry: the carried value plus block t's product. -/
theorem step_at (c : Dev nD) (t : Fin cfg0.N) (a : Vec Ideal S16x1024 .f32) (b : Fin 16) (f : Fin 1024) :
    (k0_pay2 (F := Ideal) (R0.iblk (F := Ideal) V c 0 t) (R0.iblk (F := Ideal) V c 1 t) a : S16x1024.Idx → EReal) (ix2 b f)
      = (a (ix2 b f) : EReal) + D V c b f ⟨t.val, lt8 t⟩ := by
  refine (step_apply (R0.iblk (F := Ideal) V c 0 t) (R0.iblk (F := Ideal) V c 1 t) a b f).trans ?_
  refine congrArg (a (ix2 b f) + ·) ?_
  unfold D blockDot
  refine Finset.sum_congr rfl fun j _ => ?_
  exact congrArg₂ (· * ·) (vis_blk V c t b j) (wgt_blk V c t j f)

/-- The scratch block after a half's first point: zero plus that block's product. -/
theorem acc_first_entry (c : Dev nD) (n : ℕ) (hn : n < cfg0.N) (h : n % 4 = 0) (b : Fin 16) (f : Fin 1024) :
    (R0.acc (F := Ideal) V c n hn : S16x1024.Idx → EReal) (ix2 b f) = 0 + D V c b f ⟨n, lt_of_lt_of_eq hn N_0⟩ := by
  refine (congrFun (R0.acc_first (F := Ideal) V c ⟨n, hn⟩ h) (ix2 b f)).trans ?_
  refine (step_at V c ⟨n, hn⟩ (k0_pay1 (F := Ideal)) b f).trans ?_
  rw [zero_apply]

/-- The scratch block after a later point of a half: what the point before left plus this block's product. -/
theorem acc_next_entry (c : Dev nD) (n n' : ℕ) (hn : n < cfg0.N) (hn' : n' < cfg0.N) (e : n = n' + 1) (h : n % 4 ≠ 0)
    (b : Fin 16) (f : Fin 1024) :
    (R0.acc (F := Ideal) V c n hn : S16x1024.Idx → EReal) (ix2 b f)
      = (R0.acc (F := Ideal) V c n' hn' : S16x1024.Idx → EReal) (ix2 b f) + D V c b f ⟨n, lt_of_lt_of_eq hn N_0⟩ := by
  subst e
  refine (congrFun (R0.acc_next (F := Ideal) V c ⟨n' + 1, hn⟩ h) (ix2 b f)).trans ?_
  exact step_at V c ⟨n' + 1, hn⟩ (R0.acc (F := Ideal) V c n' hn') b f

/-- The scratch block after a half's last point is the half's plane value. -/
theorem acc_plane (c : Dev nD) (n : ℕ) (hn : n < cfg0.N) (p : Fin 2) (e : n = 4 * p.val + 3) (b : Fin 16) (f : Fin 1024) :
    (R0.acc (F := Ideal) V c n hn : S16x1024.Idx → EReal) (ix2 b f)
      = plane (fun j => (V c main_v2 : S16x32768.Idx → EReal) (ix2 b j)) (fun j => (V c main_arg3 : S36864x1024.Idx → EReal) (ix2 j f)) p := by
  subst e
  have hp := p.isLt
  have h2 : 4 * p.val + 2 < cfg0.N := lt_of_lt_of_eq (by omega) N_0.symm
  have h1 : 4 * p.val + 1 < cfg0.N := lt_of_lt_of_eq (by omega) N_0.symm
  have h0 : 4 * p.val < cfg0.N := lt_of_lt_of_eq (by omega) N_0.symm
  rw [acc_next_entry V c (4 * p.val + 3) (4 * p.val + 2) hn h2 (by omega) (by omega) b f,
    acc_next_entry V c (4 * p.val + 2) (4 * p.val + 1) h2 h1 (by omega) (by omega) b f,
    acc_next_entry V c (4 * p.val + 1) (4 * p.val) h1 h0 (by omega) (by omega) b f,
    acc_first_entry V c (4 * p.val) h0 (by omega) b f]
  rfl

/-- The whole result array: entry (p, b, f) is half p's plane value for sample b and feature f. -/
def Gp (c : Dev nD) : S2x16x1024.Idx → EReal := fun i =>
  plane (fun j => (V c main_v2 : S16x32768.Idx → EReal) (ix2 (⟨(i 1).val, (i 1).isLt⟩ : Fin 16) j))
    (fun j => (V c main_arg3 : S36864x1024.Idx → EReal) (ix2 j (⟨(i 2).val, (i 2).isLt⟩ : Fin 1024))) (⟨(i 0).val, (i 0).isLt⟩ : Fin 2)

/-- The result array's function at an entry given by its coordinates. -/
theorem Gp_apply (c : Dev nD) (p : Fin 2) (b : Fin 16) (f : Fin 1024) :
    Gp V c (ix3 p b f)
      = plane (fun j => (V c main_v2 : S16x32768.Idx → EReal) (ix2 b j)) (fun j => (V c main_arg3 : S36864x1024.Idx → EReal) (ix2 j f)) p := rfl

/-- What a half's last point writes back is its plane of the result array. -/
theorem flushed_eq (c : Dev nD) (t : Fin cfg0.N) (hf : (cfg0.win 2).flush t = true) :
    (R0.dat (F := Ideal) V c).flushed 2 t = ((cfg0.win 2).blk t).view.read (Elt Ideal) (Gp V c) := by
  have h3 : t.val % 4 = 3 := (flush0_2 t).mp hf
  have h8 := lt8 t
  obtain ⟨-, -, -, -, e0, e1, e2⟩ := idx_facts t
  show (cfg0.win 2).cut (grid0.coords t) ((R0.dat (F := Ideal) V c).after 2 t) = _
  rw [R0.after_2]
  refine funext fun (y : S1x16x1024.Idx) => ?_
  obtain ⟨u, b, f, rfl⟩ : ∃ (u : Fin 1) (b : Fin 16) (f : Fin 1024), y = ix3 u b f := ⟨y 0, y 1, y 2, eq_ix3 y⟩
  rw [View.read_apply]
  have hemb : ((cfg0.win 2).blk t).view.emb (ix3 u b f) = ix3 (⟨t.val / 4, by omega⟩ : Fin 2) b f := by
    funext a
    apply Fin.ext
    match a with
    | ⟨0, _⟩ => show win0_2.index t 0 * 1 + 1 * u.val = t.val / 4; rw [e0]; omega
    | ⟨1, _⟩ => show win0_2.index t 1 * 16 + 1 * b.val = b.val; rw [e1]; omega
    | ⟨2, _⟩ => show win0_2.index t 2 * 1024 + 1 * f.val = f.val; rw [e2]; omega
  show (k0_pay3 (F := Ideal) (R0.acc (F := Ideal) V c t.val t.isLt) : S1x16x1024.Idx → EReal) (ix3 u b f) = Gp V c (((cfg0.win 2).blk t).view.emb (ix3 u b f))
  rw [hemb, Gp_apply]
  refine (out_apply (R0.acc (F := Ideal) V c t.val t.isLt) u b f).trans ?_
  exact acc_plane V c t.val t.isLt ⟨t.val / 4, by omega⟩ (by show t.val = 4 * (t.val / 4) + 3; omega) b f

/-- Every entry of the result array lies in the block its half's last point writes back. -/
theorem cover (i : S2x16x1024.Idx) :
    ∃ t : Fin cfg0.N, (cfg0.win 2).flush t = true ∧ i ∈ ((cfg0.win 2).blk t).view.set := by
  obtain ⟨p, b, f, rfl⟩ : ∃ (p : Fin 2) (b : Fin 16) (f : Fin 1024), i = ix3 p b f := ⟨i 0, i 1, i 2, eq_ix3 i⟩
  have hp := p.isLt
  have hb := b.isLt
  have hf := f.isLt
  have hN : 4 * p.val + 3 < cfg0.N := lt_of_lt_of_eq (by omega) N_0.symm
  obtain ⟨-, -, -, -, e0, e1, e2⟩ := idx_facts ⟨4 * p.val + 3, hN⟩
  have e0' : win0_2.index ⟨4 * p.val + 3, hN⟩ (0 : Fin 3) = p.val := by rw [e0]; show (4 * p.val + 3) / 4 = p.val; omega
  refine ⟨⟨4 * p.val + 3, hN⟩, (flush0_2 _).mpr (by show (4 * p.val + 3) % 4 = 3; omega), ?_⟩
  show ix3 p b f ∈ ((View.whole main_v3).slice (win0_2.rect ⟨4 * p.val + 3, hN⟩)).set
  rw [View.set_slice_whole, Rect.mem_set_unit]
  intro a
  match a with
  | ⟨0, _⟩ => show win0_2.index ⟨4 * p.val + 3, hN⟩ 0 * 1 ≤ p.val ∧ p.val < win0_2.index ⟨4 * p.val + 3, hN⟩ 0 * 1 + 1
              rw [e0']; omega
  | ⟨1, _⟩ => show win0_2.index ⟨4 * p.val + 3, hN⟩ 1 * 16 ≤ b.val ∧ b.val < win0_2.index ⟨4 * p.val + 3, hN⟩ 1 * 16 + 16
              rw [e1]; omega
  | ⟨2, _⟩ => show win0_2.index ⟨4 * p.val + 3, hN⟩ 2 * 1024 ≤ f.val ∧ f.val < win0_2.index ⟨4 * p.val + 3, hN⟩ 2 * 1024 + 1024
              rw [e2]; omega

/-- So the result array ends holding the planes. -/
theorem final (c : Dev nD) : (R0.dat (F := Ideal) V c).arrAt 2 cfg0.N = Gp V c :=
  (R0.dat (F := Ideal) V c).arrAt_eq_of_cover 2 (Gp V c) (fun t hf => flushed_eq V c t hf) cover

theorem plane_apply (c : Dev nD) (p : Fin 2) (b : Fin 16) (f : Fin 1024) :
    ((R0.dat (F := Ideal) V c).arrAt 2 cfg0.N : S2x16x1024.Idx → EReal) (ix3 p b f)
      = plane (fun j => (V c main_v2 : S16x32768.Idx → EReal) (ix2 b j)) (fun j => (V c main_arg3 : S36864x1024.Idx → EReal) (ix2 j f)) p :=
  (congrFun (final V c) (ix3 p b f)).trans (Gp_apply V c p b f)

end Cert.KernelIdeal.R0V

end
-- ==== Proof.R1ValuePay.lean ====
/-
  Region 1's two payloads read at one entry, over the extended reals: each matrix product is the sum over its
  contraction index of the operands' products, each bias row is read at its column, each clamp is the maximum with
  zero, and the row a token's index word selects is the indicator `hot`.
-/
import proofs.«425794_j25228637897251_3_alg».proof.Proof.Region1
import proofs.«425794_j25228637897251_3_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1V

open Idealize.ShloMosaic Idealize.ShloMosaic.TcCoe Idealize.ShloMosaic.ValueIdx
open Idealize.SL.Sem
open Cert.KernelIdeal Cert.KernelIdeal.Gen Cert.Spec Cert.KSpec

/-! ## The product of the indicator rows against the planes' sum, at an entry -/

theorem lhs_hotPlanes_0 (i : S128x1024.Idx) (q : dot_S128x16_S16x1024_S128x1024_1_0_0_1_n_n.contr.Idx) :
    (dot_S128x16_S16x1024_S128x1024_1_0_0_1_n_n.lhsIdx i q 0).val = (i 0).val := by
  unfold DotDims.lhsIdx
  rw [dif_neg (show ¬(0 : Fin S128x16.rank) ∈ dot_S128x16_S16x1024_S128x1024_1_0_0_1_n_n.lhsBatch by decide), dif_pos (show (0 : Fin S128x16.rank) ∈ dot_S128x16_S16x1024_S128x1024_1_0_0_1_n_n.lhsNonContracting by decide)]
  rfl
theorem lhs_hotPlanes_1 (i : S128x1024.Idx) (q : dot_S128x16_S16x1024_S128x1024_1_0_0_1_n_n.contr.Idx) :
    (dot_S128x16_S16x1024_S128x1024_1_0_0_1_n_n.lhsIdx i q 1).val = (q ⟨0, by decide⟩).val :=
  dot_S128x16_S16x1024_S128x1024_1_0_0_1_n_n.lhsIdx_val_of_single rfl i q
theorem rhs_hotPlanes_0 (i : S128x1024.Idx) (q : dot_S128x16_S16x1024_S128x1024_1_0_0_1_n_n.contr.Idx) :
    (dot_S128x16_S16x1024_S128x1024_1_0_0_1_n_n.rhsIdx i q 0).val = (q ⟨0, by decide⟩).val :=
  dot_S128x16_S16x1024_S128x1024_1_0_0_1_n_n.rhsIdx_val_of_single rfl i q
theorem rhs_hotPlanes_1 (i : S128x1024.Idx) (q : dot_S128x16_S16x1024_S128x1024_1_0_0_1_n_n.contr.Idx) :
    (dot_S128x16_S16x1024_S128x1024_1_0_0_1_n_n.rhsIdx i q 1).val = (i 1).val := by
  unfold DotDims.rhsIdx
  rw [dif_neg (show ¬(1 : Fin S16x1024.rank) ∈ dot_S128x16_S16x1024_S128x1024_1_0_0_1_n_n.rhsBatch by decide), dif_pos (show (1 : Fin S16x1024.rank) ∈ dot_S128x16_S16x1024_S128x1024_1_0_0_1_n_n.rhsNonContracting by decide)]
  rfl

/-- Into the zero accumulator, entry `(p, f)` of the product is the sum over `k` of row `p` at `k` times column `f` at `k`. -/
theorem mm_hotPlanes_apply (prec : Option ContractPrecision) (l : FVec Ideal S128x16 .f32) (r : FVec Ideal S16x1024 .f32) (p : Fin 128) (f : Fin 1024) :
    matmul dot_S128x16_S16x1024_S128x1024_1_0_0_1_n_n prec l r (constant (F := Ideal) S128x1024 .f32 0x00000000#32) (ix2 p f)
      = ∑ k : Fin 16, l (ix2 p k) * r (ix2 k f) := by
  simp only [matmul]
  rw [Ideal.matmul_constant_zero_apply, ← Equiv.sum_comp (ValueIdx.contrEquiv1 dot_S128x16_S16x1024_S128x1024_1_0_0_1_n_n 16 rfl rfl).symm]
  refine Finset.sum_congr rfl fun k _ => ?_
  have hk := ValueIdx.contrEquiv1_symm_val dot_S128x16_S16x1024_S128x1024_1_0_0_1_n_n 16 rfl rfl k
  have el : dot_S128x16_S16x1024_S128x1024_1_0_0_1_n_n.lhsIdx (ix2 p f) ((ValueIdx.contrEquiv1 dot_S128x16_S16x1024_S128x1024_1_0_0_1_n_n 16 rfl rfl).symm k) = ix2 p k := funext fun a => Fin.ext (by
    match a with
    | ⟨0, _⟩ => exact lhs_hotPlanes_0 _ _
    | ⟨1, _⟩ => exact (lhs_hotPlanes_1 _ _).trans hk)
  have er : dot_S128x16_S16x1024_S128x1024_1_0_0_1_n_n.rhsIdx (ix2 p f) ((ValueIdx.contrEquiv1 dot_S128x16_S16x1024_S128x1024_1_0_0_1_n_n 16 rfl rfl).symm k) = ix2 k f := funext fun a => Fin.ext (by
    match a with
    | ⟨0, _⟩ => exact (rhs_hotPlanes_0 _ _).trans hk
    | ⟨1, _⟩ => exact rhs_hotPlanes_1 _ _)
  rw [el, er]

/-! ## The product of the language rows against their rows of the first weights, at an entry -/

theorem lhs_lang_0 (i : S128x1024.Idx) (q : dot_S128x4096_S4096x1024_S128x1024_1_0_0_1_n_n.contr.Idx) :
    (dot_S128x4096_S4096x1024_S128x1024_1_0_0_1_n_n.lhsIdx i q 0).val = (i 0).val := by
  unfold DotDims.lhsIdx
  rw [dif_neg (show ¬(0 : Fin S128x4096.rank) ∈ dot_S128x4096_S4096x1024_S128x1024_1_0_0_1_n_n.lhsBatch by decide), dif_pos (show (0 : Fin S128x4096.rank) ∈ dot_S128x4096_S4096x1024_S128x1024_1_0_0_1_n_n.lhsNonContracting by decide)]
  rfl
theorem lhs_lang_1 (i : S128x1024.Idx) (q : dot_S128x4096_S4096x1024_S128x1024_1_0_0_1_n_n.contr.Idx) :
    (dot_S128x4096_S4096x1024_S128x1024_1_0_0_1_n_n.lhsIdx i q 1).val = (q ⟨0, by decide⟩).val :=
  dot_S128x4096_S4096x1024_S128x1024_1_0_0_1_n_n.lhsIdx_val_of_single rfl i q
theorem rhs_lang_0 (i : S128x1024.Idx) (q : dot_S128x4096_S4096x1024_S128x1024_1_0_0_1_n_n.contr.Idx) :
    (dot_S128x4096_S4096x1024_S128x1024_1_0_0_1_n_n.rhsIdx i q 0).val = (q ⟨0, by decide⟩).val :=
  dot_S128x4096_S4096x1024_S128x1024_1_0_0_1_n_n.rhsIdx_val_of_single rfl i q
theorem rhs_lang_1 (i : S128x1024.Idx) (q : dot_S128x4096_S4096x1024_S128x1024_1_0_0_1_n_n.contr.Idx) :
    (dot_S128x4096_S4096x1024_S128x1024_1_0_0_1_n_n.rhsIdx i q 1).val = (i 1).val := by
  unfold DotDims.rhsIdx
  rw [dif_neg (show ¬(1 : Fin S4096x1024.rank) ∈ dot_S128x4096_S4096x1024_S128x1024_1_0_0_1_n_n.rhsBatch by decide), dif_pos (show (1 : Fin S4096x1024.rank) ∈ dot_S128x4096_S4096x1024_S128x1024_1_0_0_1_n_n.rhsNonContracting by decide)]
  rfl

/-- Into the zero accumulator, entry `(p, f)` of the product is the sum over `k` of row `p` at `k` times column `f` at `k`. -/
theorem mm_lang_apply (prec : Option ContractPrecision) (l : FVec Ideal S128x4096 .bf16) (r : FVec Ideal S4096x1024 .bf16) (p : Fin 128) (f : Fin 1024) :
    matmul dot_S128x4096_S4096x1024_S128x1024_1_0_0_1_n_n prec l r (constant (F := Ideal) S128x1024 .f32 0x00000000#32) (ix2 p f)
      = ∑ k : Fin 4096, l (ix2 p k) * r (ix2 k f) := by
  simp only [matmul]
  rw [Ideal.matmul_constant_zero_apply, ← Equiv.sum_comp (ValueIdx.contrEquiv1 dot_S128x4096_S4096x1024_S128x1024_1_0_0_1_n_n 4096 rfl rfl).symm]
  refine Finset.sum_congr rfl fun k _ => ?_
  have hk := ValueIdx.contrEquiv1_symm_val dot_S128x4096_S4096x1024_S128x1024_1_0_0_1_n_n 4096 rfl rfl k
  have el : dot_S128x4096_S4096x1024_S128x1024_1_0_0_1_n_n.lhsIdx (ix2 p f) ((ValueIdx.contrEquiv1 dot_S128x4096_S4096x1024_S128x1024_1_0_0_1_n_n 4096 rfl rfl).symm k) = ix2 p k := funext fun a => Fin.ext (by
    match a with
    | ⟨0, _⟩ => exact lhs_lang_0 _ _
    | ⟨1, _⟩ => exact (lhs_lang_1 _ _).trans hk)
  have er : dot_S128x4096_S4096x1024_S128x1024_1_0_0_1_n_n.rhsIdx (ix2 p f) ((ValueIdx.contrEquiv1 dot_S128x4096_S4096x1024_S128x1024_1_0_0_1_n_n 4096 rfl rfl).symm k) = ix2 k f := funext fun a => Fin.ext (by
    match a with
    | ⟨0, _⟩ => exact (rhs_lang_0 _ _).trans hk
    | ⟨1, _⟩ => exact rhs_lang_1 _ _)
  rw [el, er]

/-! ## The product of a hidden layer's rows against a square weight matrix, at an entry -/

theorem lhs_hidden_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem lhs_hidden_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem rhs_hidden_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem rhs_hidden_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- Into the zero accumulator, entry `(p, f)` of the product is the sum over `k` of row `p` at `k` times column `f` at `k`. -/
theorem mm_hidden_apply (prec : Option ContractPrecision) (l : FVec Ideal S128x1024 .bf16) (r : FVec Ideal S1024x1024 .bf16) (p : Fin 128) (f : Fin 1024) :
    matmul dot_S128x1024_S1024x1024_S128x1024_1_0_0_1_n_n prec l r (constant (F := Ideal) S128x1024 .f32 0x00000000#32) (ix2 p f)
      = ∑ k : Fin 1024, l (ix2 p k) * r (ix2 k f) := by
  simp only [matmul]
  rw [Ideal.matmul_constant_zero_apply, ← Equiv.sum_comp (ValueIdx.contrEquiv1 dot_S128x1024_S1024x1024_S128x1024_1_0_0_1_n_n 1024 rfl rfl).symm]
  refine Finset.sum_congr rfl fun k _ => ?_
  have hk := ValueIdx.contrEquiv1_symm_val dot_S128x1024_S1024x1024_S128x1024_1_0_0_1_n_n 1024 rfl rfl k
  have el : dot_S128x1024_S1024x1024_S128x1024_1_0_0_1_n_n.lhsIdx (ix2 p f) ((ValueIdx.contrEquiv1 dot_S128x1024_S1024x1024_S128x1024_1_0_0_1_n_n 1024 rfl rfl).symm k) = ix2 p k := funext fun a => Fin.ext (by
    match a with
    | ⟨0, _⟩ => exact lhs_hidden_0 _ _
    | ⟨1, _⟩ => exact (lhs_hidden_1 _ _).trans hk)
  have er : dot_S128x1024_S1024x1024_S128x1024_1_0_0_1_n_n.rhsIdx (ix2 p f) ((ValueIdx.contrEquiv1 dot_S128x1024_S1024x1024_S128x1024_1_0_0_1_n_n 1024 rfl rfl).symm k) = ix2 k f := funext fun a => Fin.ext (by
    match a with
    | ⟨0, _⟩ => exact (rhs_hidden_0 _ _).trans hk
    | ⟨1, _⟩ => exact rhs_hidden_1 _ _)
  rw [el, er]

/-! ## The product of the last hidden layer's rows against the output weights, at an entry -/

theorem lhs_last_0 (i : S128x6.Idx) (q : dot_S128x1024_S1024x6_S128x6_1_0_0_1_n_n.contr.Idx) :
    (dot_S128x1024_S1024x6_S128x6_1_0_0_1_n_n.lhsIdx i q 0).val = (i 0).val := by
  unfold DotDims.lhsIdx
  rw [dif_neg (show ¬(0 : Fin S128x1024.rank) ∈ dot_S128x1024_S1024x6_S128x6_1_0_0_1_n_n.lhsBatch by decide), dif_pos (show (0 : Fin S128x1024.rank) ∈ dot_S128x1024_S1024x6_S128x6_1_0_0_1_n_n.lhsNonContracting by decide)]
  rfl
theorem lhs_last_1 (i : S128x6.Idx) (q : dot_S128x1024_S1024x6_S128x6_1_0_0_1_n_n.contr.Idx) :
    (dot_S128x1024_S1024x6_S128x6_1_0_0_1_n_n.lhsIdx i q 1).val = (q ⟨0, by decide⟩).val :=
  dot_S128x1024_S1024x6_S128x6_1_0_0_1_n_n.lhsIdx_val_of_single rfl i q
theorem rhs_last_0 (i : S128x6.Idx) (q : dot_S128x1024_S1024x6_S128x6_1_0_0_1_n_n.contr.Idx) :
    (dot_S128x1024_S1024x6_S128x6_1_0_0_1_n_n.rhsIdx i q 0).val = (q ⟨0, by decide⟩).val :=
  dot_S128x1024_S1024x6_S128x6_1_0_0_1_n_n.rhsIdx_val_of_single rfl i q
theorem rhs_last_1 (i : S128x6.Idx) (q : dot_S128x1024_S1024x6_S128x6_1_0_0_1_n_n.contr.Idx) :
    (dot_S128x1024_S1024x6_S128x6_1_0_0_1_n_n.rhsIdx i q 1).val = (i 1).val := by
  unfold DotDims.rhsIdx
  rw [dif_neg (show ¬(1 : Fin S1024x6.rank) ∈ dot_S128x1024_S1024x6_S128x6_1_0_0_1_n_n.rhsBatch by decide), dif_pos (show (1 : Fin S1024x6.rank) ∈ dot_S128x1024_S1024x6_S128x6_1_0_0_1_n_n.rhsNonContracting by decide)]
  rfl

/-- Into the zero accumulator, entry `(p, f)` of the product is the sum over `k` of row `p` at `k` times column `f` at `k`. -/
theorem mm_last_apply (prec : Option ContractPrecision) (l : FVec Ideal S128x1024 .bf16) (r : FVec Ideal S1024x6 .bf16) (p : Fin 128) (f : Fin 6) :
    matmul dot_S128x1024_S1024x6_S128x6_1_0_0_1_n_n prec l r (constant (F := Ideal) S128x6 .f32 0x00000000#32) (ix2 p f)
      = ∑ k : Fin 1024, l (ix2 p k) * r (ix2 k f) := by
  simp only [matmul]
  rw [Ideal.matmul_constant_zero_apply, ← Equiv.sum_comp (ValueIdx.contrEquiv1 dot_S128x1024_S1024x6_S128x6_1_0_0_1_n_n 1024 rfl rfl).symm]
  refine Finset.sum_congr rfl fun k _ => ?_
  have hk := ValueIdx.contrEquiv1_symm_val dot_S128x1024_S1024x6_S128x6_1_0_0_1_n_n 1024 rfl rfl k
  have el : dot_S128x1024_S1024x6_S128x6_1_0_0_1_n_n.lhsIdx (ix2 p f) ((ValueIdx.contrEquiv1 dot_S128x1024_S1024x6_S128x6_1_0_0_1_n_n 1024 rfl rfl).symm k) = ix2 p k := funext fun a => Fin.ext (by
    match a with
    | ⟨0, _⟩ => exact lhs_last_0 _ _
    | ⟨1, _⟩ => exact (lhs_last_1 _ _).trans hk)
  have er : dot_S128x1024_S1024x6_S128x6_1_0_0_1_n_n.rhsIdx (ix2 p f) ((ValueIdx.contrEquiv1 dot_S128x1024_S1024x6_S128x6_1_0_0_1_n_n 1024 rfl rfl).symm k) = ix2 k f := funext fun a => Fin.ext (by
    match a with
    | ⟨0, _⟩ => exact (rhs_last_0 _ _).trans hk
    | ⟨1, _⟩ => exact rhs_last_1 _ _)
  rw [el, er]

/-! ## The indicator row of a token's index word -/

/-- The `[128, 1]` column of index words broadcast along the sixteen samples reads, at `(p, b)`, token `p`'s word; the
    count along the samples' axis reads `b`: their comparison at `(p, b)` compares the word with `b`. -/
theorem wordIsSample_apply (v0 : Vec Ideal S128x1 .i32) (p : Fin 128) (b : Fin 16) :
    cmpi .eq (broadcastTo S128x16 v0 broadcasts_S128x1_S128x16) (iota .tc S128x16 32 [1] iota_S128x16_d1_w32) (ix2 p b)
      = IntOp.cmpi .eq (v0 (ix2 p (0 : Fin 1))) (BitVec.ofNat 32 b.val) := by
  show IntOp.cmpi .eq (broadcastTo S128x16 v0 broadcasts_S128x1_S128x16 (ix2 p b)) (iota .tc S128x16 32 [1] iota_S128x16_d1_w32 (ix2 p b)) = _
  rw [iota_single_apply]
  congr 1
  refine broadcastTo_apply v0 broadcasts_S128x1_S128x16 (ix2 p b) (ix2 p (0 : Fin 1)) fun ax => ?_
  match ax with
  | ⟨0, _⟩ =>
    show p.val = if (128 : Nat) = 1 then 0 else p.val
    rw [if_neg (by decide)]
  | ⟨1, _⟩ => rfl

/-- The one-bit answer widened and converted is the indicator: one where the word is the sample's number, zero elsewhere. -/
theorem hot_word (w : BitVec 32) (b : Fin 16) :
    (FloatOps.sitofp (F := Ideal) .f32 ((IntOp.cmpi .eq w (BitVec.ofNat 32 b.val)).setWidth 32) : Ideal .f32) = hot w b := by
  show ((((IntOp.cmpi .eq w (BitVec.ofNat 32 b.val)).setWidth 32).toInt : ℝ) : EReal) = _
  unfold hot
  by_cases h : w = BitVec.ofNat 32 b.val
  · rw [if_pos h, IntOp.cmpi_eq.mpr h]
    have e : ((1#1 : BitVec 1).setWidth 32).toInt = 1 := by decide
    rw [e]; simp
  · rw [if_neg h, eq_zero_of_ne_one (fun e => h (IntOp.cmpi_eq.mp e))]
    have e : ((0#1 : BitVec 1).setWidth 32).toInt = 0 := by decide
    rw [e]; simp

/-! ## The planes' two unit slabs -/

theorem ld_plane0 (x3 : Vec Ideal S2x16x1024 .f32) (b : Fin 16) (f : Fin 1024) :
    View.ld x3 (Rect.unit (s := S2x16x1024) ![0, 0, 0] S1x16x1024.size inb_S2x16x1024_S1x16x1024_0_0_0) (ix3 (0 : Fin 1) b f)
      = x3 (ix3 (0 : Fin 2) b f) := by
  refine congrArg x3 (funext fun a => Fin.ext ?_)
  match a with
  | ⟨0, _⟩ => rfl
  | ⟨1, _⟩ => show 0 + 1 * b.val = b.val; omega
  | ⟨2, _⟩ => show 0 + 1 * f.val = f.val; omega

theorem ld_plane1 (x3 : Vec Ideal S2x16x1024 .f32) (b : Fin 16) (f : Fin 1024) :
    View.ld x3 (Rect.unit (s := S2x16x1024) ![1, 0, 0] S1x16x1024.size inb_S2x16x1024_S1x16x1024_1_0_0) (ix3 (0 : Fin 1) b f)
      = x3 (ix3 (1 : Fin 2) b f) := by
  refine congrArg x3 (funext fun a => Fin.ext ?_)
  match a with
  | ⟨0, _⟩ => rfl
  | ⟨1, _⟩ => show 0 + 1 * b.val = b.val; omega
  | ⟨2, _⟩ => show 0 + 1 * f.val = f.val; omega

/-! ## The last three layers, at an entry -/

theorem pay1_apply (v35 : FVec Ideal S128x1024 .bf16) (v36 : Vec Ideal S1024x1024 .f32) (v39 : Vec Ideal S1x1024 .f32)
    (v46 : Vec Ideal S1024x1024 .f32) (v49 : Vec Ideal S1x1024 .f32) (v56 : Vec Ideal S1024x6 .f32) (v59 : Vec Ideal S1x6 .f32)
    (p : Fin 128) (o : Fin 6) :
    k1_pay1 v35 v36 v39 v46 v49 v56 v59 (ix2 p o)
      = dense (fun k f => v56 (ix2 k f)) (fun f => v59 (ix2 (0 : Fin 1) f))
          (relu (dense (fun k f => v46 (ix2 k f)) (fun f => v49 (ix2 (0 : Fin 1) f))
            (relu (dense (fun k f => v36 (ix2 k f)) (fun f => v39 (ix2 (0 : Fin 1) f)) (fun k => v35 (ix2 p k)))))) o := by
  unfold k1_pay1 dense relu
  simp only [truncf_apply, maximumf_apply, addf_apply, broadcast_apply, shapeCast_self, broadcastTo_1b_ab_apply,
    mm_hidden_apply, mm_last_apply, Ideal.ofBits_def, Ideal.ofBits_zero_f32]

/-! ## The first two layers, at an entry -/

/-- Entry `(p, f)` of the second layer's clamped output, when the token's index word is `w`, the two slabs are the planes
    of `P`, the token's language row is `grd` and the weight block is the rows from 32768 on of `W1`. -/
theorem pay2_apply (v0 : Vec Ideal S128x1 .i32) (v7 v9 : Vec Ideal S1x16x1024 .f32) (v13 : Vec Ideal S128x4096 .f32)
    (v15 : Vec Ideal S4096x1024 .f32) (v19 : Vec Ideal S1x1024 .f32) (v26 : Vec Ideal S1024x1024 .f32) (v29 : Vec Ideal S1x1024 .f32)
    (p : Fin 128) (w : BitVec 32) (P : S2x16x1024.Idx → EReal) (grd : Fin 4096 → EReal) (W1 : Fin 36864 → Fin 1024 → EReal)
    (hw : v0 (ix2 p (0 : Fin 1)) = w)
    (hP0 : ∀ (b : Fin 16) (g : Fin 1024), v7 (ix3 (0 : Fin 1) b g) = P (ix3 (0 : Fin 2) b g))
    (hP1 : ∀ (b : Fin 16) (g : Fin 1024), v9 (ix3 (0 : Fin 1) b g) = P (ix3 (1 : Fin 2) b g))
    (hg : ∀ j : Fin 4096, v13 (ix2 p j) = grd j)
    (hW : ∀ (j : Fin 4096) (g : Fin 1024), v15 (ix2 j g) = W1 ⟨32768 + j.val, by omega⟩ g)
    (f : Fin 1024) :
    k1_pay2 v0 v7 v9 v13 v15 v19 v26 v29 (ix2 p f)
      = relu (dense (fun k g => v26 (ix2 k g)) (fun g => v29 (ix2 (0 : Fin 1) g))
          (relu (fun g => kfirst w P grd W1 g + v19 (ix2 (0 : Fin 1) g)))) f := by
  have hI : ∀ b : Fin 16, FloatOps.sitofp (F := Ideal) .f32 (BitVec.setWidth 32 (cmpi .eq (broadcastTo S128x16 v0 broadcasts_S128x1_S128x16)
      (iota .tc S128x16 32 [1] iota_S128x16_d1_w32) (ix2 p b))) = hot w b := fun b => by rw [wordIsSample_apply, hot_word, hw]
  unfold k1_pay2 dense relu kfirst
  simp only [truncf_apply, maximumf_apply, addf_apply, broadcast_apply, shapeCast_self, broadcastTo_1b_ab_apply,
    mm_hidden_apply, mm_lang_apply, mm_hotPlanes_apply, sitofp_apply, extui_apply, shapeCast_1ab_ab_apply,
    Ideal.ofBits_def, Ideal.ofBits_zero_f32, hI, hP0, hP1, hg, hW]

/-! ## A block's entry as the whole result array's -/

theorem hz2 : (![0, 0] : Fin 2 → Nat) = fun _ => 0 := funext fun a => by fin_cases a <;> rfl

/-- The whole result array from the arrays the region reads: entry `(t, o)` is the five layers on token `t`'s index
    word and language row, the two planes, the last 4096 rows of the first weights, and the other weights and biases. -/
def resultOf (A0 : S2048x1.Idx → BitVec 32) (A1 : S2048x4096.Idx → EReal) (A2 : S36864x1024.Idx → EReal) (A3 : S2x16x1024.Idx → EReal) (A4 : S1x1024.Idx → EReal) (A5 : S1024x1024.Idx → EReal) (A6 : S1x1024.Idx → EReal) (A7 : S1024x1024.Idx → EReal) (A8 : S1x1024.Idx → EReal) (A9 : S1024x1024.Idx → EReal) (A10 : S1x1024.Idx → EReal) (A11 : S1024x6.Idx → EReal) (A12 : S1x6.Idx → EReal) : S2048x6.Idx → EReal :=
  fun i => knet (A0 (ix2 (i 0) (0 : Fin 1))) A3 (fun j => A1 (ix2 (i 0) j)) (fun j f => A2 (ix2 j f)) (fun f => A4 (ix2 (0 : Fin 1) f))
    (fun k f => A5 (ix2 k f)) (fun f => A6 (ix2 (0 : Fin 1) f)) (fun k f => A7 (ix2 k f)) (fun f => A8 (ix2 (0 : Fin 1) f))
    (fun k f => A9 (ix2 k f)) (fun f => A10 (ix2 (0 : Fin 1) f)) (fun k f => A11 (ix2 k f)) (fun f => A12 (ix2 (0 : Fin 1) f)) (i 1)

/-- What the body's one store leaves at entry `y` of the result block of row block `σ` is the whole result array's entry
    `i` at row `128 σ + y 0`, when the token blocks are row block `σ` of their arrays, the weight block is the rows from
    32768 on of the first weights, and every other block is its whole array. -/
theorem block_entry (A0 : S2048x1.Idx → BitVec 32) (A1 : S2048x4096.Idx → EReal) (A2 : S36864x1024.Idx → EReal) (A3 : S2x16x1024.Idx → EReal) (A4 : S1x1024.Idx → EReal) (A5 : S1024x1024.Idx → EReal) (A6 : S1x1024.Idx → EReal) (A7 : S1024x1024.Idx → EReal) (A8 : S1x1024.Idx → EReal) (A9 : S1024x1024.Idx → EReal) (A10 : S1x1024.Idx → EReal) (A11 : S1024x6.Idx → EReal) (A12 : S1x6.Idx → EReal)
    (x0 : Vec Ideal S128x1 .i32) (x1 : Vec Ideal S128x4096 .f32) (x2 : Vec Ideal S4096x1024 .f32) (x3 : Vec Ideal S2x16x1024 .f32) (x4 : Vec Ideal S1x1024 .f32) (x5 : Vec Ideal S1024x1024 .f32) (x6 : Vec Ideal S1x1024 .f32) (x7 : Vec Ideal S1024x1024 .f32) (x8 : Vec Ideal S1x1024 .f32) (x9 : Vec Ideal S1024x1024 .f32) (x10 : Vec Ideal S1x1024 .f32) (x11 : Vec Ideal S1024x6 .f32) (x12 : Vec Ideal S1x6 .f32)
    (σ : ℕ) (y : S128x6.Idx) (i : S2048x6.Idx)
    (hi0 : (i 0).val = 128 * σ + (y 0).val) (hi1 : (i 1).val = (y 1).val)
    (h0 : ∀ (q : S128x1.Idx) (k : S2048x1.Idx), (k 0).val = 128 * σ + (q 0).val → (k 1).val = (q 1).val → x0 q = A0 k)
    (h1 : ∀ (q : S128x4096.Idx) (k : S2048x4096.Idx), (k 0).val = 128 * σ + (q 0).val → (k 1).val = (q 1).val → x1 q = A1 k)
    (h2 : ∀ (q : S4096x1024.Idx) (k : S36864x1024.Idx), (k 0).val = 32768 + (q 0).val → (k 1).val = (q 1).val → x2 q = A2 k)
    (h3 : x3 = A3) (h4 : x4 = A4) (h5 : x5 = A5) (h6 : x6 = A6) (h7 : x7 = A7) (h8 : x8 = A8) (h9 : x9 = A9) (h10 : x10 = A10) (h11 : x11 = A11) (h12 : x12 = A12) :
    R1.out13 (F := Ideal) x0 x1 x2 x3 x4 x5 x6 x7 x8 x9 x10 x11 x12 y = resultOf A0 A1 A2 A3 A4 A5 A6 A7 A8 A9 A10 A11 A12 i := by
  subst h3 h4 h5 h6 h7 h8 h9 h10 h11 h12
  obtain ⟨p, o, rfl⟩ : ∃ (p : Fin 128) (o : Fin 6), y = ix2 p o := ⟨y 0, y 1, eq_ix2 y⟩
  obtain ⟨t, o', rfl⟩ : ∃ (t : Fin 2048) (o' : Fin 6), i = ix2 t o' := ⟨i 0, i 1, eq_ix2 i⟩
  have ho : o' = o := Fin.ext hi1
  subst ho
  unfold R1.out13
  rw [View.canon_unit_zero hz2]
  simp only [View.ld_unit_zero (S := S128x1) hz2, View.ld_unit_zero (S := S128x4096) hz2, View.ld_unit_zero (S := S4096x1024) hz2, View.ld_unit_zero (S := S1x1024) hz2, View.ld_unit_zero (S := S1024x1024) hz2, View.ld_unit_zero (S := S1024x6) hz2, View.ld_unit_zero (S := S1x6) hz2]
  rw [pay1_apply]
  have e : (fun k : Fin 1024 => k1_pay2 x0
        (View.ld x3 (Rect.unit (s := S2x16x1024) ![0, 0, 0] S1x16x1024.size inb_S2x16x1024_S1x16x1024_0_0_0))
        (View.ld x3 (Rect.unit (s := S2x16x1024) ![1, 0, 0] S1x16x1024.size inb_S2x16x1024_S1x16x1024_1_0_0))
        x1 x2 x4 x5 x6 (ix2 p k))
      = relu (dense (fun k g => x5 (ix2 k g)) (fun g => x6 (ix2 (0 : Fin 1) g))
          (relu (fun g => kfirst (A0 (ix2 t (0 : Fin 1))) x3 (fun j => A1 (ix2 t j)) (fun j f => A2 (ix2 j f)) g + x4 (ix2 (0 : Fin 1) g)))) :=
    funext fun k => pay2_apply x0 _ _ x1 x2 x4 x5 x6 p (A0 (ix2 t (0 : Fin 1))) x3 (fun j => A1 (ix2 t j)) (fun j f => A2 (ix2 j f))
      (h0 _ _ hi0 rfl) (ld_plane0 x3) (ld_plane1 x3) (fun j => h1 _ _ hi0 rfl) (fun j g => h2 _ _ rfl rfl) k
  rw [e]
  rfl

end Cert.KernelIdeal.R1V

end
-- ==== Proof.R1Value.lean ====
/-
  What region 1 leaves in its result, entry by entry: token `t`, output `o` holds the five layers on the token's
  index word, the two planes, the token's language row, and the weights and biases as the region finds them.
-/
import proofs.«425794_j25228637897251_3_alg».proof.Proof.Region1
import proofs.«425794_j25228637897251_3_alg».proof.Proof.KSpec
import proofs.«425794_j25228637897251_3_alg».proof.Proof.R1ValuePay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1V

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec Cert.KSpec

variable (V : (c : Dev nD) → (b : Ref sig .tc) → Buf (Elt Ideal) ((c : Thread nD τ).loc b))

/-! ## The index maps, decided once over the grid -/

theorem idx_0 : ∀ s : Fin cfg1.N, win1_0.index s (0 : Fin 2) = s.val ∧ win1_0.index s (1 : Fin 2) = 0 :=
  (by decide +kernel : ∀ s : Fin grid1.N, _)
theorem idx_1 : ∀ s : Fin cfg1.N, win1_1.index s (0 : Fin 2) = s.val ∧ win1_1.index s (1 : Fin 2) = 0 :=
  (by decide +kernel : ∀ s : Fin grid1.N, _)
theorem idx_2 : ∀ s : Fin cfg1.N, win1_2.index s (0 : Fin 2) = 8 ∧ win1_2.index s (1 : Fin 2) = 0 :=
  (by decide +kernel : ∀ s : Fin grid1.N, _)
theorem idx_3 : ∀ s : Fin cfg1.N, win1_3.index s (0 : Fin 3) = 0 ∧ win1_3.index s (1 : Fin 3) = 0 ∧ win1_3.index s (2 : Fin 3) = 0 :=
  (by decide +kernel : ∀ s : Fin grid1.N, _)
theorem idx_4 : ∀ s : Fin cfg1.N, win1_4.index s (0 : Fin 2) = 0 ∧ win1_4.index s (1 : Fin 2) = 0 :=
  (by decide +kernel : ∀ s : Fin grid1.N, _)
theorem idx_5 : ∀ s : Fin cfg1.N, win1_5.index s (0 : Fin 2) = 0 ∧ win1_5.index s (1 : Fin 2) = 0 :=
  (by decide +kernel : ∀ s : Fin grid1.N, _)
theorem idx_6 : ∀ s : Fin cfg1.N, win1_6.index s (0 : Fin 2) = 0 ∧ win1_6.index s (1 : Fin 2) = 0 :=
  (by decide +kernel : ∀ s : Fin grid1.N, _)
theorem idx_7 : ∀ s : Fin cfg1.N, win1_7.index s (0 : Fin 2) = 0 ∧ win1_7.index s (1 : Fin 2) = 0 :=
  (by decide +kernel : ∀ s : Fin grid1.N, _)
theorem idx_8 : ∀ s : Fin cfg1.N, win1_8.index s (0 : Fin 2) = 0 ∧ win1_8.index s (1 : Fin 2) = 0 :=
  (by decide +kernel : ∀ s : Fin grid1.N, _)
theorem idx_9 : ∀ s : Fin cfg1.N, win1_9.index s (0 : Fin 2) = 0 ∧ win1_9.index s (1 : Fin 2) = 0 :=
  (by decide +kernel : ∀ s : Fin grid1.N, _)
theorem idx_10 : ∀ s : Fin cfg1.N, win1_10.index s (0 : Fin 2) = 0 ∧ win1_10.index s (1 : Fin 2) = 0 :=
  (by decide +kernel : ∀ s : Fin grid1.N, _)
theorem idx_11 : ∀ s : Fin cfg1.N, win1_11.index s (0 : Fin 2) = 0 ∧ win1_11.index s (1 : Fin 2) = 0 :=
  (by decide +kernel : ∀ s : Fin grid1.N, _)
theorem idx_12 : ∀ s : Fin cfg1.N, win1_12.index s (0 : Fin 2) = 0 ∧ win1_12.index s (1 : Fin 2) = 0 :=
  (by decide +kernel : ∀ s : Fin grid1.N, _)
theorem idx_13 : ∀ s : Fin cfg1.N, win1_13.index s (0 : Fin 2) = s.val ∧ win1_13.index s (1 : Fin 2) = 0 :=
  (by decide +kernel : ∀ s : Fin grid1.N, _)

/-! ## Each input block read where its window's index map says -/

/-- The index words' block at point `s` is rows `128 s …` of the column of index words. -/
theorem iblk0_apply (c : Dev nD) (s : Fin cfg1.N) (q : S128x1.Idx) (k : S2048x1.Idx)
    (hk0 : (k 0).val = 128 * s.val + (q 0).val) (hk1 : (k 1).val = (q 1).val) :
    (R1.iblk V c 0 s : Vec Ideal S128x1 .i32) q = (V c main_v1 : S2048x1.Idx → BitVec 32) k := by
  obtain ⟨e0, e1⟩ := idx_0 s
  unfold R1.iblk
  rw [View.read_apply]
  show (V c main_v1 : S2048x1.Idx → BitVec 32) _ = V c main_v1 k
  congr 1
  funext a
  apply Fin.ext
  match a with
  | ⟨0, _⟩ => show win1_0.index s (0 : Fin 2) * 128 + 1 * (q 0).val = (k 0).val; rw [e0, hk0]; omega
  | ⟨1, _⟩ => show win1_0.index s (1 : Fin 2) * 1 + 1 * (q 1).val = (k 1).val; rw [e1, hk1]; omega

/-- The language block at point `s` is rows `128 s …` of the language array. -/
theorem iblk1_apply (c : Dev nD) (s : Fin cfg1.N) (q : S128x4096.Idx) (k : S2048x4096.Idx)
    (hk0 : (k 0).val = 128 * s.val + (q 0).val) (hk1 : (k 1).val = (q 1).val) :
    (R1.iblk V c 1 s : Vec Ideal S128x4096 .f32) q = (V c main_arg0 : S2048x4096.Idx → EReal) k := by
  obtain ⟨e0, e1⟩ := idx_1 s
  unfold R1.iblk
  rw [View.read_apply]
  show (V c main_arg0 : S2048x4096.Idx → EReal) _ = V c main_arg0 k
  congr 1
  funext a
  apply Fin.ext
  match a with
  | ⟨0, _⟩ => show win1_1.index s (0 : Fin 2) * 128 + 1 * (q 0).val = (k 0).val; rw [e0, hk0]; omega
  | ⟨1, _⟩ => show win1_1.index s (1 : Fin 2) * 4096 + 1 * (q 1).val = (k 1).val; rw [e1, hk1]; omega

/-- The first weights' block is, at every point, their rows from 32768 on. -/
theorem iblk2_apply (c : Dev nD) (s : Fin cfg1.N) (q : S4096x1024.Idx) (k : S36864x1024.Idx)
    (hk0 : (k 0).val = 32768 + (q 0).val) (hk1 : (k 1).val = (q 1).val) :
    (R1.iblk V c 2 s : Vec Ideal S4096x1024 .f32) q = (V c main_arg3 : S36864x1024.Idx → EReal) k := by
  obtain ⟨e0, e1⟩ := idx_2 s
  unfold R1.iblk
  rw [View.read_apply]
  show (V c main_arg3 : S36864x1024.Idx → EReal) _ = V c main_arg3 k
  congr 1
  funext a
  apply Fin.ext
  match a with
  | ⟨0, _⟩ => show win1_2.index s (0 : Fin 2) * 4096 + 1 * (q 0).val = (k 0).val; rw [e0, hk0]; omega
  | ⟨1, _⟩ => show win1_2.index s (1 : Fin 2) * 1024 + 1 * (q 1).val = (k 1).val; rw [e1, hk1]; omega

/-- Every other input block is, at every point, its whole array. -/
theorem iblk3_whole (c : Dev nD) (s : Fin cfg1.N) :
    (R1.iblk V c 3 s : Vec Ideal S2x16x1024 .f32) = (V c main_v3 : S2x16x1024.Idx → EReal) := by
  obtain ⟨e0, e1, e2⟩ := idx_3 s
  funext q
  unfold R1.iblk
  rw [View.read_apply]
  show (V c main_v3 : S2x16x1024.Idx → EReal) _ = V c main_v3 q
  congr 1
  funext a
  apply Fin.ext
  match a with
  | ⟨0, _⟩ => show win1_3.index s (0 : Fin 3) * 2 + 1 * (q 0).val = (q 0).val; rw [e0]; omega
  | ⟨1, _⟩ => show win1_3.index s (1 : Fin 3) * 16 + 1 * (q 1).val = (q 1).val; rw [e1]; omega
  | ⟨2, _⟩ => show win1_3.index s (2 : Fin 3) * 1024 + 1 * (q 2).val = (q 2).val; rw [e2]; omega
theorem iblk4_whole (c : Dev nD) (s : Fin cfg1.N) :
    (R1.iblk V c 4 s : Vec Ideal S1x1024 .f32) = (V c main_v4 : S1x1024.Idx → EReal) := by
  obtain ⟨e0, e1⟩ := idx_4 s
  funext q
  unfold R1.iblk
  rw [View.read_apply]
  show (V c main_v4 : S1x1024.Idx → EReal) _ = V c main_v4 q
  congr 1
  funext a
  apply Fin.ext
  match a with
  | ⟨0, _⟩ => show win1_4.index s (0 : Fin 2) * 1 + 1 * (q 0).val = (q 0).val; rw [e0]; omega
  | ⟨1, _⟩ => show win1_4.index s (1 : Fin 2) * 1024 + 1 * (q 1).val = (q 1).val; rw [e1]; omega
theorem iblk5_whole (c : Dev nD) (s : Fin cfg1.N) :
    (R1.iblk V c 5 s : Vec Ideal S1024x1024 .f32) = (V c main_arg5 : S1024x1024.Idx → EReal) := by
  obtain ⟨e0, e1⟩ := idx_5 s
  funext q
  unfold R1.iblk
  rw [View.read_apply]
  show (V c main_arg5 : S1024x1024.Idx → EReal) _ = V c main_arg5 q
  congr 1
  funext a
  apply Fin.ext
  match a with
  | ⟨0, _⟩ => show win1_5.index s (0 : Fin 2) * 1024 + 1 * (q 0).val = (q 0).val; rw [e0]; omega
  | ⟨1, _⟩ => show win1_5.index s (1 : Fin 2) * 1024 + 1 * (q 1).val = (q 1).val; rw [e1]; omega
theorem iblk6_whole (c : Dev nD) (s : Fin cfg1.N) :
    (R1.iblk V c 6 s : Vec Ideal S1x1024 .f32) = (V c main_v5 : S1x1024.Idx → EReal) := by
  obtain ⟨e0, e1⟩ := idx_6 s
  funext q
  unfold R1.iblk
  rw [View.read_apply]
  show (V c main_v5 : S1x1024.Idx → EReal) _ = V c main_v5 q
  congr 1
  funext a
  apply Fin.ext
  match a with
  | ⟨0, _⟩ => show win1_6.index s (0 : Fin 2) * 1 + 1 * (q 0).val = (q 0).val; rw [e0]; omega
  | ⟨1, _⟩ => show win1_6.index s (1 : Fin 2) * 1024 + 1 * (q 1).val = (q 1).val; rw [e1]; omega
theorem iblk7_whole (c : Dev nD) (s : Fin cfg1.N) :
    (R1.iblk V c 7 s : Vec Ideal S1024x1024 .f32) = (V c main_arg7 : S1024x1024.Idx → EReal) := by
  obtain ⟨e0, e1⟩ := idx_7 s
  funext q
  unfold R1.iblk
  rw [View.read_apply]
  show (V c main_arg7 : S1024x1024.Idx → EReal) _ = V c main_arg7 q
  congr 1
  funext a
  apply Fin.ext
  match a with
  | ⟨0, _⟩ => show win1_7.index s (0 : Fin 2) * 1024 + 1 * (q 0).val = (q 0).val; rw [e0]; omega
  | ⟨1, _⟩ => show win1_7.index s (1 : Fin 2) * 1024 + 1 * (q 1).val = (q 1).val; rw [e1]; omega
theorem iblk8_whole (c : Dev nD) (s : Fin cfg1.N) :
    (R1.iblk V c 8 s : Vec Ideal S1x1024 .f32) = (V c main_v6 : S1x1024.Idx → EReal) := by
  obtain ⟨e0, e1⟩ := idx_8 s
  funext q
  unfold R1.iblk
  rw [View.read_apply]
  show (V c main_v6 : S1x1024.Idx → EReal) _ = V c main_v6 q
  congr 1
  funext a
  apply Fin.ext
  match a with
  | ⟨0, _⟩ => show win1_8.index s (0 : Fin 2) * 1 + 1 * (q 0).val = (q 0).val; rw [e0]; omega
  | ⟨1, _⟩ => show win1_8.index s (1 : Fin 2) * 1024 + 1 * (q 1).val = (q 1).val; rw [e1]; omega
theorem iblk9_whole (c : Dev nD) (s : Fin cfg1.N) :
    (R1.iblk V c 9 s : Vec Ideal S1024x1024 .f32) = (V c main_arg9 : S1024x1024.Idx → EReal) := by
  obtain ⟨e0, e1⟩ := idx_9 s
  funext q
  unfold R1.iblk
  rw [View.read_apply]
  show (V c main_arg9 : S1024x1024.Idx → EReal) _ = V c main_arg9 q
  congr 1
  funext a
  apply Fin.ext
  match a with
  | ⟨0, _⟩ => show win1_9.index s (0 : Fin 2) * 1024 + 1 * (q 0).val = (q 0).val; rw [e0]; omega
  | ⟨1, _⟩ => show win1_9.index s (1 : Fin 2) * 1024 + 1 * (q 1).val = (q 1).val; rw [e1]; omega
theorem iblk10_whole (c : Dev nD) (s : Fin cfg1.N) :
    (R1.iblk V c 10 s : Vec Ideal S1x1024 .f32) = (V c main_v7 : S1x1024.Idx → EReal) := by
  obtain ⟨e0, e1⟩ := idx_10 s
  funext q
  unfold R1.iblk
  rw [View.read_apply]
  show (V c main_v7 : S1x1024.Idx → EReal) _ = V c main_v7 q
  congr 1
  funext a
  apply Fin.ext
  match a with
  | ⟨0, _⟩ => show win1_10.index s (0 : Fin 2) * 1 + 1 * (q 0).val = (q 0).val; rw [e0]; omega
  | ⟨1, _⟩ => show win1_10.index s (1 : Fin 2) * 1024 + 1 * (q 1).val = (q 1).val; rw [e1]; omega
theorem iblk11_whole (c : Dev nD) (s : Fin cfg1.N) :
    (R1.iblk V c 11 s : Vec Ideal S1024x6 .f32) = (V c main_arg11 : S1024x6.Idx → EReal) := by
  obtain ⟨e0, e1⟩ := idx_11 s
  funext q
  unfold R1.iblk
  rw [View.read_apply]
  show (V c main_arg11 : S1024x6.Idx → EReal) _ = V c main_arg11 q
  congr 1
  funext a
  apply Fin.ext
  match a with
  | ⟨0, _⟩ => show win1_11.index s (0 : Fin 2) * 1024 + 1 * (q 0).val = (q 0).val; rw [e0]; omega
  | ⟨1, _⟩ => show win1_11.index s (1 : Fin 2) * 6 + 1 * (q 1).val = (q 1).val; rw [e1]; omega
theorem iblk12_whole (c : Dev nD) (s : Fin cfg1.N) :
    (R1.iblk V c 12 s : Vec Ideal S1x6 .f32) = (V c main_v8 : S1x6.Idx → EReal) := by
  obtain ⟨e0, e1⟩ := idx_12 s
  funext q
  unfold R1.iblk
  rw [View.read_apply]
  show (V c main_v8 : S1x6.Idx → EReal) _ = V c main_v8 q
  congr 1
  funext a
  apply Fin.ext
  match a with
  | ⟨0, _⟩ => show win1_12.index s (0 : Fin 2) * 1 + 1 * (q 0).val = (q 0).val; rw [e0]; omega
  | ⟨1, _⟩ => show win1_12.index s (1 : Fin 2) * 6 + 1 * (q 1).val = (q 1).val; rw [e1]; omega

/-! ## From the blocks to the array -/

/-- The whole result array of the region on core `c`, from the arrays as the region finds them. -/
def Go (c : Dev nD) : S2048x6.Idx → EReal :=
  resultOf (V c main_v1) (V c main_arg0) (V c main_arg3) (V c main_v3) (V c main_v4) (V c main_arg5) (V c main_v5) (V c main_arg7) (V c main_v6) (V c main_arg9) (V c main_v7) (V c main_arg11) (V c main_v8)

/-- What point `s` writes back is block `s` of `Go`: rows `128 s …` of it. -/
theorem flushed_eq (c : Dev nD) (s : Fin cfg1.N) :
    (R1.dat (F := Ideal) V c).flushed 13 s = ((cfg1.win 13).blk s).view.read (Elt Ideal) (Go V c) := by
  obtain ⟨e0, e1⟩ := idx_13 s
  show (cfg1.win 13).cut (grid1.coords s) ((R1.dat (F := Ideal) V c).after 13 s) = _
  rw [R1.after_13]
  funext y
  show R1.out13 (F := Ideal) (R1.iblk V c 0 s) (R1.iblk V c 1 s) (R1.iblk V c 2 s) (R1.iblk V c 3 s) (R1.iblk V c 4 s) (R1.iblk V c 5 s) (R1.iblk V c 6 s) (R1.iblk V c 7 s) (R1.iblk V c 8 s) (R1.iblk V c 9 s) (R1.iblk V c 10 s) (R1.iblk V c 11 s) (R1.iblk V c 12 s) y = Go V c (((cfg1.win 13).blk s).view.emb y)
  exact block_entry (V c main_v1) (V c main_arg0) (V c main_arg3) (V c main_v3) (V c main_v4) (V c main_arg5) (V c main_v5) (V c main_arg7) (V c main_v6) (V c main_arg9) (V c main_v7) (V c main_arg11) (V c main_v8)
    (R1.iblk V c 0 s) (R1.iblk V c 1 s) (R1.iblk V c 2 s) (R1.iblk V c 3 s) (R1.iblk V c 4 s) (R1.iblk V c 5 s) (R1.iblk V c 6 s) (R1.iblk V c 7 s) (R1.iblk V c 8 s) (R1.iblk V c 9 s) (R1.iblk V c 10 s) (R1.iblk V c 11 s) (R1.iblk V c 12 s) s.val y (((cfg1.win 13).blk s).view.emb y)
    (by show win1_13.index s (0 : Fin 2) * 128 + 1 * (y 0).val = _; rw [e0]; omega)
    (by show win1_13.index s (1 : Fin 2) * 6 + 1 * (y 1).val = _; rw [e1]; omega)
    (fun q k hk0 hk1 => iblk0_apply V c s q k hk0 hk1) (fun q k hk0 hk1 => iblk1_apply V c s q k hk0 hk1)
    (fun q k hk0 hk1 => iblk2_apply V c s q k hk0 hk1)
    (iblk3_whole V c s) (iblk4_whole V c s) (iblk5_whole V c s) (iblk6_whole V c s) (iblk7_whole V c s) (iblk8_whole V c s) (iblk9_whole V c s) (iblk10_whole V c s) (iblk11_whole V c s) (iblk12_whole V c s)

/-- An index of the result array is in point `s`'s block iff each coordinate is in the block's range on its axis. -/
theorem mem_blk (s : Fin cfg1.N) (i : S2048x6.Idx) :
    i ∈ ((cfg1.win 13).blk s).view.set ↔ ∀ a : Fin 2, win1_13.index s a * S128x6.size a ≤ (i a).val ∧ (i a).val < win1_13.index s a * S128x6.size a + S128x6.size a := by
  show i ∈ ((View.whole main_v9).slice (win1_13.rect s)).set ↔ _
  rw [View.set_slice_whole, Rect.mem_set_unit]
  exact Iff.rfl

/-- Row `t` of the result array is in the block of point `t / 128`, which writes it back. -/
theorem covered (i : S2048x6.Idx) : ∃ s : Fin cfg1.N, (cfg1.win 13).flush s = true ∧ i ∈ ((cfg1.win 13).blk s).view.set := by
  have hi0 : (i 0).val < 2048 := (i 0).isLt
  have hi1 : (i 1).val < 6 := (i 1).isLt
  have hs : (i 0).val / 128 < cfg1.N := by rw [show cfg1.N = 16 from N_1]; omega
  refine ⟨⟨(i 0).val / 128, hs⟩, flush1_13 _, ?_⟩
  obtain ⟨e0, e1⟩ := idx_13 ⟨(i 0).val / 128, hs⟩
  rw [mem_blk]
  intro a
  match a with
  | ⟨0, _⟩ =>
    show win1_13.index ⟨(i 0).val / 128, hs⟩ (0 : Fin 2) * 128 ≤ (i 0).val ∧ (i 0).val < win1_13.index ⟨(i 0).val / 128, hs⟩ (0 : Fin 2) * 128 + 128
    rw [e0]; show (i 0).val / 128 * 128 ≤ (i 0).val ∧ (i 0).val < (i 0).val / 128 * 128 + 128; omega
  | ⟨1, _⟩ =>
    show win1_13.index ⟨(i 0).val / 128, hs⟩ (1 : Fin 2) * 6 ≤ (i 1).val ∧ (i 1).val < win1_13.index ⟨(i 0).val / 128, hs⟩ (1 : Fin 2) * 6 + 6
    rw [e1]; omega

/-- So the result array ends holding `Go`. -/
theorem final (c : Dev nD) : (R1.dat (F := Ideal) V c).arrAt 13 cfg1.N = Go V c :=
  (R1.dat (F := Ideal) V c).arrAt_eq_of_cover 13 (Go V c) (fun s _ => flushed_eq V c s) covered

/-! ## The result array, entry by entry -/

theorem out_apply (c : Dev nD) (t : Fin 2048) (o : Fin 6) :
    ((R1.dat (F := Ideal) V c).arrAt 13 cfg1.N : S2048x6.Idx → EReal) (ix2 t o)
      = knet ((V c main_v1 : S2048x1.Idx → BitVec 32) (ix2 t (0 : Fin 1))) (V c main_v3 : S2x16x1024.Idx → EReal)
          (fun j => (V c main_arg0 : S2048x4096.Idx → EReal) (ix2 t j)) (fun j f => (V c main_arg3 : S36864x1024.Idx → EReal) (ix2 j f))
          (fun f => (V c main_v4 : S1x1024.Idx → EReal) (ix2 (0 : Fin 1) f))
          (fun k f => (V c main_arg5 : S1024x1024.Idx → EReal) (ix2 k f)) (fun f => (V c main_v5 : S1x1024.Idx → EReal) (ix2 (0 : Fin 1) f))
          (fun k f => (V c main_arg7 : S1024x1024.Idx → EReal) (ix2 k f)) (fun f => (V c main_v6 : S1x1024.Idx → EReal) (ix2 (0 : Fin 1) f))
          (fun k f => (V c main_arg9 : S1024x1024.Idx → EReal) (ix2 k f)) (fun f => (V c main_v7 : S1x1024.Idx → EReal) (ix2 (0 : Fin 1) f))
          (fun k f => (V c main_arg11 : S1024x6.Idx → EReal) (ix2 k f)) (fun f => (V c main_v8 : S1x6.Idx → EReal) (ix2 (0 : Fin 1) f)) o := by
  rw [final V c]
  rfl

end Cert.KernelIdeal.R1V

end
-- ==== Proof.HostReads.lean ====
/-
  What the host stretches leave in the buffers the regions read, at the exact instance: the clipped index column is the
  index vector itself when every index is in range; the flattened vision table is the vision array re-indexed; the
  [1 x N] bias arrays are the bias vectors; region 0's result reaches region 1 untouched, and the arguments reach both
  regions as launched.
-/
import proofs.«425794_j25228637897251_3_alg».proof.Proof.RunCond
import proofs.«425794_j25228637897251_3_alg».proof.Proof.Spec
import proofs.«425794_j25228637897251_3_alg».proof.Proof.KSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.StableHlo.Predicate

set_option maxRecDepth 16384

noncomputable section

namespace Cert.KernelIdeal.HostReads

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec Cert.KSpec Cert.KernelIdeal.Run

variable (m : (ℓ : Loc nD τ sig) → Buf (Elt Ideal) ℓ)

/-! ## Reshapes read at an index -/

/-- The [16, 32, 1024] array flattened to [16, 32768]: entry (b, j) is entry (b, j / 1024, j % 1024). -/
theorem flatten_apply {α : Type} (x : S16x32x1024.Idx → α) (h : S16x32x1024.ShapeCasts S16x32768) (b : Fin 16) (j : Fin 32768) :
    shapeCast S16x32768 x h (ix2 b j) = x (visAt b j) :=
  shapeCast_apply x h (ix2 b j) (visAt b j) (by
    rewrite [Shape.rowMajor_val_three, Shape.rowMajor_val_two]
    show (b.val * 32 + j.val / 1024) * 1024 + j.val % 1024 = b.val * 32768 + j.val
    omega)

/-- A vector of length `n` viewed as one row: entry (0, f) is entry f. -/
theorem row_apply {α : Type} {n : ℕ} (x : (⟨1, ![n]⟩ : Shape).Idx → α) (h : (⟨1, ![n]⟩ : Shape).ShapeCasts ⟨2, ![1, n]⟩) (f : Fin n) :
    shapeCast (⟨2, ![1, n]⟩ : Shape) x h (ix2 (0 : Fin 1) f) = x (ix1 f) :=
  shapeCast_apply x h (ix2 (0 : Fin 1) f) (ix1 f) (by
    rewrite [Shape.rowMajor_val_one, Shape.rowMajor_val_two]
    show f.val = 0 * n + f.val
    omega)

/-- A vector of length `n` viewed as one column: entry (t, 0) is entry t. -/
theorem col_apply {α : Type} {n : ℕ} (x : (⟨1, ![n]⟩ : Shape).Idx → α) (h : (⟨1, ![n]⟩ : Shape).ShapeCasts ⟨2, ![n, 1]⟩) (t : Fin n) :
    shapeCast (⟨2, ![n, 1]⟩ : Shape) x h (ix2 t (0 : Fin 1)) = x (ix1 t) :=
  shapeCast_apply x h (ix2 t (0 : Fin 1)) (ix1 t) (by
    rewrite [Shape.rowMajor_val_one, Shape.rowMajor_val_two]
    show t.val = t.val * 1 + 0
    omega)

/-- A signed word between 0 and 15, clamped below at 0 and above at 15, is itself. -/
theorem clamp_id (x : BitVec 32) (h0 : 0 ≤ x.toInt) (h1 : x.toInt < 16) :
    IntOp.minsi 15#32 (IntOp.maxsi 0#32 x) = x := by
  have z : (0#32 : BitVec 32).toInt = 0 := by decide
  have f : (15#32 : BitVec 32).toInt = 15 := by decide
  have hmax : IntOp.maxsi 0#32 x = x := by
    unfold IntOp.maxsi
    rw [if_neg]
    simp only [BitVec.slt, z, decide_eq_true_eq]; omega
  rw [hmax]
  unfold IntOp.minsi
  rw [if_neg]
  simp only [BitVec.slt, f, decide_eq_true_eq]; omega

/-! ## The arguments, as the host stretches find them -/

/-- No host stretch before region 0 writes an argument. -/
theorem V3_arg (c : Dev nD) (r : Ref sig .tc) (h2 : r ∉ hostOps0_2_W) (h1 : r ∉ hostOps0_1_W) (h0 : r ∉ hostOps0_W) :
    V3 m c r = m ((c.tc : Thread nD τ).loc r) :=
  (V3_of m c r h2).trans <| (V2_of m c r h1).trans <| (V1_of m c r h0).trans rfl
/-- Nor does region 0, whose result is another buffer. -/
theorem V4_arg (c : Dev nD) (r : Ref sig .tc) (h3 : r ∉ ([main_v3] : List (Ref sig .tc))) (h2 : r ∉ hostOps0_2_W) (h1 : r ∉ hostOps0_1_W) (h0 : r ∉ hostOps0_W) :
    V4 m (outs4 m) c r = m ((c.tc : Thread nD τ).loc r) :=
  (V4_of m (outs4 m) c r h3).trans (V3_arg m c r h2 h1 h0)
/-- Nor the host stretch between the regions. -/
theorem V5_arg (c : Dev nD) (r : Ref sig .tc) (h4 : r ∉ hostOps1_W) (h3 : r ∉ ([main_v3] : List (Ref sig .tc))) (h2 : r ∉ hostOps0_2_W) (h1 : r ∉ hostOps0_1_W) (h0 : r ∉ hostOps0_W) :
    V5 m (outs4 m) c r = m ((c.tc : Thread nD τ).loc r) :=
  (V5_of m (outs4 m) c r h4).trans (V4_arg m c r h3 h2 h1 h0)

/-- The flattened vision table region 0 reads. -/
theorem E0_v2 (c : Dev nD) (b : Fin 16) (j : Fin 32768) :
    (E0 m c main_v2 : S16x32768.Idx → EReal) (ix2 b j) = ((m ((c.tc : Thread nD τ).loc main_arg1)) : S16x32x1024.Idx → EReal) (visAt b j) := by
  -- the last stretch before region 0 writes `main_v2` as the vision array reshaped
  have e : (E0 m c main_v2 : S16x32768.Idx → EReal)
      = shapeCast S16x32768 (V2 m c main_arg1 : S16x32x1024.Idx → EReal) shapeCasts_S16x32x1024_S16x32768 := by
    show StableHlo.after hostOps0_2 (V2 m c) (Proc.devRef .tc main_v2) = _
    after_results
    rfl
  rw [e, flatten_apply]
  exact congrFun ((V2_of m c main_arg1 (by decide)).trans <| (V1_of m c main_arg1 (by decide)).trans rfl) _
/-- The first weight matrix, as region 0 and region 1 find it. -/
theorem E0_arg3 (c : Dev nD) : E0 m c main_arg3 = (m ((c.tc : Thread nD τ).loc main_arg3)) := by
  exact V3_arg m c main_arg3 (by decide) (by decide) (by decide)
theorem E1_arg3 (c : Dev nD) : E1 m c main_arg3 = (m ((c.tc : Thread nD τ).loc main_arg3)) := by
  exact V5_arg m c main_arg3 (by decide) (by decide) (by decide) (by decide) (by decide)
/-- The clipped index column region 1 reads: the index itself, in range. -/
theorem E1_v1 (c : Dev nD) (h : InRange (m ((c.tc : Thread nD τ).loc main_arg2))) (t : Fin 2048) :
    (E1 m c main_v1 : S2048x1.Idx → BitVec 32) (ix2 t (0 : Fin 1)) = ((m ((c.tc : Thread nD τ).loc main_arg2)) : S2048.Idx → BitVec 32) (ix1 t) := by
  -- nothing after the last stretch before region 0 writes `main_v1`
  have e5 : E1 m c main_v1 = V3 m c main_v1 :=
    (V5_of m (outs4 m) c main_v1 (by decide)).trans (V4_of m (outs4 m) c main_v1 (by decide))
  -- that stretch writes it as the clipped index vector viewed as a column
  have e3 : (V3 m c main_v1 : S2048x1.Idx → BitVec 32)
      = shapeCast S2048x1 (V2 m c main_v0 : S2048.Idx → BitVec 32) shapeCasts_S2048_S2048x1 := by
    show StableHlo.after hostOps0_2 (V2 m c) (Proc.devRef .tc main_v1) = _
    after_results
    rfl
  -- the stretch before clips the index vector between the two constants
  have e2 : (V2 m c main_v0 : S2048.Idx → BitVec 32)
      = minsi (broadcastInDim S2048 ![] bcast_S_S2048 (V1 m c main_c_0 : S_.Idx → BitVec 32))
          (maxsi (broadcastInDim S2048 ![] bcast_S_S2048 (V1 m c main_c : S_.Idx → BitVec 32)) (V1 m c main_arg2 : S2048.Idx → BitVec 32)) := by
    show StableHlo.after hostOps0_1 (V1 m c) (Proc.devRef .tc main_v0) = _
    after_results
    rfl
  -- and the first stretch writes the constants 0 and 15
  have e1a : (V1 m c main_c : S_.Idx → BitVec 32) = constantI S_ 32 0#32 := by
    show StableHlo.after hostOps0 (V0 m c) (Proc.devRef .tc main_c) = _
    after_results
  have e1b : (V1 m c main_c_0 : S_.Idx → BitVec 32) = constantI S_ 32 15#32 := by
    show StableHlo.after hostOps0 (V0 m c) (Proc.devRef .tc main_c_0) = _
    after_results
  have e1c : (V1 m c main_arg2 : S2048.Idx → BitVec 32) = m ((c.tc : Thread nD τ).loc main_arg2) :=
    (V1_of m c main_arg2 (by decide)).trans rfl
  rw [e5, e3, col_apply, e2, e1a, e1b, e1c]
  exact clamp_id _ (h t).1 (h t).2
/-- Region 0's result, as region 1 finds it. -/
theorem E1_v3 (c : Dev nD) : E1 m c main_v3 = (R0.dat (E0 m) c).arrAt 2 cfg0.N := by
  -- the stretch between the regions does not write it; region 0 left it at its write-backs' fold
  refine (V5_of m (outs4 m) c main_v3 (by decide)).trans ?_
  show V4 m (outs4 m) c main_v3 = _
  unfold V4
  rw [Function.update_self]
  exact W4_arr m c 2
/-- The language array and the later weights, as region 1 finds them. -/
theorem E1_arg0 (c : Dev nD) : E1 m c main_arg0 = (m ((c.tc : Thread nD τ).loc main_arg0)) := by
  exact V5_arg m c main_arg0 (by decide) (by decide) (by decide) (by decide) (by decide)
theorem E1_arg5 (c : Dev nD) : E1 m c main_arg5 = (m ((c.tc : Thread nD τ).loc main_arg5)) := by
  exact V5_arg m c main_arg5 (by decide) (by decide) (by decide) (by decide) (by decide)
theorem E1_arg7 (c : Dev nD) : E1 m c main_arg7 = (m ((c.tc : Thread nD τ).loc main_arg7)) := by
  exact V5_arg m c main_arg7 (by decide) (by decide) (by decide) (by decide) (by decide)
theorem E1_arg9 (c : Dev nD) : E1 m c main_arg9 = (m ((c.tc : Thread nD τ).loc main_arg9)) := by
  exact V5_arg m c main_arg9 (by decide) (by decide) (by decide) (by decide) (by decide)
theorem E1_arg11 (c : Dev nD) : E1 m c main_arg11 = (m ((c.tc : Thread nD τ).loc main_arg11)) := by
  exact V5_arg m c main_arg11 (by decide) (by decide) (by decide) (by decide) (by decide)
/-- The bias rows. -/
theorem E1_v4 (c : Dev nD) (f : Fin 1024) : (E1 m c main_v4 : S1x1024.Idx → EReal) (ix2 (0 : Fin 1) f) = ((m ((c.tc : Thread nD τ).loc main_arg4)) : S1024.Idx → EReal) (ix1 f) := by
  have e : (E1 m c main_v4 : S1x1024.Idx → EReal)
      = shapeCast S1x1024 (V4 m (outs4 m) c main_arg4 : S1024.Idx → EReal) shapeCasts_S1024_S1x1024 := by
    show StableHlo.after hostOps1 (V4 m (outs4 m) c) (Proc.devRef .tc main_v4) = _
    after_results
    rfl
  rw [e, row_apply]
  exact congrFun (V4_arg m c main_arg4 (by decide) (by decide) (by decide) (by decide)) _
theorem E1_v5 (c : Dev nD) (f : Fin 1024) : (E1 m c main_v5 : S1x1024.Idx → EReal) (ix2 (0 : Fin 1) f) = ((m ((c.tc : Thread nD τ).loc main_arg6)) : S1024.Idx → EReal) (ix1 f) := by
  have e : (E1 m c main_v5 : S1x1024.Idx → EReal)
      = shapeCast S1x1024 (V4 m (outs4 m) c main_arg6 : S1024.Idx → EReal) shapeCasts_S1024_S1x1024 := by
    show StableHlo.after hostOps1 (V4 m (outs4 m) c) (Proc.devRef .tc main_v5) = _
    after_results
    rfl
  rw [e, row_apply]
  exact congrFun (V4_arg m c main_arg6 (by decide) (by decide) (by decide) (by decide)) _
theorem E1_v6 (c : Dev nD) (f : Fin 1024) : (E1 m c main_v6 : S1x1024.Idx → EReal) (ix2 (0 : Fin 1) f) = ((m ((c.tc : Thread nD τ).loc main_arg8)) : S1024.Idx → EReal) (ix1 f) := by
  have e : (E1 m c main_v6 : S1x1024.Idx → EReal)
      = shapeCast S1x1024 (V4 m (outs4 m) c main_arg8 : S1024.Idx → EReal) shapeCasts_S1024_S1x1024 := by
    show StableHlo.after hostOps1 (V4 m (outs4 m) c) (Proc.devRef .tc main_v6) = _
    after_results
    rfl
  rw [e, row_apply]
  exact congrFun (V4_arg m c main_arg8 (by decide) (by decide) (by decide) (by decide)) _
theorem E1_v7 (c : Dev nD) (f : Fin 1024) : (E1 m c main_v7 : S1x1024.Idx → EReal) (ix2 (0 : Fin 1) f) = ((m ((c.tc : Thread nD τ).loc main_arg10)) : S1024.Idx → EReal) (ix1 f) := by
  have e : (E1 m c main_v7 : S1x1024.Idx → EReal)
      = shapeCast S1x1024 (V4 m (outs4 m) c main_arg10 : S1024.Idx → EReal) shapeCasts_S1024_S1x1024 := by
    show StableHlo.after hostOps1 (V4 m (outs4 m) c) (Proc.devRef .tc main_v7) = _
    after_results
    rfl
  rw [e, row_apply]
  exact congrFun (V4_arg m c main_arg10 (by decide) (by decide) (by decide) (by decide)) _
theorem E1_v8 (c : Dev nD) (f : Fin 6) : (E1 m c main_v8 : S1x6.Idx → EReal) (ix2 (0 : Fin 1) f) = ((m ((c.tc : Thread nD τ).loc main_arg12)) : S6.Idx → EReal) (ix1 f) := by
  have e : (E1 m c main_v8 : S1x6.Idx → EReal)
      = shapeCast S1x6 (V4 m (outs4 m) c main_arg12 : S6.Idx → EReal) shapeCasts_S6_S1x6 := by
    show StableHlo.after hostOps1 (V4 m (outs4 m) c) (Proc.devRef .tc main_v8) = _
    after_results
    rfl
  rw [e, row_apply]
  exact congrFun (V4_arg m c main_arg12 (by decide) (by decide) (by decide) (by decide)) _

end Cert.KernelIdeal.HostReads

end
-- ==== Proof.PreIdx.lean ====
/-
  The precondition says, among its conjuncts, that every token's index word names one of the sixteen samples.
-/
import proofs.«425794_j25228637897251_3_alg».proof.Defs
import proofs.«425794_j25228637897251_3_alg».proof.Proof.Gen.Pre_finite_inputs
import proofs.«425794_j25228637897251_3_alg».proof.Proof.Spec
import Idealize.ShloMosaic.Lib.ReduceAll
import Idealize.ShloMosaic.Lib.StableHlo.Predicate
import Idealize.ShloMosaic.Lib.ValueIdx

noncomputable section

namespace Cert.PreIdx

open Idealize.ShloMosaic Idealize.ShloMosaic.TcCoe Idealize.ShloMosaic.ValueIdx Idealize.SL.Sem Cert.Spec

/-- The result shape of a reduction over every axis has a single index. -/
instance subsingleton_scalar_idx : Subsingleton Cert.Pre_finite_inputs.S_.Idx := ⟨fun a b => funext fun d => d.elim0⟩

/-- The last part of the printed predicate ends in the conjunction of its two index conjuncts: where it is one, every
    index word is at least the broadcast zero and below the broadcast sixteen, read signed. -/
theorem part3_idx {F : FTy → Type} [FloatOps F] [hF : Cert.Pre_finite_inputs.Facts]
    (a2 : IVec Cert.Pre_finite_inputs.S2048 32) (a12 : FVec F Cert.Pre_finite_inputs.S6 .f32)
    (v48 : IVec Cert.Pre_finite_inputs.S_ 1) (v49 v50 : FVec F Cert.Pre_finite_inputs.S1024x6 .f32)
    (h : Cert.Pre_finite_inputs.fn_part3 (F := F) a2 a12 v48 v49 v50 ValueIdx.ix0 = 1#1)
    (i : Cert.Pre_finite_inputs.S2048.Idx) : 0 ≤ (a2 i).toInt ∧ (a2 i).toInt < 16 := by
  -- the outermost conjunction: everything before, and "below sixteen everywhere"
  obtain ⟨h62, h65⟩ := IntOp.andi_eq_one.1 h
  -- the next one in: everything before, and "at least zero everywhere"
  obtain ⟨h58, h61⟩ := IntOp.andi_eq_one.1 h62
  -- a reduction by "and" that is one had a one at every entry
  have hge := Host.reduce_andi_all _ _ _ _ _ h61 i
  have hlt := Host.reduce_andi_all _ _ _ _ _ h65 i
  -- an entry of a signed compare that is one says the order of the two words read signed
  have hge' : (0#32).toInt ≤ (a2 i).toInt := IntOp.cmpi_sge.1 hge
  have hlt' : (a2 i).toInt < (16#32).toInt := IntOp.cmpi_slt.1 hlt
  have e0 : (0#32).toInt = 0 := by rfl
  have e16 : (16#32).toInt = 16 := by rfl
  rw [e0] at hge'
  rw [e16] at hlt'
  exact ⟨hge', hlt'⟩

/-- From the printed precondition at the thirteen arrays: the index vector is in range. -/
theorem inRange_of_fn (x0 : (⟨Cert.Pre_finite_inputs.S2048x4096, .f32⟩ : BufTy).Contents (Elt Ideal)) (x1 : (⟨Cert.Pre_finite_inputs.S16x32x1024, .f32⟩ : BufTy).Contents (Elt Ideal)) (x2 : (⟨Cert.Pre_finite_inputs.S2048, .i32⟩ : BufTy).Contents (Elt Ideal))
    (x3 : (⟨Cert.Pre_finite_inputs.S36864x1024, .f32⟩ : BufTy).Contents (Elt Ideal)) (x4 : (⟨Cert.Pre_finite_inputs.S1024, .f32⟩ : BufTy).Contents (Elt Ideal)) (x5 : (⟨Cert.Pre_finite_inputs.S1024x1024, .f32⟩ : BufTy).Contents (Elt Ideal)) (x6 : (⟨Cert.Pre_finite_inputs.S1024, .f32⟩ : BufTy).Contents (Elt Ideal))
    (x7 : (⟨Cert.Pre_finite_inputs.S1024x1024, .f32⟩ : BufTy).Contents (Elt Ideal)) (x8 : (⟨Cert.Pre_finite_inputs.S1024, .f32⟩ : BufTy).Contents (Elt Ideal)) (x9 : (⟨Cert.Pre_finite_inputs.S1024x1024, .f32⟩ : BufTy).Contents (Elt Ideal)) (x10 : (⟨Cert.Pre_finite_inputs.S1024, .f32⟩ : BufTy).Contents (Elt Ideal))
    (x11 : (⟨Cert.Pre_finite_inputs.S1024x6, .f32⟩ : BufTy).Contents (Elt Ideal)) (x12 : (⟨Cert.Pre_finite_inputs.S6, .f32⟩ : BufTy).Contents (Elt Ideal))
    [hF : Cert.Pre_finite_inputs.Facts]
    (h : Cert.Pre_finite_inputs.fn (F := Ideal) x0 x1 x2 x3 x4 x5 x6 x7 x8 x9 x10 x11 x12 = (fun _ => 1#1)) : InRange x2 := by
  have h0 := congrFun h ValueIdx.ix0
  -- the predicate is its three parts in a chain; the last part carries the index conjuncts
  unfold Cert.Pre_finite_inputs.fn Cert.Pre_finite_inputs.fn_part1 Cert.Pre_finite_inputs.fn_part2 at h0
  intro t
  exact part3_idx (F := Ideal) _ _ _ _ _ h0 (ix1 t)

end Cert.PreIdx

end
-- ==== Proof.LibRowGatherScatter.lean ====
/-
  Three host indexing operations read at an index, for any extents: the gather of whole rows of an
  [N × C] table named by an [E × 1] column of row numbers (jnp's table[idx, :]), and the accumulating
  float scatters that add E updates (rows of an [E × C] array, or the entries of an [E] vector) into the
  rows (entries) those row numbers name (jnp's .at[idx].add, segment_sum), at the exact-arithmetic instance
  where the accumulation is a plain sum.
-/
import Idealize.ShloMosaic.PureOps.Ideal
import Idealize.ShloMosaic.PureOps.Contract
import Idealize.ShloMosaic.Lib.ValueIdx

noncomputable section

namespace Idealize.ShloMosaic.RowOps

open Idealize.ShloMosaic Idealize.ShloMosaic.ValueIdx

/-- Row e of the gathered array is the table's row at e's row number, read signed and clamped into the table. -/
theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![E, 1]⟩ w) (e : Fin E) (k : Fin C) (hN : 0 < N) :
    Host.gather d x idx (ix2 e k) = x (ix2 (⟨min (idx (ix2 e (0 : Fin 1))).toInt.toNat (N - 1), by omega⟩ : Fin N) k) := by
  unfold Host.gather
  congr 1
  funext a
  -- the result's one batch axis is axis 0 (axis 1 is its offset axis); no operand axis is a batching axis
  have hbd : d.batchDims = [0] := by
    show (⟨2, ![E, C]⟩ : Shape).kept d.offsetDims = [0]
    rw [hoff]; rfl
  have hob0 : ∀ a : Fin 2, a ∉ d.operandBatchingDims := fun a => by rw [hob]; exact List.not_mem_nil
  -- every entry of a one-element list of axes is that axis, whatever position it is read at
  have hall0 : ∀ X ∈ d.batchDims, X = 0 := fun X hX => by rw [hbd] at hX; exact List.mem_singleton.1 hX
  have hall1 : ∀ X ∈ d.offsetDims, X = 1 := fun X hX => by rw [hoff] at hX; exact List.mem_singleton.1 hX
  have coord0 : ∀ X : Fin 2, X = 0 → ((ix2 e k) X).val = e.val := fun X h => by subst h; rfl
  have coord1 : ∀ X : Fin 2, X = 1 → ((ix2 e k) X).val = k.val := fun X h => by subst h; rfl
  match a with
  | ⟨0, _⟩ =>
    -- operand axis 0: collapsed (slice size 1, no offset coordinate) and start-indexed: the clamped row number
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e k) idx 0 + d.batchCoord (ix2 e k) 0 + d.offCoord (ix2 e k) 0 = min (idx (ix2 e 0)).toInt.toNat (N - 1)
    rw [GatherDims.batchCoord_eq_zero _ _ _ (hob0 0), GatherDims.offCoord_eq_zero _ _ _ hk]
    simp only [Nat.add_zero]
    unfold GatherDims.start
    rw [dif_pos hm]
    show min (idx _).toInt.toNat (N - d.sliceSizes 0) = _
    rw [hsl]
    congr 3
    congr 1
    -- the start index is read at (e, 0): e from the result's batch coordinate, 0 the one component of the index vector
    funext b
    match b with
    | ⟨0, _⟩ =>
      unfold GatherDims.siIdx
      rw [dif_neg (by rw [hivd]; simp)]
      unfold GatherDims.siCoord
      apply Fin.ext
      simp only [Fin.val_cast]
      exact coord0 _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- operand axis 1: not start-indexed (start 0), kept whole: the offset coordinate is the result's coordinate on axis 1
    apply Fin.ext
    have hk : (1 : Fin 2) ∈ d.sKept := by rw [GatherDims.mem_sKept, hcoll]; exact ⟨by simp, hob0 1⟩
    have hm : (1 : Fin 2) ∉ d.startIndexMap := by rw [hsim]; simp
    show d.start (ix2 e k) idx 1 + d.batchCoord (ix2 e k) 1 + d.offCoord (ix2 e k) 1 = k.val
    rw [GatherDims.batchCoord_eq_zero _ _ _ (hob0 1)]
    unfold GatherDims.start GatherDims.offCoord
    rw [dif_neg hm, dif_pos hk]
    simp only [Nat.add_zero, Nat.zero_add]
    exact coord1 _ (hall1 _ (List.getElem_mem _))

/-- Where one update lands: update (e, k') lands on (i, k) exactly when e's row number, read signed, is i and k' is k.
    On axis 0 (inserted: no window coordinate) the landing coordinate is the row number itself, not clamped, so a
    negative one or one past the table lands nowhere; on axis 1 (start 0) it is the update's own coordinate k', always
    inside the row. -/
private theorem resultIdx_rows_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (k' : Fin C) (i : Fin N) (k : Fin C) :
    d.resultIdx? (ix2 e k') idx = some (ix2 i k) ↔ (idx (ix2 e (0 : Fin 1))).toInt = (i.val : Int) ∧ k' = k := by
  -- the updates' one scatter axis is axis 0 (axis 1 is their window axis); the operand's one window axis is axis 1
  have hus : d.uScatter = [0] := by
    show (⟨2, ![E, C]⟩ : Shape).kept d.updateWindowDims = [0]
    rw [huw]; rfl
  have hsk : d.sKept = [1] := by
    show (⟨2, ![N, C]⟩ : Shape).kept d.insertedWindowDims = [1]
    rw [hiw]; rfl
  have hall0 : ∀ X ∈ d.uScatter, X = 0 := fun X hX => by rw [hus] at hX; exact List.mem_singleton.1 hX
  have hall1 : ∀ X ∈ d.updateWindowDims, X = 1 := fun X hX => by rw [huw] at hX; exact List.mem_singleton.1 hX
  have coord0 : ∀ X : Fin 2, X = 0 → ((ix2 e k') X).val = e.val := fun X h => by subst h; rfl
  have coord1 : ∀ X : Fin 2, X = 1 → ((ix2 e k') X).val = k'.val := fun X h => by subst h; rfl
  -- the four ingredients of the landing index: start and window coordinate on each operand axis
  have hst0 : d.start (ix2 e k') idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _ (hall0 _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e k') 0 = 0 := by
    unfold ScatterDims.window; rw [dif_neg (by rw [hsk]; simp)]
  have hst1 : d.start (ix2 e k') idx 1 = 0 := by
    unfold ScatterDims.start; rw [dif_neg (by rw [hsd]; simp)]
  have hw1 : d.window (ix2 e k') 1 = k'.val := by
    unfold ScatterDims.window; rw [dif_pos (by rw [hsk]; simp)]
    exact coord1 _ (hall1 _ (List.getElem_mem _))
  unfold ScatterDims.resultIdx?
  split
  · -- the landing index is inside the operand: compare it with (i, k) coordinate by coordinate
    rename_i h
    rw [Option.some.injEq]
    constructor
    · intro hf
      have h0 : (d.start (ix2 e k') idx 0 + d.window (ix2 e k') 0).toNat = i.val := congrArg (fun f => (f 0).val) hf
      have h1 : (d.start (ix2 e k') idx 1 + d.window (ix2 e k') 1).toNat = k.val := congrArg (fun f => (f 1).val) hf
      have hh := (h 0).1
      rw [hst0, hw0] at h0 hh
      rw [hst1, hw1] at h1
      exact ⟨by omega, Fin.ext (by omega)⟩
    · rintro ⟨hi, rfl⟩
      funext a
      match a with
      | ⟨0, _⟩ =>
        apply Fin.ext
        show (d.start (ix2 e k') idx 0 + d.window (ix2 e k') 0).toNat = i.val
        rw [hst0, hw0, hi]; omega
      | ⟨1, _⟩ =>
        apply Fin.ext
        show (d.start (ix2 e k') idx 1 + d.window (ix2 e k') 1).toNat = k'.val
        rw [hst1, hw1]; omega
  · -- the landing index leaves the operand: then the row number is no row of the table, i least of all
    rename_i h
    constructor
    · intro hf; exact absurd hf (by simp)
    · rintro ⟨hi, rfl⟩
      exfalso; apply h
      intro a
      match a with
      | ⟨0, _⟩ =>
        show 0 ≤ d.start (ix2 e k') idx 0 + d.window (ix2 e k') 0 ∧ d.start (ix2 e k') idx 0 + d.window (ix2 e k') 0 < (N : Int)
        rw [hst0, hw0, hi]; have := i.isLt; omega
      | ⟨1, _⟩ =>
        show 0 ≤ d.start (ix2 e k') idx 1 + d.window (ix2 e k') 1 ∧ d.start (ix2 e k') idx 1 + d.window (ix2 e k') 1 < (C : Int)
        rw [hst1, hw1]; have := k'.isLt; omega

/-- Entry (i, k) after the scatter: what was there plus the updates' entries (e, k) over the e whose row number is i. -/
theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd d x idx upd (ix2 i k)
      = x (ix2 i k) + ∑ e : Fin E, if (idx (ix2 e (0 : Fin 1))).toInt = (i.val : Int) then upd (ix2 e k) else 0 := by
  unfold Ideal.hostScatterAdd
  congr 1
  -- the sum over the updates that land on (i, k), as a double sum over (e, k') of the updates guarded by "lands on (i, k)"
  rw [Finset.sum_filter, sum_idx2]
  refine Finset.sum_congr rfl fun e _ => ?_
  by_cases he : (idx (ix2 e (0 : Fin 1))).toInt = (i.val : Int)
  · -- row e is aimed at row i: of its C entries exactly the one in column k lands on (i, k)
    rw [if_pos he, Finset.sum_eq_single k]
    · rw [if_pos ((resultIdx_rows_iff d huw hiw hsd hivd idx e k i k).2 ⟨he, rfl⟩)]
    · intro k' _ hk'
      rw [if_neg fun h => hk' ((resultIdx_rows_iff d huw hiw hsd hivd idx e k' i k).1 h).2]
    · intro h; exact absurd (Finset.mem_univ k) h
  · -- row e is aimed elsewhere (or nowhere): none of its entries lands on (i, k)
    rw [if_neg he]
    refine Finset.sum_eq_zero fun k' _ => ?_
    rw [if_neg fun h => he ((resultIdx_rows_iff d huw hiw hsd hivd idx e k' i k).1 h).1]

/-- A sum over a rank-1 index set is the sum over its one coordinate. -/
private theorem sum_idx1 {M : Type*} [AddCommMonoid M] {n : Nat} (f : (⟨1, ![n]⟩ : Shape).Idx → M) :
    ∑ j, f j = ∑ a : Fin n, f (ix1 a) := by
  let φ : (⟨1, ![n]⟩ : Shape).Idx ≃ Fin n :=
    { toFun := fun j => j 0, invFun := fun a => ix1 a, left_inv := fun j => (eq_ix1 j).symm, right_inv := fun _ => rfl }
  rw [← Equiv.sum_comp φ.symm f]
  rfl

/-- Where one update of a vector lands: update e lands on entry i exactly when e's row number, read signed, is i (the
    operand's one axis is inserted: the landing coordinate is the row number itself, not clamped). -/
private theorem resultIdx_vec_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  -- the operand has no window axis
  have hsk : d.sKept = [] := by
    show (⟨1, ![N]⟩ : Shape).kept d.insertedWindowDims = []
    rw [hiw]; rfl
  have coord0 : ∀ X : Fin 1, ((ix1 e) X).val = e.val := fun X => by
    obtain rfl : X = 0 := Subsingleton.elim _ _
    rfl
  have hst0 : d.start (ix1 e) idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _
    | ⟨1, _⟩ =>
      unfold ScatterDims.siIdx
      rw [dif_pos (by rw [hivd])]
      apply Fin.ext
      show List.idxOf (0 : Fin 1) d.scatterDimsToOperandDims = 0
      rw [hsd]; simp
  have hw0 : d.window (ix1 e) 0 = 0 := by
    unfold ScatterDims.window; rw [dif_neg (by rw [hsk]; simp)]
  have hax : ∀ a : Fin 1, a = 0 := fun a => Subsingleton.elim _ _
  unfold ScatterDims.resultIdx?
  split
  · rename_i h
    rw [Option.some.injEq]
    constructor
    · intro hf
      have h0 : (d.start (ix1 e) idx 0 + d.window (ix1 e) 0).toNat = i.val := congrArg (fun f => (f 0).val) hf
      have hh := (h 0).1
      rw [hst0, hw0] at h0 hh
      omega
    · intro hi
      funext a
      obtain rfl := hax a
      apply Fin.ext
      show (d.start (ix1 e) idx 0 + d.window (ix1 e) 0).toNat = i.val
      rw [hst0, hw0, hi]; omega
  · rename_i h
    constructor
    · intro hf; exact absurd hf (by simp)
    · intro hi
      exfalso; apply h
      intro a
      obtain rfl := hax a
      show 0 ≤ d.start (ix1 e) idx 0 + d.window (ix1 e) 0 ∧ d.start (ix1 e) idx 0 + d.window (ix1 e) 0 < (N : Int)
      rw [hst0, hw0, hi]; have := i.isLt; omega

/-- Entry i after the scatter of a vector: what was there plus the updates over the e whose row number is i. -/
theorem scatterAdd_vec_apply {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e : Fin E, if (idx (ix2 e (0 : Fin 1))).toInt = (i.val : Int) then upd (ix1 e) else 0 := by
  unfold Ideal.hostScatterAdd
  congr 1
  rw [Finset.sum_filter, sum_idx1]
  refine Finset.sum_congr rfl fun e _ => ?_
  by_cases he : (idx (ix2 e (0 : Fin 1))).toInt = (i.val : Int)
  · rw [if_pos he, if_pos ((resultIdx_vec_iff d huw hiw hsd hivd idx e i).2 he)]
  · rw [if_neg he, if_neg fun h => he ((resultIdx_vec_iff d huw hiw hsd hivd idx e i).1 h)]

end Idealize.ShloMosaic.RowOps

end
-- ==== Proof.RefValue.lean ====
/-
  The reference's value, entry by entry: token `t`, output `o` of its result is the five layers on the row gathered
  for the token (its sample's flattened vision row, then its language row).
-/
import proofs.«425794_j25228637897251_3_alg».proof.Proof.Gen.ReferenceIdeal.Read
import proofs.«425794_j25228637897251_3_alg».proof.Proof.Spec
import proofs.«425794_j25228637897251_3_alg».proof.Proof.LibRowGatherScatter
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.Spec

/-- A word that reads as a non-negative number is not below zero in the signed order, so the select keeps it. -/
theorem word_v5 (x2 : (⟨S2048, .i32⟩ : BufTy).Contents (Elt Ideal)) (h : InRange x2) (t : Fin 2048) :
    val_main_v5 (F := Ideal) x2 (ix1 t) = x2 (ix1 t) := by
  rw [val_main_v5_apply, val_main_v2_apply, val_main_v1_apply, val_main_c_apply]
  have h0 := (h t).1
  have hs : (x2 (ix1 t)).slt 0#32 = false := by
    rw [BitVec.slt_eq_decide]
    simp only [BitVec.toInt_zero, decide_eq_false_iff_not, not_lt]
    exact h0
  show Scalar.select (BitVec.ofBool ((x2 (ix1 t)).slt 0#32)) _ _ = _
  rw [hs]
  rfl

/-- The column of row numbers at (t, 0) is token t's index word. -/
theorem word_v6 (x2 : (⟨S2048, .i32⟩ : BufTy).Contents (Elt Ideal)) (h : InRange x2) (t : Fin 2048) :
    val_main_v6 (F := Ideal) x2 (ix2 t (0 : Fin 1)) = x2 (ix1 t) := by
  rw [val_main_v6_apply]
  have e : idx_main_v6 (ix2 t (0 : Fin 1)) = ix1 t := funext fun a => Fin.ext (by match a with | ⟨0, _⟩ => rfl)
  rw [e]
  exact word_v5 x2 h t

/-- The flattened table's entry (b, j) is the vision array's entry at sample b, j's quotient and remainder by 1024. -/
theorem table_v0 (x1 : (⟨S16x32x1024, .f32⟩ : BufTy).Contents (Elt Ideal)) (b : Fin 16) (j : Fin 32768) :
    val_main_v0 (F := Ideal) x1 (ix2 b j) = x1 (visAt b j) := by
  rw [val_main_v0_apply]
  have e : idx_main_v0 (ix2 b j) = visAt b j := funext fun a => Fin.ext (by
    have hb := b.isLt
    have hj := j.isLt
    match a with
    | ⟨0, _⟩ => show (b.val * 32768 + j.val) / 32768 = b.val; omega
    | ⟨1, _⟩ => show (b.val * 32768 + j.val) / 1024 % 32 = j.val / 1024; omega
    | ⟨2, _⟩ => show (b.val * 32768 + j.val) % 1024 = j.val % 1024; omega)
  rw [e]

/-- Row t of the gathered array is the flattened table's row of the sample token t's word names. -/
theorem gathered_v7 (x1 : (⟨S16x32x1024, .f32⟩ : BufTy).Contents (Elt Ideal)) (x2 : (⟨S2048, .i32⟩ : BufTy).Contents (Elt Ideal))
    (h : InRange x2) (t : Fin 2048) (j : Fin 32768) :
    val_main_v7 (F := Ideal) x1 x2 (ix2 t j) = x1 (visAt (sel (x2 (ix1 t))) j) := by
  unfold val_main_v7
  rw [RowOps.gather_rows_apply (N := 16) (C := 32768) (E := 2048) (w := 32)
    gather_S16x32768_S2048x1_S2048x32768_1_0_n_n_0_1_132768 rfl rfl rfl rfl rfl rfl
    (val_main_v0 (F := Ideal) x1) (val_main_v6 (F := Ideal) x2) t j (by decide)]
  have e : (⟨min (val_main_v6 (F := Ideal) x2 (ix2 t (0 : Fin 1))).toInt.toNat (16 - 1), by omega⟩ : Fin 16) = sel (x2 (ix1 t)) := by
    apply Fin.ext
    show min (val_main_v6 (F := Ideal) x2 (ix2 t (0 : Fin 1))).toInt.toNat (16 - 1) = min (x2 (ix1 t)).toInt.toNat 15
    rw [word_v6 x2 h t]
  rw [e]
  exact table_v0 x1 _ j

/-- The joined array's first 32768 columns are the gathered array's. -/
theorem joined_left (x0 : (⟨S2048x4096, .f32⟩ : BufTy).Contents (Elt Ideal)) (x1 : (⟨S16x32x1024, .f32⟩ : BufTy).Contents (Elt Ideal))
    (x2 : (⟨S2048, .i32⟩ : BufTy).Contents (Elt Ideal)) (t : Fin 2048) (j : Fin 32768) :
    val_main_v8 (F := Ideal) x0 x1 x2 (ix2 t (⟨j.val, by omega⟩ : Fin 36864)) = val_main_v7 (F := Ideal) x1 x2 (ix2 t j) := by
  unfold val_main_v8
  exact concatenate_pair_apply_left 1 (val_main_v7 (F := Ideal) x1 x2) x0 concatenates_S2048x32768_S2048x4096_S2048x36864_d1 _ rfl _
    (fun b => by
      match b with
      | ⟨0, _⟩ => rfl
      | ⟨1, _⟩ => rfl)

/-- The joined array's last 4096 columns are the language array's. -/
theorem joined_right (x0 : (⟨S2048x4096, .f32⟩ : BufTy).Contents (Elt Ideal)) (x1 : (⟨S16x32x1024, .f32⟩ : BufTy).Contents (Elt Ideal))
    (x2 : (⟨S2048, .i32⟩ : BufTy).Contents (Elt Ideal)) (t : Fin 2048) (j : Fin 4096) :
    val_main_v8 (F := Ideal) x0 x1 x2 (ix2 t (⟨32768 + j.val, by omega⟩ : Fin 36864)) = x0 (ix2 t j) := by
  unfold val_main_v8
  exact concatenate_pair_apply_right 1 (val_main_v7 (F := Ideal) x1 x2) x0 concatenates_S2048x32768_S2048x4096_S2048x36864_d1 _ rfl rfl _
    (fun b hb => by
      match b with
      | ⟨0, _⟩ => rfl
      | ⟨1, _⟩ => exact absurd rfl hb)
    (by show j.val + 32768 = 32768 + j.val; omega)

/-- A sum over 36864 terms is the sum of its first 32768 and of its last 4096. -/
theorem sum_split (f : Fin 36864 → EReal) :
    ∑ k : Fin 36864, f k = (∑ j : Fin 32768, f ⟨j.val, by omega⟩) + ∑ j : Fin 4096, f ⟨32768 + j.val, by omega⟩ :=
  Fin.sum_univ_add (M := EReal) (a := 32768) (b := 4096) f

/-- The first layer before the clamp: the gathered vision row and the language row against the first weights, plus the bias. -/
theorem layer1_pre (x0 : (⟨S2048x4096, .f32⟩ : BufTy).Contents (Elt Ideal)) (x1 : (⟨S16x32x1024, .f32⟩ : BufTy).Contents (Elt Ideal))
    (x2 : (⟨S2048, .i32⟩ : BufTy).Contents (Elt Ideal)) (x3 : (⟨S36864x1024, .f32⟩ : BufTy).Contents (Elt Ideal))
    (x4 : (⟨S1024, .f32⟩ : BufTy).Contents (Elt Ideal)) (h : InRange x2) (t : Fin 2048) (f : Fin 1024) :
    val_main_v12 (F := Ideal) x0 x1 x2 x3 x4 (ix2 t f)
      = first (fun j => x1 (visAt (sel (x2 (ix1 t))) j)) (fun j => x0 (ix2 t j)) (fun j f => x3 (ix2 j f)) f + x4 (ix1 f) := by
  rw [val_main_v12_apply, Ideal.addf_def, val_main_v9_apply, val_main_v11_apply, val_main_v10_apply]
  have el : ∀ k : Fin 36864, lidx_main_v9 (ix2 t f) k = ix2 t k := fun k =>
    funext fun a => Fin.ext (by match a with | ⟨0, _⟩ => rfl | ⟨1, _⟩ => rfl)
  have er : ∀ k : Fin 36864, ridx_main_v9 (ix2 t f) k = ix2 k f := fun k =>
    funext fun a => Fin.ext (by match a with | ⟨0, _⟩ => rfl | ⟨1, _⟩ => rfl)
  have eb : idx_main_v10 (idx_main_v11 (ix2 t f)) = ix1 f :=
    funext fun a => Fin.ext (by match a with | ⟨0, _⟩ => rfl)
  have h1 : ∀ j : Fin 32768,
      val_main_v8 (F := Ideal) x0 x1 x2 (lidx_main_v9 (ix2 t f) (⟨j.val, by omega⟩ : Fin 36864)) * x3 (ridx_main_v9 (ix2 t f) (⟨j.val, by omega⟩ : Fin 36864))
        = x1 (visAt (sel (x2 (ix1 t))) j) * x3 (ix2 (⟨j.val, by omega⟩ : Fin 36864) f) := fun j => by
    rw [el, er, joined_left, gathered_v7 x1 x2 h]
  have h2 : ∀ j : Fin 4096,
      val_main_v8 (F := Ideal) x0 x1 x2 (lidx_main_v9 (ix2 t f) (⟨32768 + j.val, by omega⟩ : Fin 36864)) * x3 (ridx_main_v9 (ix2 t f) (⟨32768 + j.val, by omega⟩ : Fin 36864))
        = x0 (ix2 t j) * x3 (ix2 (⟨32768 + j.val, by omega⟩ : Fin 36864) f) := fun j => by
    rw [el, er, joined_right]
  rw [eb, sum_split, Finset.sum_congr rfl (fun j _ => h1 j), Finset.sum_congr rfl (fun j _ => h2 j)]
  rfl

/-- The array every clamp compares with is zero everywhere. -/
theorem zero_call0 (i : S2048x1024.Idx) : val_main_call0_v0 (F := Ideal) i = 0 := by
  rw [val_main_call0_v0_apply, val_main_call0_cst_apply, Ideal.ofBits_def, Ideal.ofBits_zero_f32]
theorem zero_call1 (i : S2048x1024.Idx) : val_main_call1_v0 (F := Ideal) i = 0 := by
  rw [val_main_call1_v0_apply, val_main_call1_cst_apply, Ideal.ofBits_def, Ideal.ofBits_zero_f32]
theorem zero_call2 (i : S2048x1024.Idx) : val_main_call2_v0 (F := Ideal) i = 0 := by
  rw [val_main_call2_v0_apply, val_main_call2_cst_apply, Ideal.ofBits_def, Ideal.ofBits_zero_f32]
theorem zero_call3 (i : S2048x1024.Idx) : val_main_call3_v0 (F := Ideal) i = 0 := by
  rw [val_main_call3_v0_apply, val_main_call3_cst_apply, Ideal.ofBits_def, Ideal.ofBits_zero_f32]

/-- Token t's row after the first layer and its clamp. -/
def act1 (x0 : (⟨2, ![2048, 4096]⟩ : Shape).Idx → EReal) (x1 : (⟨3, ![16, 32, 1024]⟩ : Shape).Idx → EReal) (x2 : (⟨1, ![2048]⟩ : Shape).Idx → BitVec 32)
    (x3 : (⟨2, ![36864, 1024]⟩ : Shape).Idx → EReal) (x4 : (⟨1, ![1024]⟩ : Shape).Idx → EReal) (t : Fin 2048) : Fin 1024 → EReal :=
  relu (fun f => first (fun j => x1 (visAt (sel (x2 (ix1 t))) j)) (fun j => x0 (ix2 t j)) (fun j f => x3 (ix2 j f)) f + x4 (ix1 f))

theorem layer1 (x0 : (⟨S2048x4096, .f32⟩ : BufTy).Contents (Elt Ideal)) (x1 : (⟨S16x32x1024, .f32⟩ : BufTy).Contents (Elt Ideal))
    (x2 : (⟨S2048, .i32⟩ : BufTy).Contents (Elt Ideal)) (x3 : (⟨S36864x1024, .f32⟩ : BufTy).Contents (Elt Ideal))
    (x4 : (⟨S1024, .f32⟩ : BufTy).Contents (Elt Ideal)) (h : InRange x2) (t : Fin 2048) (f : Fin 1024) :
    val_main_v13 (F := Ideal) x0 x1 x2 x3 x4 (ix2 t f) = act1 x0 x1 x2 x3 x4 t f := by
  rw [val_main_v13_apply, Ideal.maximumf_def, zero_call0, layer1_pre x0 x1 x2 x3 x4 h t f]
  rfl

/-- Token t's row after the second layer and its clamp. -/
def act2 (x0 : (⟨2, ![2048, 4096]⟩ : Shape).Idx → EReal) (x1 : (⟨3, ![16, 32, 1024]⟩ : Shape).Idx → EReal) (x2 : (⟨1, ![2048]⟩ : Shape).Idx → BitVec 32)
    (x3 : (⟨2, ![36864, 1024]⟩ : Shape).Idx → EReal) (x4 : (⟨1, ![1024]⟩ : Shape).Idx → EReal) (x5 : (⟨2, ![1024, 1024]⟩ : Shape).Idx → EReal)
    (x6 : (⟨1, ![1024]⟩ : Shape).Idx → EReal) (t : Fin 2048) : Fin 1024 → EReal :=
  relu (dense (fun k f => x5 (ix2 k f)) (fun f => x6 (ix1 f)) (act1 x0 x1 x2 x3 x4 t))

theorem layer2 (x0 : (⟨S2048x4096, .f32⟩ : BufTy).Contents (Elt Ideal)) (x1 : (⟨S16x32x1024, .f32⟩ : BufTy).Contents (Elt Ideal))
    (x2 : (⟨S2048, .i32⟩ : BufTy).Contents (Elt Ideal)) (x3 : (⟨S36864x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (h : InRange x2) (t : Fin 2048) (f : Fin 1024) :
    val_main_v18 (F := Ideal) x0 x1 x2 x3 x4 x5 x6 (ix2 t f) = act2 x0 x1 x2 x3 x4 x5 x6 t f := by
  rw [val_main_v18_apply, Ideal.maximumf_def, zero_call1, val_main_v17_apply, Ideal.addf_def, val_main_v14_apply,
    val_main_v16_apply, val_main_v15_apply]
  have el : ∀ k : Fin 1024, lidx_main_v14 (ix2 t f) k = ix2 t k := fun k =>
    funext fun a => Fin.ext (by match a with | ⟨0, _⟩ => rfl | ⟨1, _⟩ => rfl)
  have er : ∀ k : Fin 1024, ridx_main_v14 (ix2 t f) k = ix2 k f := fun k =>
    funext fun a => Fin.ext (by match a with | ⟨0, _⟩ => rfl | ⟨1, _⟩ => rfl)
  have eb : idx_main_v15 (idx_main_v16 (ix2 t f)) = ix1 f :=
    funext fun a => Fin.ext (by match a with | ⟨0, _⟩ => rfl)
  have hk : ∀ k : Fin 1024,
      val_main_v13 (F := Ideal) x0 x1 x2 x3 x4 (lidx_main_v14 (ix2 t f) k) * x5 (ridx_main_v14 (ix2 t f) k)
        = act1 x0 x1 x2 x3 x4 t k * x5 (ix2 k f) := fun k => by
    rw [el, er, layer1 x0 x1 x2 x3 x4 h t k]
  rw [eb, Finset.sum_congr rfl (fun k _ => hk k)]
  rfl

/-- Token t's row after the third layer and its clamp. -/
def act3 (x0 : (⟨2, ![2048, 4096]⟩ : Shape).Idx → EReal) (x1 : (⟨3, ![16, 32, 1024]⟩ : Shape).Idx → EReal) (x2 : (⟨1, ![2048]⟩ : Shape).Idx → BitVec 32)
    (x3 : (⟨2, ![36864, 1024]⟩ : Shape).Idx → EReal) (x4 : (⟨1, ![1024]⟩ : Shape).Idx → EReal) (x5 : (⟨2, ![1024, 1024]⟩ : Shape).Idx → EReal)
    (x6 : (⟨1, ![1024]⟩ : Shape).Idx → EReal) (x7 : (⟨2, ![1024, 1024]⟩ : Shape).Idx → EReal) (x8 : (⟨1, ![1024]⟩ : Shape).Idx → EReal)
    (t : Fin 2048) : Fin 1024 → EReal :=
  relu (dense (fun k f => x7 (ix2 k f)) (fun f => x8 (ix1 f)) (act2 x0 x1 x2 x3 x4 x5 x6 t))

theorem layer3 (x0 : (⟨S2048x4096, .f32⟩ : BufTy).Contents (Elt Ideal)) (x1 : (⟨S16x32x1024, .f32⟩ : BufTy).Contents (Elt Ideal))
    (x2 : (⟨S2048, .i32⟩ : BufTy).Contents (Elt Ideal)) (x3 : (⟨S36864x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) (h : InRange x2) (t : Fin 2048) (f : Fin 1024) :
    val_main_v23 (F := Ideal) x0 x1 x2 x3 x4 x5 x6 x7 x8 (ix2 t f) = act3 x0 x1 x2 x3 x4 x5 x6 x7 x8 t f := by
  rw [val_main_v23_apply, Ideal.maximumf_def, zero_call2, val_main_v22_apply, Ideal.addf_def, val_main_v19_apply,
    val_main_v21_apply, val_main_v20_apply]
  have el : ∀ k : Fin 1024, lidx_main_v19 (ix2 t f) k = ix2 t k := fun k =>
    funext fun a => Fin.ext (by match a with | ⟨0, _⟩ => rfl | ⟨1, _⟩ => rfl)
  have er : ∀ k : Fin 1024, ridx_main_v19 (ix2 t f) k = ix2 k f := fun k =>
    funext fun a => Fin.ext (by match a with | ⟨0, _⟩ => rfl | ⟨1, _⟩ => rfl)
  have eb : idx_main_v20 (idx_main_v21 (ix2 t f)) = ix1 f :=
    funext fun a => Fin.ext (by match a with | ⟨0, _⟩ => rfl)
  have hk : ∀ k : Fin 1024,
      val_main_v18 (F := Ideal) x0 x1 x2 x3 x4 x5 x6 (lidx_main_v19 (ix2 t f) k) * x7 (ridx_main_v19 (ix2 t f) k)
        = act2 x0 x1 x2 x3 x4 x5 x6 t k * x7 (ix2 k f) := fun k => by
    rw [el, er, layer2 x0 x1 x2 x3 x4 x5 x6 h t k]
  rw [eb, Finset.sum_congr rfl (fun k _ => hk k)]
  rfl

/-- Token t's row after the fourth layer and its clamp. -/
def act4 (x0 : (⟨2, ![2048, 4096]⟩ : Shape).Idx → EReal) (x1 : (⟨3, ![16, 32, 1024]⟩ : Shape).Idx → EReal) (x2 : (⟨1, ![2048]⟩ : Shape).Idx → BitVec 32)
    (x3 : (⟨2, ![36864, 1024]⟩ : Shape).Idx → EReal) (x4 : (⟨1, ![1024]⟩ : Shape).Idx → EReal) (x5 : (⟨2, ![1024, 1024]⟩ : Shape).Idx → EReal)
    (x6 : (⟨1, ![1024]⟩ : Shape).Idx → EReal) (x7 : (⟨2, ![1024, 1024]⟩ : Shape).Idx → EReal) (x8 : (⟨1, ![1024]⟩ : Shape).Idx → EReal)
    (x9 : (⟨2, ![1024, 1024]⟩ : Shape).Idx → EReal) (x10 : (⟨1, ![1024]⟩ : Shape).Idx → EReal) (t : Fin 2048) : Fin 1024 → EReal :=
  relu (dense (fun k f => x9 (ix2 k f)) (fun f => x10 (ix1 f)) (act3 x0 x1 x2 x3 x4 x5 x6 x7 x8 t))

theorem layer4 (x0 : (⟨S2048x4096, .f32⟩ : BufTy).Contents (Elt Ideal)) (x1 : (⟨S16x32x1024, .f32⟩ : BufTy).Contents (Elt Ideal))
    (x2 : (⟨S2048, .i32⟩ : BufTy).Contents (Elt Ideal)) (x3 : (⟨S36864x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) (x9 : (⟨S1024x1024, .f32⟩ : BufTy).Contents (Elt Ideal))
    (x10 : (⟨S1024, .f32⟩ : BufTy).Contents (Elt Ideal)) (h : InRange x2) (t : Fin 2048) (f : Fin 1024) :
    val_main_v28 (F := Ideal) x0 x1 x2 x3 x4 x5 x6 x7 x8 x9 x10 (ix2 t f) = act4 x0 x1 x2 x3 x4 x5 x6 x7 x8 x9 x10 t f := by
  rw [val_main_v28_apply, Ideal.maximumf_def, zero_call3, val_main_v27_apply, Ideal.addf_def, val_main_v24_apply,
    val_main_v26_apply, val_main_v25_apply]
  have el : ∀ k : Fin 1024, lidx_main_v24 (ix2 t f) k = ix2 t k := fun k =>
    funext fun a => Fin.ext (by match a with | ⟨0, _⟩ => rfl | ⟨1, _⟩ => rfl)
  have er : ∀ k : Fin 1024, ridx_main_v24 (ix2 t f) k = ix2 k f := fun k =>
    funext fun a => Fin.ext (by match a with | ⟨0, _⟩ => rfl | ⟨1, _⟩ => rfl)
  have eb : idx_main_v25 (idx_main_v26 (ix2 t f)) = ix1 f :=
    funext fun a => Fin.ext (by match a with | ⟨0, _⟩ => rfl)
  have hk : ∀ k : Fin 1024,
      val_main_v23 (F := Ideal) x0 x1 x2 x3 x4 x5 x6 x7 x8 (lidx_main_v24 (ix2 t f) k) * x9 (ridx_main_v24 (ix2 t f) k)
        = act3 x0 x1 x2 x3 x4 x5 x6 x7 x8 t k * x9 (ix2 k f) := fun k => by
    rw [el, er, layer3 x0 x1 x2 x3 x4 x5 x6 x7 x8 h t k]
  rw [eb, Finset.sum_congr rfl (fun k _ => hk k)]
  rfl

theorem ref_apply (x0 : (⟨S2048x4096, .f32⟩ : BufTy).Contents (Elt Ideal)) (x1 : (⟨S16x32x1024, .f32⟩ : BufTy).Contents (Elt Ideal)) (x2 : (⟨S2048, .i32⟩ : BufTy).Contents (Elt Ideal))
    (x3 : (⟨S36864x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal))
    (x11 : (⟨S1024x6, .f32⟩ : BufTy).Contents (Elt Ideal)) (x12 : (⟨S6, .f32⟩ : BufTy).Contents (Elt Ideal))
    (h : InRange x2) (t : Fin 2048) (o : Fin 6) :
    val_main_v32 (F := Ideal) x0 x1 x2 x3 x4 x5 x6 x7 x8 x9 x10 x11 x12 (ix2 t o) = Gat x0 x1 x2 x3 x4 x5 x6 x7 x8 x9 x10 x11 x12 t o := by
  rw [val_main_v32_apply, Ideal.addf_def, val_main_v29_apply, val_main_v31_apply, val_main_v30_apply]
  have el : ∀ k : Fin 1024, lidx_main_v29 (ix2 t o) k = ix2 t k := fun k =>
    funext fun a => Fin.ext (by match a with | ⟨0, _⟩ => rfl | ⟨1, _⟩ => rfl)
  have er : ∀ k : Fin 1024, ridx_main_v29 (ix2 t o) k = ix2 k o := fun k =>
    funext fun a => Fin.ext (by match a with | ⟨0, _⟩ => rfl | ⟨1, _⟩ => rfl)
  have eb : idx_main_v30 (idx_main_v31 (ix2 t o)) = ix1 o :=
    funext fun a => Fin.ext (by match a with | ⟨0, _⟩ => rfl)
  have hk : ∀ k : Fin 1024,
      val_main_v28 (F := Ideal) x0 x1 x2 x3 x4 x5 x6 x7 x8 x9 x10 (lidx_main_v29 (ix2 t o) k) * x11 (ridx_main_v29 (ix2 t o) k)
        = act4 x0 x1 x2 x3 x4 x5 x6 x7 x8 x9 x10 t k * x11 (ix2 k o) := fun k => by
    rw [el, er, layer4 x0 x1 x2 x3 x4 x5 x6 x7 x8 x9 x10 h t k]
  rw [eb, Finset.sum_congr rfl (fun k _ => hk k)]
  rfl

end Cert.ReferenceIdeal.RefValue

end
-- ==== Proof.Bridge.lean ====
/-
  The algebra that joins the two programs' first layers, over the extended reals: the two halves' accumulated block
  products add up to the whole product of a vision row with a weight column (addition is commutative and associative,
  zero is neutral); an indicator row times a table picks the table's row (zero annihilates, one is neutral); hence the
  kernel's first layer on a token is the reference's on that token's sample row, and so are the five layers.
-/
import proofs.«425794_j25228637897251_3_alg».proof.Proof.KSpec
import Mathlib.Algebra.BigOperators.Fin
import Mathlib.Data.Fintype.BigOperators
import Mathlib.Logic.Equiv.Fin.Basic

noncomputable section

namespace Cert.Bridge

open Idealize.ShloMosaic Idealize.ShloMosaic.ValueIdx Cert.Spec Cert.KSpec

/-- Column block `q` is the sum, over the second coordinate, of the whole product's summand at the pair `(q, j)`,
    the pair being read as the index `j + 4096 * q`. -/
theorem blockDot_eq (vis : Fin 32768 → EReal) (Wc : Fin 36864 → EReal) (q : Fin 8) :
    blockDot vis Wc q
      = ∑ j : Fin 4096, (fun i : Fin 32768 => vis i * Wc ⟨i.val, by omega⟩)
          ((finProdFinEquiv : Fin 8 × Fin 4096 ≃ Fin 32768) (q, j)) := by
  unfold blockDot
  refine Finset.sum_congr rfl (fun j _ => ?_)
  have h : (⟨q.val * 4096 + j.val, by omega⟩ : Fin 32768)
      = (finProdFinEquiv : Fin 8 × Fin 4096 ≃ Fin 32768) (q, j) := by
    apply Fin.ext
    show q.val * 4096 + j.val = j.val + 4096 * q.val
    omega
  have h' : (⟨q.val * 4096 + j.val, by omega⟩ : Fin 36864)
      = ⟨((finProdFinEquiv : Fin 8 × Fin 4096 ≃ Fin 32768) (q, j)).val, by omega⟩ := by
    apply Fin.ext
    show q.val * 4096 + j.val = j.val + 4096 * q.val
    omega
  rw [h, h']

/-- The whole product, summed block by block. -/
theorem whole_eq_blocks (vis : Fin 32768 → EReal) (Wc : Fin 36864 → EReal) :
    ∑ j : Fin 32768, vis j * Wc ⟨j.val, by omega⟩ = ∑ q : Fin 8, blockDot vis Wc q := by
  rw [← Equiv.sum_comp (finProdFinEquiv : Fin 8 × Fin 4096 ≃ Fin 32768)
        (fun i : Fin 32768 => vis i * Wc ⟨i.val, by omega⟩), Fintype.sum_prod_type]
  refine Finset.sum_congr rfl (fun q _ => ?_)
  rw [blockDot_eq]

/-- The two halves together are the whole product. -/
theorem planes_sum (vis : Fin 32768 → EReal) (Wc : Fin 36864 → EReal) :
    plane vis Wc 0 + plane vis Wc 1 = ∑ j : Fin 32768, vis j * Wc ⟨j.val, by omega⟩ := by
  rw [whole_eq_blocks, Fin.sum_univ_eight]
  unfold plane
  simp only [zero_add]
  -- both sides are the eight blocks in order; only the bracketing differs
  show blockDot vis Wc 0 + blockDot vis Wc 1 + blockDot vis Wc 2 + blockDot vis Wc 3
      + (blockDot vis Wc 4 + blockDot vis Wc 5 + blockDot vis Wc 6 + blockDot vis Wc 7)
    = blockDot vis Wc 0 + blockDot vis Wc 1 + blockDot vis Wc 2 + blockDot vis Wc 3
      + blockDot vis Wc 4 + blockDot vis Wc 5 + blockDot vis Wc 6 + blockDot vis Wc 7
  simp only [add_assoc]

/-- A word whose signed reading lies in the sixteen samples has that unsigned reading too. -/
theorem toNat_lt_of_toInt (w : BitVec 32) (hw : 0 ≤ w.toInt ∧ w.toInt < 16) :
    w.toNat < 16 ∧ w.toInt = (w.toNat : Int) := by
  have h := BitVec.toInt_eq_toNat_cond w
  have hlt := w.isLt
  obtain ⟨h0, h1⟩ := hw
  split at h <;> omega

/-- The sample such a word names is its unsigned reading. -/
theorem sel_val (w : BitVec 32) (hw : 0 ≤ w.toInt ∧ w.toInt < 16) : (sel w).val = w.toNat := by
  obtain ⟨h1, h2⟩ := toNat_lt_of_toInt w hw
  show min w.toInt.toNat 15 = w.toNat
  omega

/-- An index word that names a sample: its indicator row picks that sample's entry. -/
theorem hot_sum (w : BitVec 32) (hw : 0 ≤ w.toInt ∧ w.toInt < 16) (Q : Fin 16 → EReal) :
    ∑ b : Fin 16, hot w b * Q b = Q (sel w) := by
  obtain ⟨h1, h2⟩ := toNat_lt_of_toInt w hw
  have hs := sel_val w hw
  rw [Finset.sum_eq_single (sel w)]
  · -- the surviving summand: the word is the sample's number, so the indicator is one
    have hwe : w = BitVec.ofNat 32 (sel w).val := by
      apply BitVec.eq_of_toNat_eq
      rw [BitVec.toNat_ofNat, hs]
      omega
    unfold hot
    rw [if_pos hwe, one_mul]
  · -- every other summand: numbers below sixteen are distinct as words, so the indicator is zero
    intro b _ hb
    have hne : ¬ (w = BitVec.ofNat 32 b.val) := by
      intro he
      apply hb
      apply Fin.ext
      rw [hs, he, BitVec.toNat_ofNat]
      have := b.isLt
      omega
    unfold hot
    rw [if_neg hne, zero_mul]
  · intro h
    exact absurd (Finset.mem_univ _) h

/-- The kernel's first layer is the reference's on the token's sample row, when the planes hold the halves' products. -/
theorem kfirst_eq (w : BitVec 32) (hw : 0 ≤ w.toInt ∧ w.toInt < 16) (P : (⟨3, ![2, 16, 1024]⟩ : Shape).Idx → EReal)
    (visOf : Fin 16 → Fin 32768 → EReal) (grd : Fin 4096 → EReal) (W1 : Fin 36864 → Fin 1024 → EReal)
    (hP : ∀ (p : Fin 2) (b : Fin 16) (f : Fin 1024), P (ix3 p b f) = plane (visOf b) (fun j => W1 j f) p) :
    kfirst w P grd W1 = first (visOf (sel w)) grd W1 := by
  funext f
  -- each sample's two planes add up to that sample's whole product
  have hrow : ∀ b : Fin 16, P (ix3 (0 : Fin 2) b f) + P (ix3 (1 : Fin 2) b f)
      = ∑ j : Fin 32768, visOf b j * W1 ⟨j.val, by omega⟩ f := by
    intro b
    rw [hP, hP]
    exact planes_sum (visOf b) (fun j => W1 j f)
  -- so the indicator row against the planes' sum picks the named sample's whole product
  have hsum : (∑ b : Fin 16, hot w b * (P (ix3 (0 : Fin 2) b f) + P (ix3 (1 : Fin 2) b f)))
      = ∑ j : Fin 32768, visOf (sel w) j * W1 ⟨j.val, by omega⟩ f := by
    rw [← hot_sum w hw (fun b => ∑ j : Fin 32768, visOf b j * W1 ⟨j.val, by omega⟩ f)]
    refine Finset.sum_congr rfl (fun b _ => ?_)
    rw [hrow b]
  unfold kfirst first
  rw [hsum]

/-- And so are the five layers. -/
theorem knet_eq (w : BitVec 32) (hw : 0 ≤ w.toInt ∧ w.toInt < 16) (P : (⟨3, ![2, 16, 1024]⟩ : Shape).Idx → EReal)
    (visOf : Fin 16 → Fin 32768 → EReal) (grd : Fin 4096 → EReal) (W1 : Fin 36864 → Fin 1024 → EReal) (b1 : Fin 1024 → EReal)
    (W2 : Fin 1024 → Fin 1024 → EReal) (b2 : Fin 1024 → EReal) (W3 : Fin 1024 → Fin 1024 → EReal) (b3 : Fin 1024 → EReal)
    (W4 : Fin 1024 → Fin 1024 → EReal) (b4 : Fin 1024 → EReal) (W5 : Fin 1024 → Fin 6 → EReal) (b5 : Fin 6 → EReal)
    (hP : ∀ (p : Fin 2) (b : Fin 16) (f : Fin 1024), P (ix3 p b f) = plane (visOf b) (fun j => W1 j f) p) :
    knet w P grd W1 b1 W2 b2 W3 b3 W4 b4 W5 b5 = net (visOf (sel w)) grd W1 b1 W2 b2 W3 b3 W4 b4 W5 b5 := by
  unfold knet net
  rw [kfirst_eq w hw P visOf grd W1 hP]

end Cert.Bridge

end
-- ==== Proof.Assembly.lean ====
/-
  The claims. The kernel's result array is the network `G` of the arguments (region 1's rows over region 0's planes,
  joined to the specification by the bridge, the host stretches read through, the index vector in range by the
  precondition); the reference's result is the same `G` (its run read index by index); the frames are the runs with
  the result forgotten.
-/
import proofs.«425794_j25228637897251_3_alg».proof.Defs
import proofs.«425794_j25228637897251_3_alg».proof.Proof.RunCond
import proofs.«425794_j25228637897251_3_alg».proof.Proof.KRunCond
import proofs.«425794_j25228637897251_3_alg».proof.Proof.R0Value
import proofs.«425794_j25228637897251_3_alg».proof.Proof.R1Value
import proofs.«425794_j25228637897251_3_alg».proof.Proof.HostReads
import proofs.«425794_j25228637897251_3_alg».proof.Proof.PreIdx
import proofs.«425794_j25228637897251_3_alg».proof.Proof.RefValue
import proofs.«425794_j25228637897251_3_alg».proof.Proof.Bridge
import proofs.«425794_j25228637897251_3_alg».proof.Proof.Gen.ReferenceIdeal.Run
import proofs.«425794_j25228637897251_3_alg».proof.Proof.Gen.ReferenceIdeal.Read
import proofs.«425794_j25228637897251_3_alg».proof.Proof.Gen.Pre_finite_inputs

set_option maxRecDepth 16384

noncomputable section

namespace Cert.Proof.Claims

open Idealize.ShloMosaic Idealize.ShloMosaic.TcCoe Idealize.ShloMosaic.ValueIdx Idealize.SL.Sem
open Cert.Spec Cert.KSpec

section Kernel
open Cert.KernelIdeal Cert.KernelIdeal.Gen Cert.KernelIdeal.Run Cert.KernelIdeal.HostReads

variable (m : (ℓ : Loc nD τ sig) → Buf (Elt Ideal) ℓ)

-- the boundary contents are folds over the host stretches: they stay folded here, so that comparing two of them
-- never evaluates the fold
set_option allowUnsafeReducibility true in
attribute [local irreducible] Cert.KernelIdeal.Run.E0 Cert.KernelIdeal.Run.E1

/-- Region 0's planes, as region 1 finds them, hold the halves' block products of the arguments. -/
theorem planes_value (c : Dev nD) (p : Fin 2) (b : Fin 16) (f : Fin 1024) :
    ((Cert.KernelIdeal.R0.dat (F := Ideal) (E0 m) c).arrAt 2 cfg0.N : S2x16x1024.Idx → EReal) (ix3 p b f)
      = plane (fun j => ((m ((c.tc : Thread nD τ).loc Cert.KernelIdeal.main_arg1)) : S16x32x1024.Idx → EReal) (visAt b j))
          (fun j => ((m ((c.tc : Thread nD τ).loc Cert.KernelIdeal.main_arg3)) : S36864x1024.Idx → EReal) (ix2 j f)) p := by
  rw [Cert.KernelIdeal.R0V.plane_apply (E0 m) c p b f]
  simp only [E0_v2, E0_arg3]

/-- The kernel's result array is the network of the arguments, when the index vector is in range. -/
theorem kernel_value (c : Dev nD) (h : InRange (m ((c.tc : Thread nD τ).loc Cert.KernelIdeal.main_arg2))) :
    ((Cert.KernelIdeal.R1.dat (F := Ideal) (E1 m) c).arrAt 13 cfg1.N : S2048x6.Idx → EReal)
      = G (m ((c.tc : Thread nD τ).loc Cert.KernelIdeal.main_arg0)) (m ((c.tc : Thread nD τ).loc Cert.KernelIdeal.main_arg1)) (m ((c.tc : Thread nD τ).loc Cert.KernelIdeal.main_arg2)) (m ((c.tc : Thread nD τ).loc Cert.KernelIdeal.main_arg3)) (m ((c.tc : Thread nD τ).loc Cert.KernelIdeal.main_arg4)) (m ((c.tc : Thread nD τ).loc Cert.KernelIdeal.main_arg5)) (m ((c.tc : Thread nD τ).loc Cert.KernelIdeal.main_arg6)) (m ((c.tc : Thread nD τ).loc Cert.KernelIdeal.main_arg7)) (m ((c.tc : Thread nD τ).loc Cert.KernelIdeal.main_arg8)) (m ((c.tc : Thread nD τ).loc Cert.KernelIdeal.main_arg9)) (m ((c.tc : Thread nD τ).loc Cert.KernelIdeal.main_arg10)) (m ((c.tc : Thread nD τ).loc Cert.KernelIdeal.main_arg11)) (m ((c.tc : Thread nD τ).loc Cert.KernelIdeal.main_arg12)) := by
  funext i
  obtain ⟨t, o, rfl⟩ : ∃ (t : Fin 2048) (o : Fin 6), i = ix2 t o := ⟨i 0, i 1, eq_ix2 i⟩
  rw [Cert.KernelIdeal.R1V.out_apply (E1 m) c t o, G_apply]
  unfold Gat
  simp only [E1_v1 m c h t, E1_v3, E1_arg0, E1_arg3, E1_arg5, E1_arg7, E1_arg9, E1_arg11, E1_v4, E1_v5, E1_v6, E1_v7, E1_v8]
  exact congrFun (Cert.Bridge.knet_eq _ (h t) _ (fun b j => ((m ((c.tc : Thread nD τ).loc Cert.KernelIdeal.main_arg1)) : S16x32x1024.Idx → EReal) (visAt b j)) _ _ _ _ _ _ _ _ _ _ _
    (planes_value m c)) o

end Kernel

/-- The precondition's index-range conjunct, on every core. -/
theorem inRange_of_pre [hP : Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) : InRange (m ((c.tc : Thread Cert.KernelIdeal.nD Cert.KernelIdeal.τ).loc Cert.KernelIdeal.main_arg2)) :=
  Cert.PreIdx.inRange_of_fn _ _ _ _ _ _ _ _ _ _ _ _ _ (h c)

/-! ## The claims -/

theorem frame_k : Cert.frame_Kernel := fun m ρ _ => Cert.Kernel.Run.frame m ρ
theorem frame_ki : Cert.frame_KernelIdeal := fun m ρ _ => Cert.KernelIdeal.Run.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the network `G` of the (agreeing) arguments in their result arrays. -/
theorem algebraic : Cert.algebraic_KernelIdeal_ReferenceIdeal := by
  intro m ρ m' ρ' hpre hagree
  have hr := fun c => inRange_of_pre m hpre c
  refine ⟨fun c => G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun _ h c => ⟨(h c).1.trans (kernel_value m c (hr c)), (h c).2⟩)
      (Cert.KernelIdeal.Run.run_val m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v32_eq (F := Ideal) _ _ _ _ _ _ _ _ _ _ _ _ _).trans ?_
    obtain ⟨h0, h1, h2, h3, h4, h5, h6, h7, h8, h9, h10, h11, h12⟩ := hagree c
    rw [h0, h1, h2, h3, h4, h5, h6, h7, h8, h9, h10, h11, h12]
    funext i
    obtain ⟨t, o, rfl⟩ : ∃ (t : Fin 2048) (o : Fin 6), i = ix2 t o := ⟨i 0, i 1, eq_ix2 i⟩
    exact Cert.ReferenceIdeal.RefValue.ref_apply _ _ _ _ _ _ _ _ _ _ _ _ _ (hr c) t o

end Cert.Proof.Claims

end
-- ==== Proof.lean ====
/-
  The certificate: a per-token gather of a sample's vision features joined to the token's language features and run
  through five dense layers. The kernel first projects the sixteen samples' vision rows through the vision rows of the
  first weight matrix (two halves accumulated over four column blocks each), then, per block of 128 tokens, picks each
  token's projected row by a product with its indicator row, adds the language part and runs the layers; the reference
  gathers the vision row per token, joins it to the language row and multiplies once. Over the extended reals the two
  are the same sums regrouped, as soon as every token's sample index lies in the range of the sixteen samples.
-/
import proofs.«425794_j25228637897251_3_alg».proof.Defs
import proofs.«425794_j25228637897251_3_alg».proof.Proof.Assembly

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
